-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S4096x65536 : Shape := ⟨2, ![4096, 65536]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : IVec S4096x65536 32) (main_arg1 : IVec S1024 32) (main_arg2 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 4096#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S4096x65536 : Shape := ⟨2, ![4096, 65536]⟩
abbrev S1024 : Shape := ⟨1, ![1024]⟩
abbrev S1024x1 : Shape := ⟨2, ![1024, 1]⟩
abbrev S4096x1024x64 : Shape := ⟨3, ![4096, 1024, 64]⟩
abbrev S1024x1024 : Shape := ⟨2, ![1024, 1024]⟩
abbrev S64x1 : Shape := ⟨2, ![64, 1]⟩
abbrev S64x1024 : Shape := ⟨2, ![64, 1024]⟩
abbrev S64 : Shape := ⟨1, ![64]⟩
abbrev S1 : Shape := ⟨1, ![1]⟩
abbrev S_ : Shape := ⟨0, ![]⟩
abbrev S1x1024 : Shape := ⟨2, ![1, 1024]⟩
abbrev S1x1024x1 : Shape := ⟨3, ![1, 1024, 1]⟩

abbrev nBuf : Space → Nat
  | .hbm => 5
  | .vmem => 5
  | .smem => 1
  | _ => 0

abbrev bufTy : (tb : Table) → Fin (tcTables nBuf tb) → BufTy
  | .hbm, ⟨0, _⟩ => ⟨S4096x65536, .i32⟩
  | .hbm, ⟨1, _⟩ => ⟨S1024, .i32⟩
  | .hbm, ⟨2, _⟩ => ⟨S1024x1, .i32⟩
  | .hbm, ⟨3, _⟩ => ⟨S4096x1024x64, .i32⟩
  | .hbm, ⟨4, _⟩ => ⟨S1024x1024, .i32⟩
  | .local _ .vmem, ⟨0, _⟩ => ⟨S64x1, .i32⟩
  | .local _ .vmem, ⟨1, _⟩ => ⟨S64x1, .i32⟩
  | .local _ .vmem, ⟨2, _⟩ => ⟨S64x1024, .i32⟩
  | .local _ .vmem, ⟨3, _⟩ => ⟨S64x1024, .i32⟩
  | .local _ .vmem, ⟨4, _⟩ => ⟨S64x1024, .i32⟩
  | .local _ .smem, ⟨0, _⟩ => ⟨S1024, .i32⟩
  | _, _ => ⟨S4096x65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c64_i32_0 : BitVec 32 := 64#32
  let v1 : BitVec 32 := Scalar.addi c0_i32 c64_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c64_i32 : BitVec 32 := 64#32
  let v0 : BitVec 32 := Scalar.muli arg0 c64_i32
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v18 : BitVec 32 := Scalar.muli arg7 c1_i32_13
  let v19 : BitVec 32 := Scalar.addi c0_i32_14 v18
  let v20 : BitVec 32 := Scalar.addi v0 v19
  let v21 : Index := Scalar.indexCast v20
  ![v21.toNat]
def k0_off2 (k0_t1 : Fin k0_t1_loop.trips) : Fin 1 → Nat :=
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v18 : BitVec 32 := Scalar.muli arg7 c1_i32_13
  let v19 : BitVec 32 := Scalar.addi c0_i32_14 v18
  ![v19.toNat]
def k0_off3 (k0_t1 : Fin k0_t1_loop.trips) : Fin 2 → Nat :=
  let c0_i32_14 : BitVec 32 := 0#32
  let c0_i32 : BitVec 32 := 0#32
  let c1_i32 : BitVec 32 := 1#32
  let arg7 : BitVec 32 := Scf.iv c0_i32 c1_i32 k0_t1
  let c1_i32_13 : BitVec 32 := 1#32
  let v18 : BitVec 32 := Scalar.muli arg7 c1_i32_13
  let v19 : BitVec 32 := Scalar.addi c0_i32_14 v18
  let c0_i32_16 : BitVec 32 := 0#32
  ![v19.toNat, 0]
def k0_off4 (v22 : BitVec 32) : Fin 3 → Nat :=
  let c0_i32_17 : BitVec 32 := 0#32
  let c0_i32_15 : BitVec 32 := 0#32
  ![v22.toNat, 0, 0]

def k0_chk1 (v22 : BitVec 32) : Prop :=
  (∀ a, (k0_off4 v22) a + S1x1024x1.size a ≤ S4096x1024x64.size a)
instance k0_chk1.dec : ∀ (v22 : BitVec 32), Decidable (k0_chk1 v22) := fun v22 => decidable_of_iff' _ (Iff.of_eq (k0_chk1.eq_1 v22))
theorem k0_off4_inb : ∀ (v22 : BitVec 32) (k0_hw1 : k0_chk1 v22), ∀ a, (k0_off4 v22) a + S1x1024x1.size a ≤ S4096x1024x64.size a := fun v22 k0_hw1 => k0_hw1

@[reducible] def k0_t2_loop : Scf.Loop 32 :=
  let c0_i32_2 : BitVec 32 := 0#32
  let c64_i32_3 : BitVec 32 := 64#32
  let v2 : BitVec 32 := Scalar.addi c0_i32_2 c64_i32_3
  let c1_i32_4 : BitVec 32 := 1#32
  ⟨c0_i32_2, v2, c1_i32_4⟩
def k0_off5 (k0_t2 : Fin k0_t2_loop.trips) : Fin 1 → Nat :=
  let c0_i32_14 : BitVec 32 := 0#32
  let c0_i32_2 : BitVec 32 := 0#32
  let c1_i32_4 : BitVec 32 := 1#32
  let arg7 : BitVec 32 := Scf.iv c0_i32_2 c1_i32_4 k0_t2
  let c1_i32_13 : BitVec 32 := 1#32
  let v18 : BitVec 32 := Scalar.muli arg7 c1_i32_13
  let v19 : BitVec 32 := Scalar.addi c0_i32_14 v18
  ![v19.toNat]
def k0_off6 (k0_t2 : Fin k0_t2_loop.trips) : Fin 2 → Nat :=
  let c0_i32_14 : BitVec 32 := 0#32
  let c0_i32_2 : BitVec 32 := 0#32
  let c1_i32_4 : BitVec 32 := 1#32
  let arg7 : BitVec 32 := Scf.iv c0_i32_2 c1_i32_4 k0_t2
  let c1_i32_13 : BitVec 32 := 1#32
  let v18 : BitVec 32 := Scalar.muli arg7 c1_i32_13
  let v19 : BitVec 32 := Scalar.addi c0_i32_14 v18
  let c0_i32_17 : BitVec 32 := 0#32
  ![v19.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S1024_S1024x1 : S1024.ShapeCasts S1024x1
  shapeCasts_S4096x65536_S4096x1024x64 : S4096x65536.ShapeCasts S4096x1024x64
  numel1_S1 : S1.numel = 1
  squeezes_S1_S_ : S1.Squeezes S_
  squeezes_S1x1024_S1024 : S1x1024.Squeezes S1024
  squeezes_S1x1024x1_S1024 : S1x1024x1.Squeezes S1024
  inb_S4096x1024x64_S1x1024x1_0_0_0 : ∀ a, (![0, 0, 0] : Fin 3 → Nat) a + S1x1024x1.size a ≤ S4096x1024x64.size a
  inb_S64x1024_S64x1024_0_0 : ∀ a, (![0, 0] : Fin 2 → Nat) a + S64x1024.size a ≤ S64x1024.size a
  h_S64x1024 : 0 < S64x1024.numel
  iota_S64x1024_d1_w32 : S64x1024.Iotas .tc 32 [1]
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x1024 : S64x1.Broadcasts S64x1024
  hcc0_scratch1 : 4 + S64.numel ≤ 68
  hrank0 : 0 < grid0.rank
  k0_t1_ok : k0_t1_loop.OK
  k0_off1_inb : ∀ (i : grid0.Coords) (k0_t1 : Fin k0_t1_loop.trips), ∀ a, (k0_off1 i k0_t1) a + S1.size a ≤ S1024.size a
  k0_off2_inb : ∀ k0_t1 : Fin k0_t1_loop.trips, ∀ a, (k0_off2 k0_t1) a + S1.size a ≤ S64.size a
  k0_off3_inb : ∀ k0_t1 : Fin k0_t1_loop.trips, ∀ a, (k0_off3 k0_t1) a + S1x1024.size a ≤ S64x1024.size a
  k0_t2_ok : k0_t2_loop.OK
  k0_off5_inb : ∀ k0_t2 : Fin k0_t2_loop.trips, ∀ a, (k0_off5 k0_t2) a + S1.size a ≤ S64.size a
  k0_off6_inb : ∀ k0_t2 : Fin k0_t2_loop.trips, ∀ a, (k0_off6 k0_t2) a + S1x1024.size a ≤ S64x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1.size a ≤ S1024x1.size a
  hwx0_0 : ∀ i : grid0.Coords, EltTy.bits .i32 = 32 ∨ (Rect.block (s := S1024x1) S64x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_2 i = cc0_transform_2 i'
  hinb0_1 : ∀ (i : grid0.Coords) a, (cc0_transform_2 i a + 1) * S64x1024.size a ≤ S1024x1024.size a
  hwx0_1 : ∀ i : grid0.Coords, EltTy.bits .i32 = 32 ∨ (Rect.block (s := S1024x1024) S64x1024.size (cc0_transform_2 i) (hinb0_1 i)).WholeWords (EltTy.packing .i32)

variable [Facts₀]

abbrev cc0_scratch1 : DmaSems sig S64 := SemArray.consecutive 4 S64 hcc0_scratch1

abbrev spec0_0 : Pipeline.WinSpec sig grid0.rank :=
  Pipeline.WinSpec.ofSpec (Memref.whole main_v0) S64x1.size reads0_0 false false 2 stage0_0 sem0_0 nbuf0_0 hstage0_0

abbrev spec0_1 : Pipeline.WinSpec sig grid0.rank :=
  Pipeline.WinSpec.ofSpec (Memref.whole main_v2) S64x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_2 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4096x65536 : Shape := ⟨2, ![4096, 65536]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S1024x1024x1 : Shape := ⟨3, ![1024, 1024, 1]⟩
abbrev S1024x1024x2 : Shape := ⟨3, ![1024, 1024, 2]⟩

abbrev nBuf : Space → Nat
  | .hbm => 80
  | .vmem => 0
  | .smem => 0
  | _ => 0

abbrev bufTy : (tb : Table) → Fin (tcTables nBuf tb) → BufTy
  | .hbm, ⟨0, _⟩ => ⟨S4096x65536, .i32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S_, .i32⟩
  | .hbm, ⟨15, _⟩ => ⟨S1024, .i32⟩
  | .hbm, ⟨16, _⟩ => ⟨S1024, .i1⟩
  | .hbm, ⟨17, _⟩ => ⟨S1024, .i32⟩
  | .hbm, ⟨18, _⟩ => ⟨S1024, .i32⟩
  | .hbm, ⟨19, _⟩ => ⟨S_, .i32⟩
  | .hbm, ⟨20, _⟩ => ⟨S1024, .i32⟩
  | .hbm, ⟨21, _⟩ => ⟨S1024, .i1⟩
  | .hbm, ⟨22, _⟩ => ⟨S1024, .i1⟩
  | .hbm, ⟨23, _⟩ => ⟨S_, .i32⟩
  | .hbm, ⟨24, _⟩ => ⟨S1024, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1x1024, .i32⟩
  | .hbm, ⟨33, _⟩ => ⟨S_, .i32⟩
  | .hbm, ⟨34, _⟩ => ⟨S1024x1, .i32⟩
  | .hbm, ⟨35, _⟩ => ⟨S1024x1, .i1⟩
  | .hbm, ⟨36, _⟩ => ⟨S_, .i32⟩
  | .hbm, ⟨37, _⟩ => ⟨S1024x1, .i32⟩
  | .hbm, ⟨38, _⟩ => ⟨S1024x1, .i32⟩
  | .hbm, ⟨39, _⟩ => ⟨S1024x1, .i32⟩
  | .hbm, ⟨40, _⟩ => ⟨S_, .i32⟩
  | .hbm, ⟨41, _⟩ => ⟨S1x1024, .i32⟩
  | .hbm, ⟨42, _⟩ => ⟨S1x1024, .i1⟩
  | .hbm, ⟨43, _⟩ => ⟨S_, .i32⟩
  | .hbm, ⟨44, _⟩ => ⟨S1x1024, .i32⟩
  | .hbm, ⟨45, _⟩ => ⟨S1x1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024x1, .i32⟩
  | .hbm, ⟨50, _⟩ => ⟨S1024x1024x1, .i32⟩
  | .hbm, ⟨51, _⟩ => ⟨S1024x1024x2, .i32⟩
  | .hbm, ⟨52, _⟩ => ⟨S1024x1024, .i32⟩
  | .hbm, ⟨53, _⟩ => ⟨S_, .i32⟩
  | .hbm, ⟨54, _⟩ => ⟨S_, .i32⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S1024x1024, .i32⟩
  | .hbm, ⟨60, _⟩ => ⟨S1024x1024, .i1⟩
  | .hbm, ⟨61, _⟩ => ⟨S1024x1024, .i32⟩
  | .hbm, ⟨62, _⟩ => ⟨S1024x1024, .i32⟩
  | .hbm, ⟨63, _⟩ => ⟨S_, .i32⟩
  | .hbm, ⟨64, _⟩ => ⟨S1024x1024, .i32⟩
  | .hbm, ⟨65, _⟩ => ⟨S1024x1024, .i1⟩
  | .hbm, ⟨66, _⟩ => ⟨S1024x1024, .i1⟩
  | .hbm, ⟨67, _⟩ => ⟨S_, .i32⟩
  | .hbm, ⟨68, _⟩ => ⟨S1024x1024, .i32⟩
  | .hbm, ⟨69, _⟩ => ⟨S1024x1024, .i32⟩
  | .hbm, ⟨70, _⟩ => ⟨S1024x1024, .i32⟩
  | .hbm, ⟨71, _⟩ => ⟨S1x1024, .i32⟩
  | .hbm, ⟨72, _⟩ => ⟨S1024x1, .i32⟩
  | .hbm, ⟨73, _⟩ => ⟨S1024x1024, .i32⟩
  | .hbm, ⟨74, _⟩ => ⟨S1024x1024, .i32⟩
  | .hbm, ⟨75, _⟩ => ⟨S1024x1024, .i1⟩
  | .hbm, ⟨76, _⟩ => ⟨S_, .i32⟩
  | .hbm, ⟨77, _⟩ => ⟨S_, .i32⟩
  | .hbm, ⟨78, _⟩ => ⟨S1024x1024, .i32⟩
  | .hbm, ⟨79, _⟩ => ⟨S1024x1024, .i32⟩
  | _, _ => ⟨S4096x65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_c_2 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c_3 : Ref sig .tc := ⟨.hbm, 33, rfl⟩
abbrev main_v10 : Ref sig .tc := ⟨.hbm, 34, rfl⟩
abbrev main_v11 : Ref sig .tc := ⟨.hbm, 35, rfl⟩
abbrev main_c_4 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_5 : Ref sig .tc := ⟨.hbm, 40, rfl⟩
abbrev main_v15 : Ref sig .tc := ⟨.hbm, 41, rfl⟩
abbrev main_v16 : Ref sig .tc := ⟨.hbm, 42, rfl⟩
abbrev main_c_6 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_7 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_c : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_0 : Ref sig .tc := ⟨.hbm, 67, rfl⟩
abbrev main_call1_v12 : Ref sig .tc := ⟨.hbm, 68, rfl⟩
abbrev main_call1_v13 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_c_8 : Ref sig .tc := ⟨.hbm, 76, rfl⟩
abbrev main_call2_v0 : Ref sig .tc := ⟨.hbm, 77, rfl⟩
abbrev main_call2_v1 : Ref sig .tc := ⟨.hbm, 78, rfl⟩
abbrev main_v32 : Ref sig .tc := ⟨.hbm, 79, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S_S1024x1 : S_.BroadcastsInDim S1024x1 (![] : Fin 0 → Fin S1024x1.rank)
  bcast_S_S1x1024 : S_.BroadcastsInDim S1x1024 (![] : Fin 0 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S1024x1024_S1024x1024x1_0_1 : S1024x1024.BroadcastsInDim S1024x1024x1 (![0, 1] : Fin 2 → Fin S1024x1024x1.rank)
  concatenates_S1024x1024x1_S1024x1024x1_S1024x1024x2_d2 : Shape.Concatenates [S1024x1024x1, S1024x1024x1] S1024x1024x2 2
  bcast_S_S1024x1024 : S_.BroadcastsInDim S1024x1024 (![] : Fin 0 → Fin S1024x1024.rank)
  gather_S4096x65536_S1024x1024x2_S1024x1024_n_01_n_n_01_2_11_wf : GatherDims.WF S4096x65536 S1024x1024x2 S1024x1024 [] [0, 1] [] [0, 1] [] 2 ![1, 1]

variable [Facts₀]

def gather_S4096x65536_S1024x1024x2_S1024x1024_n_01_n_n_01_2_11 : GatherDims S4096x65536 S1024x1024x2 S1024x1024 where
  offsetDims := []
  collapsedSliceDims := [0, 1]
  operandBatchingDims := []
  startIndicesBatchingDims := []
  startIndexMap := [0, 1]
  indexVectorDim := 2
  sliceSizes := ![1, 1]
  wf := gather_S4096x65536_S1024x1024x2_S1024x1024_n_01_n_n_01_2_11_wf

class Facts : Prop extends Facts₀ where

variable [Facts]
-- ==== Proof.Spec.lean ====
/-
  The result both programs compute, as ONE function of the three argument arrays, element by element.

  Request `b` names a row `idx[b]` of the token table and a length `len[b]`. Its output row holds, at page `p`, the
  page number of the first token of page `p` of that row — the table's word at column `64 * p`, shifted right by 6
  arithmetically, which is its floor quotient by the page size 64 — when `p` is below the request's page count
  `(len[b] + 63) >> 6` (the ceiling of `len[b] / 64`), and zero elsewhere. All arithmetic is 32-bit two's complement.
-/
import Idealize.ShloMosaic.PureOps
import Idealize.ShloMosaic.Lib.ValueIdx

noncomputable section

namespace Cert.Spec

open Idealize.ShloMosaic Idealize.ShloMosaic.ValueIdx

/-- The token table, one row of 65536 words per pool slot. -/
abbrev STok : Shape := ⟨2, ![4096, 65536]⟩
/-- One word per request. -/
abbrev SReq : Shape := ⟨1, ![1024]⟩
/-- One row of 1024 page numbers per request. -/
abbrev SOut : Shape := ⟨2, ![1024, 1024]⟩

/-- The pool row a word names, as a row index: the word itself when it is below 4096 (reduced modulo 4096 otherwise,
    so that the function is total; the certificate's precondition keeps every word below 4096). -/
def rowOf (w : BitVec 32) : Fin 4096 := ⟨w.toNat % 4096, Nat.mod_lt _ (by decide)⟩

/-- A word below 4096 names itself. -/
theorem rowOf_val (w : BitVec 32) (h : w.toNat < 4096) : (rowOf w).val = w.toNat := Nat.mod_eq_of_lt h

/-- The column of the first token of page `p`. -/
def colOf (p : Fin 1024) : Fin 65536 := ⟨64 * p.val, by have := p.isLt; omega⟩

/-- A request's page count from its length: `(len + 63) >> 6`, arithmetic shift. -/
def pages (len : BitVec 32) : BitVec 32 := IntOp.shrsi .vector (IntOp.addi len 63#32) 6#32

/-- The result at request `b`, page `p`. -/
def Gat (tok : IVec STok 32) (idx len : IVec SReq 32) (b p : Fin 1024) : BitVec 32 :=
  Scalar.select (IntOp.cmpi .slt (BitVec.ofNat 32 p.val) (pages (len (ix1 b))))
    (IntOp.shrsi .vector (tok (ix2 (rowOf (idx (ix1 b))) (colOf p))) 6#32) 0#32

/-- The result array. -/
def G (tok : IVec STok 32) (idx len : IVec SReq 32) : IVec SOut 32 := fun i => Gat tok idx len (i 0) (i 1)

theorem G_apply (tok : IVec STok 32) (idx len : IVec SReq 32) (b p : Fin 1024) : G tok idx len (ix2 b p) = Gat tok idx len b p := rfl

end Cert.Spec

end
-- ==== Proof.K.Base.lean ====
/-
  The kernel's operands, loops and words, named once for the modules that run its body and launch it.
-/
import proofs.«412879_j28681791602762_2_alg».proof.Proof.Gen.Kernel.Skeleton
import proofs.«412879_j28681791602762_2_alg».proof.Proof.Gen.Kernel.Loops
import proofs.«412879_j28681791602762_2_alg».proof.Proof.Gen.Kernel.Launch
import Idealize.ShloMosaic.Lib.Pipeline.Frame
import Idealize.ShloMosaic.Lib.Ring
import Idealize.ShloMosaic.Lib.Tactic
import Idealize.ShloMosaic.Lib.ValueIdx
import proofs.«412879_j28681791602762_2_alg».proof.Proof.Spec

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands the body is called with, the loops' trip counts, and the words it reads

The kernel is called at a grid point `i` with the pool-index table whole in scalar memory, its input block (the 64
lengths of the point's requests), the token table left in HBM as a [4096, 1024, 64] array (row, page, position in the
page), its output block, a [64, 1024] scratch and 64 DMA semaphores. Trip `k` of its first loop reads word `64 i + k`
of the table and starts a copy of that row's page-first words (position 0 of every page: a strided [1024] slice) into
row `k` of the scratch, on semaphore `k`; trip `k` of the second loop waits on semaphore `k`. -/

theorem trips1 : k0_t1_loop.trips = 64 := by decide
theorem trips2 : k0_t2_loop.trips = 64 := by decide

/-- The scratch, the token table as the kernel sees it, and the pool-index table, whole. -/
abbrev scM : Memref sig .tc .vmem S64x1024 .i32 := Memref.whole cc0_scratch0
abbrev hbM : Memref sig .tc .hbm S4096x1024x64 .i32 := Memref.whole main_v1
abbrev tbM : Memref sig .tc .smem S1024 .i32 := Memref.whole main_arg1

/-- The contents type of a memref's buffer on core `c`. -/
abbrev Bf (c : Dev nD) {sp : Space} {S : Shape} {e : EltTy} (M : Memref sig .tc sp S e) : Type := Buf (Elt F) (M.view.loc (c : Thread nD τ))

abbrev i0 : S1.Idx := Shape.Idx.first (s := S1) (numel1_S1.symm ▸ Nat.one_pos)

/-- The pool-row word that trip `k` of the first loop reads at grid point `i`, off contents `ft` of the table. -/
abbrev wd {c : Dev nD} (ft : Bf (F := F) c tbM) (i : grid0.Coords) (k : Fin k0_t1_loop.trips) : BitVec 32 :=
  tbM.view.readAt (Elt F) (Rect.unit (s := S1024) (k0_off1 i k) S1.size (k0_off1_inb i k)).toLoadRect ft i0

/-- Row `k` of the scratch, as trip `k` of the first loop names a copy's destination. -/
def rowM (k : Fin k0_t1_loop.trips) : Memref sig .tc .vmem S1024 .i32 :=
  (scM.slice (Rect.unit (s := S64x1024) (k0_off3 k) S1x1024.size (k0_off3_inb k)) (fun _ => rfl)).squeeze S1024 squeezes_S1x1024_S1024

/-- The page-first words of the pool row a word `w` names, as a trip names a copy's source; `h`: the row is in the table. -/
def srcM (w : BitVec 32) (h : k0_chk1 w) : Memref sig .tc .hbm S1024 .i32 :=
  (hbM.slice (Rect.unit (s := S4096x1024x64) (k0_off4 w) S1x1024x1.size (k0_off4_inb w h)) (fun _ => rfl)).squeeze S1024 squeezes_S1x1024x1_S1024

/-- The semaphore of trip `k`. -/
abbrev cellM (k : Fin k0_t1_loop.trips) : SemLoc sig :=
  .dma ((cc0_scratch1.slice (Rect.unit (s := S64) (k0_off2 k) S1.size (k0_off2_inb k))).squeeze S_ squeezes_S1_S_).sem

/-- The kernel's own semaphores, one per trip. -/
def osem0 : Fin k0_t1_loop.trips → SemLoc sig := fun k => cellM k

/-- The one array the body copies from by itself: the token table in its [4096, 1024, 64] layout. -/
def H0 : Finset (Ref sig .tc) := {main_v1}

/-- A word below 4096 names a row of the table: the condition the body assumes of each word it reads. -/
theorem chk_of_lt (w : BitVec 32) (h : w.toNat < 4096) : k0_chk1 w := by
  intro a
  fin_cases a
  · show w.toNat + 1 ≤ 4096; omega
  · show 0 + 1024 ≤ 1024; omega
  · show 0 + 1 ≤ 64; omega

/-- What the scratch holds once every copy of a point has landed, as a [64, 1024] array: row `j` is the page-first
    words of the pool row that the point's `j`-th table word names (the word reduced modulo 4096, so that the
    function is total; under the certificate's precondition every word is below 4096). -/
def gathered {c : Dev nD} (i : grid0.Coords) (ft : Bf (F := F) c tbM) (fh : Bf (F := F) c hbM) : Vec F S64x1024 .i32 :=
  fun y => hbM.view.read (Elt F) fh
    (Idealize.ShloMosaic.ValueIdx.ix3 (Cert.Spec.rowOf (wd ft i ⟨(y 0).val, trips1 ▸ (y 0).isLt⟩)) (⟨(y 1).val, (y 1).isLt⟩ : Fin 1024) (0 : Fin 64))

end Cert.Kernel.Hand

end
-- ==== Proof.K.Launch.lean ====
/-
  The launch side of the kernel's one pipeline region, up to the proof data.

  @main reshapes the lengths to a [1024, 1] column and the token table to its [4096, 1024, 64] layout (row, page,
  position in the page), then runs one region over 16 grid points. The region's entry contents `V` are the launch
  memory after those two reshapes. The pool-index table (1024 words in scalar memory) is a prefetched table: its
  contents are read off `V`, and since the region's side condition on them is `True`, every contents is admissible.
  Window 0 stages the point's 64 lengths (a [64, 1] block of the column), window 1 the point's [64, 1024] block of the
  result. The token table bypasses the pipeline: the body copies from it by its own transfers, on 64 semaphores of its
  own.

  The proof data say what each staging buffer holds after the body at point `t`: the input block unchanged, and the
  output block at the body's arithmetic of the GATHERED rows (row j: the page-first words of the pool row that word
  `64 t + j` of the table names) and the point's lengths. The invariant between points is the scratch at some contents,
  the generator register at some state, the body's 64 semaphores at zero, the token table whole at its entry
  contents, and the pool-index table at half share at its entry contents.
-/
import proofs.«412879_j28681791602762_2_alg».proof.Proof.K.Base
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: the launch contents after the two host reshapes. -/
abbrev V (c : Dev nD) (b : Ref sig .tc) : Buf (Elt F) ((c : Thread nD τ).loc b) :=
  StableHlo.after hostOps0 (fun b => m (c, b)) b

/-- Neither reshape leaves a buffer at unnamed contents. -/
theorem hostOps0_fresh : (hostOps0 : List (HloOp τ sig (Elt F))).Forall fun op => op.fresh = ∅ := by
  simp only [List.Forall]; repeat' constructor

/-- @main up to the region: holding the unscoped buffers at the launch contents, the two reshapes run and the region
    is reached holding them at `V`. -/
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No reshape writes an argument array: the region finds the three as launched. -/
theorem V_main_arg0 (c : Dev nD) : V m c main_arg0 = m ((c : Thread nD τ).loc main_arg0) := by
  dsimp only [V, Gen.hostOps0]; after_results
theorem V_main_arg1 (c : Dev nD) : V m c main_arg1 = m ((c : Thread nD τ).loc main_arg1) := by
  dsimp only [V, Gen.hostOps0]; after_results
theorem V_main_arg2 (c : Dev nD) : V m c main_arg2 = m ((c : Thread nD τ).loc main_arg2) := by
  dsimp only [V, Gen.hostOps0]; after_results
/-- The lengths as a [1024, 1] column: the same words in row-major order. -/
theorem V_main_v0 (c : Dev nD) :
    V m c main_v0 = (shapeCast S1024x1 (m ((c : Thread nD τ).loc main_arg2) : Vec F S1024 .i32) shapeCasts_S1024_S1024x1 : Vec F S1024x1 .i32) := by
  dsimp only [V, Gen.hostOps0]; after_results; rfl
/-- The token table as [4096, 1024, 64] (row, page, position in the page): the same words in row-major order. -/
theorem V_main_v1 (c : Dev nD) :
    V m c main_v1 = (shapeCast S4096x1024x64 (m ((c : Thread nD τ).loc main_arg0) : Vec F S4096x65536 .i32) shapeCasts_S4096x65536_S4096x1024x64 : Vec F S4096x1024x64 .i32) := by
  dsimp only [V, Gen.hostOps0]; after_results; rfl

/-! ## The prefetched table, read off the region's entry contents -/

/-- The pool-index table's contents when the region is entered (the program runs on one device: device 0's). -/
def tbl : pre0.Contents (Elt F) := fun j => V m (0 : Dev nD) (pre0.ref j)

/-- Those contents as admissible contents of the one pipeline: its side condition on them is `True`. -/
abbrev adm : (p : Fin 1) → (pcfgs (F := F) p).Adm := fun _ => ⟨tbl m, trivial⟩

/-- On every device the table holds those contents at the region's entry (there is one device). -/
theorem hpf (c : Dev nD) (k : Fin pre0.K) : V m c (pre0.ref k) = (adm m 0).1 k := by
  obtain rfl : c = 0 := Subsingleton.elim _ _; rfl

/-- The pipeline at the table's contents. -/
abbrev cfgM : Pipeline.Cfg sig Λ₀ := Pipeline.pin (pcfgs (F := F)) (adm m) 0

/-! ## The windows' blocks and staging memrefs -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging memref at point `t`, as the pipeline passes it to the body, and its wholeness. -/
abbrev ms0_0 (t : Fin (cfgM m).N) : Memref sig .tc .vmem S64x1 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S64x1024 .i32 := spec0_1.stage ((cfgM m).slots t 1)
abbrev hs0_1 (t : Fin (cfgM m).N) : (ms0_1 m t).IsWhole := hstage0_1 (((cfgM m).slots t 1).cast nbuf0_1)

/-! ## The proof data -/

/-- The proof data of the one pipeline on core `c`: the arrays as the region finds them; after the body at point `t`
    the input's buffer still at the point's 64 lengths, the output's at the body's arithmetic of the gathered rows
    and those lengths; the invariant — the scratch at some contents, the generator register at some state, the body's
    64 semaphores at zero, the token table whole at its entry contents, and the pool-index table at half share at
    its entry contents — the same at every point; nothing owed; full shares. -/
def dats (p : Fin 1) (c : Dev nD) :
    Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => k0_pay1 (gathered (grid0.coords t) (V m c main_arg1) (V m c main_v1)) (iblk m c 0 t)
  Φ _ := iprop(Pipeline.ΦD osem0 spec0 H0 (V m) c ∗ Pipeline.ΦT pre0 (adm m 0).1 c)
  q _ := fullShare
  owed _ := 0

/-- The proof data's arrays are the region's entry contents. -/
theorem A_eq (c : Dev nD) (w : Fin (cfgM m).W) : (dats m 0 c).A w = V m c (Pipeline.arrRef spec0 w) := by
  dsimp only [dats]

/-- What the body leaves, window by window. -/
theorem after0_0 (c : Dev nD) (t : Fin (cfgM m).N) : (dats m 0 c).after 0 t = iblk m c 0 t := by
  dsimp only [dats]; rfl
theorem after0_1 (c : Dev nD) (t : Fin (cfgM m).N) :
    (dats m 0 c).after 1 t = k0_pay1 (gathered (grid0.coords t) (V m c main_arg1) (V m c main_v1)) (iblk m c 0 t) := by
  dsimp only [dats]; rfl

/-- Input window 0's current staging buffer holds the point's block whenever the body runs, fetched at that point or
    not: the body only reads the block, so where no fetch happened the block index has not moved and the buffer
    still holds it. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-! ## The body's own semaphores and the array it copies from -/

/-- The body's 64 semaphores are scoped, pairwise distinct (trip `k`'s is cell `4 + k` of the pool), and none is a
    staging semaphore of the two windows (those are cells 0 to 3). -/
theorem ownSemFacts0 : Pipeline.OwnSemFacts spec0 osem0 := by decide

/-- The token table in its [4096, 1024, 64] layout is unscoped, no window's array and not the prefetched table: it
    bypasses the pipeline. -/
theorem H0_sub : H0 ⊆ Pipeline.restRefsP sig pre0 spec0 := by decide

end Cert.Kernel.Hand

end
-- ==== Proof.Words.lean ====
/-
  Facts about 32-bit two's-complement words that join the two programs' arithmetic.

  The reference divides by the page size 64 with a floor division — the truncating quotient, lowered by one when the
  dividend's sign differs from the divisor's and the remainder is not zero —, the kernel shifts right by 6
  arithmetically: for every word these are the same number, the floor of `x / 64` (the divisor is positive, so no
  corner of signed division is met). The reference forms `(len + 64) - 1`, the kernel `len + 63`: equal modulo 2^32.
  A word that is at least 0 and below 4096 as a signed number is below 4096 as an unsigned one, and then the
  reference's wrap of a negative index and its clamp into the table leave it alone; the same for the column words
  `64 * p`, `p < 1024`.
-/
import Idealize.ShloMosaic.PureOps

noncomputable section

namespace Cert.Words

open Idealize.ShloMosaic

/-- The sign of a word as a word: 0, -1 or 1 (what `stablehlo.sign` computes at an element). -/
def sgn (w : BitVec 32) : BitVec 32 := if w = 0 then 0 else if w.msb then -1 else 1

/-! ### One-bit words and the select -/

private theorem ofBool_eq_one (b : Bool) : BitVec.ofBool b = 1#1 ↔ b = true := by cases b <;> decide

private theorem andi_eq_one : ∀ (a b : BitVec 1), IntOp.andi a b = 1#1 ↔ a = 1#1 ∧ b = 1#1 := by decide

/-- A select whose condition word is 1 exactly when `p` holds is the `if` on `p`. -/
private theorem select_iff {α : Type} (c : BitVec 1) (a b : α) (p : Prop) [Decidable p] (h : c = 1#1 ↔ p) :
    Scalar.select c a b = if p then a else b := by
  unfold Scalar.select
  by_cases hp : p
  · rw [if_pos hp]; exact if_pos (h.2 hp)
  · rw [if_neg hp]; exact if_neg (fun e => hp (h.1 e))

private theorem select_zero {α : Type} (a b : α) : Scalar.select 0#1 a b = b := by
  unfold Scalar.select
  exact if_neg (by decide)

/-! ### Floor division by 64 -/

/-- 64 is positive: its sign word is 1. -/
private theorem sgn64 : sgn 64#32 = 1#32 := by decide

private theorem toInt_lo (x : BitVec 32) : -2147483648 ≤ x.toInt := by
  have := x.isLt; unfold BitVec.toInt; split <;> omega

private theorem toInt_hi (x : BitVec 32) : x.toInt < 2147483648 := by
  have := x.isLt; unfold BitVec.toInt; split <;> omega

/-- The divisor 64 is neither 0 nor -1: the quotient is the truncating one, and it does not overflow. -/
private theorem divsi64 (x : BitVec 32) : (IntOp.divsi .host x 64#32).toInt = x.toInt.tdiv 64 := by
  have hc : ¬ IntOp.SDivCorner x 64#32 := by
    rintro (h | ⟨_, h⟩) <;> exact absurd h (by decide)
  unfold IntOp.divsi
  rw [if_neg hc, BitVec.toInt_sdiv_of_ne_or_ne _ _ (Or.inr (by decide))]
  rfl

/-- Likewise the remainder is the truncating one (of the dividend's sign). -/
private theorem remsi64 (x : BitVec 32) : (IntOp.remsi .host x 64#32).toInt = x.toInt.tmod 64 := by
  have hc : ¬ IntOp.SDivCorner x 64#32 := by
    rintro (h | ⟨_, h⟩) <;> exact absurd h (by decide)
  unfold IntOp.remsi
  rw [if_neg hc, BitVec.toInt_srem]
  rfl

/-- The amount 6 is below the width: the arithmetic shift is the floor of the division by 2^6. -/
private theorem shrsi6 (x : BitVec 32) : (IntOp.shrsi .vector x 6#32).toInt = x.toInt / 64 := by
  unfold IntOp.shrsi
  rw [if_pos (by decide), BitVec.toInt_sshiftRight', Int.shiftRight_eq_div_pow]
  rfl

/-- On the integers: the truncating quotient by 64 is the floor when `a ≥ 0` or 64 divides `a`, and one above the
    floor otherwise; so lowering it by one exactly when `a ≤ 0` and the truncating remainder is not zero gives the
    floor (at `a = 0` the remainder is zero). -/
private theorem int_floor (a : Int) : (if a ≤ 0 ∧ a.tmod 64 ≠ 0 then a.tdiv 64 - 1 else a.tdiv 64) = a / 64 := by
  rw [Int.tmod_def, Int.tdiv_eq_ediv]
  have hs : Int.sign 64 = 1 := rfl
  simp only [Int.dvd_iff_emod_eq_zero, hs]
  split <;> split <;> omega

/-- The sign word differs from 1 exactly when the word is not positive as a signed number. -/
private theorem sgn_ne_one (x : BitVec 32) : sgn x ≠ 1#32 ↔ x.toInt ≤ 0 := by
  unfold sgn
  by_cases h0 : x = 0
  · subst h0; simp
  · rw [if_neg h0]
    have hn : x.toNat ≠ 0 := fun h => h0 (BitVec.eq_of_toNat_eq h)
    have := x.isLt
    rw [BitVec.msb_eq_toInt]
    by_cases hm : x.toInt < 0
    · simp [hm]; omega
    · simp [hm]
      unfold BitVec.toInt at hm ⊢
      split at hm <;> split <;> omega

private theorem ne_zero_iff (r : BitVec 32) : r ≠ 0#32 ↔ r.toInt ≠ 0 := by
  rw [Ne, ← BitVec.toInt_inj]; simp

/-- Floor division by 64, as the reference spells it at an element, is the arithmetic shift right by 6. -/
theorem floorDiv64 (x : BitVec 32) :
    Scalar.select (IntOp.andi (IntOp.cmpi .ne (sgn x) (sgn 64#32)) (IntOp.cmpi .ne (IntOp.remsi .host x 64#32) 0#32))
        (IntOp.subi (IntOp.divsi .host x 64#32) 1#32) (IntOp.divsi .host x 64#32)
      = IntOp.shrsi .vector x 6#32 := by
  -- both sides as signed integers: the right one is the floor of x / 64
  apply BitVec.eq_of_toInt_eq
  rw [shrsi6, ← int_floor]
  have hq := divsi64 x
  have hr := remsi64 x
  have lo := toInt_lo x
  have hi := toInt_hi x
  -- the condition word is 1 exactly when x ≤ 0 and the truncating remainder is not zero
  have hc : IntOp.andi (IntOp.cmpi .ne (sgn x) (sgn 64#32)) (IntOp.cmpi .ne (IntOp.remsi .host x 64#32) 0#32) = 1#1
      ↔ (x.toInt ≤ 0 ∧ x.toInt.tmod 64 ≠ 0) := by
    rw [andi_eq_one, sgn64]
    unfold IntOp.cmpi
    simp only [ofBool_eq_one, bne_iff_ne]
    rw [sgn_ne_one, ne_zero_iff, hr]
  rw [select_iff _ _ _ _ hc]
  by_cases h : x.toInt ≤ 0 ∧ x.toInt.tmod 64 ≠ 0
  · rw [if_pos h, if_pos h]
    unfold IntOp.subi
    rw [BitVec.toInt_sub, hq]
    have e1 : (1#32 : BitVec 32).toInt = 1 := by decide
    rw [e1]
    -- the quotient lies within ±2^25, so lowering it by one does not wrap
    have hb : -33554432 ≤ x.toInt.tdiv 64 ∧ x.toInt.tdiv 64 ≤ 33554432 := by
      rw [Int.tdiv_eq_ediv]
      have hs : Int.sign 64 = 1 := rfl
      simp only [Int.dvd_iff_emod_eq_zero, hs]
      split <;> omega
    apply Int.bmod_eq_of_le
    · have : ((2 ^ 32 : Nat) : Int) / 2 = 2147483648 := by decide
      omega
    · have : (((2 ^ 32 : Nat) : Int) + 1) / 2 = 2147483648 := by decide
      omega
  · rw [if_neg h, if_neg h, hq]

/-- `(x + 64) - 1 = x + 63` modulo 2^32. -/
theorem add64sub1 (x : BitVec 32) : IntOp.subi (IntOp.addi x 64#32) 1#32 = IntOp.addi x 63#32 := by
  unfold IntOp.subi IntOp.addi
  apply BitVec.eq_of_toNat_eq
  simp only [BitVec.toNat_sub, BitVec.toNat_add, BitVec.toNat_ofNat]
  have := x.isLt
  omega

/-! ### Words in range -/

/-- A word in [0, 4096) as a signed number is below 4096 as an unsigned one. -/
theorem toNat_lt_of_range (w : BitVec 32) (h0 : IntOp.cmpi .sge w 0#32 = 1#1) (h1 : IntOp.cmpi .slt w 4096#32 = 1#1) :
    w.toNat < 4096 := by
  unfold IntOp.cmpi at h0 h1
  rw [ofBool_eq_one] at h0 h1
  simp only [BitVec.slt, BitVec.sle, decide_eq_true_eq] at h0 h1
  have e0 : (0#32 : BitVec 32).toInt = 0 := by decide
  have e1 : (4096#32 : BitVec 32).toInt = 4096 := by decide
  rw [e0] at h0
  rw [e1] at h1
  have := w.isLt
  -- a word of 2^31 or more reads as a negative number, which `0 ≤ w` excludes
  unfold BitVec.toInt at h0 h1
  split at h1 <;> omega

/-- A word below 2^31 reads as itself as a signed number. -/
private theorem toInt_of_lt (w : BitVec 32) (h : w.toNat < 2147483648) : w.toInt = w.toNat := by
  unfold BitVec.toInt
  rw [if_pos (by omega)]

/-- Such a word is not below 0 as a signed number. -/
private theorem not_slt_zero (w : BitVec 32) (h : w.toNat < 2147483648) : IntOp.cmpi .slt w 0#32 = 0#1 := by
  unfold IntOp.cmpi
  have : w.slt 0#32 = false := by
    simp only [BitVec.slt, decide_eq_false_iff_not]
    rw [toInt_of_lt w h]
    have e0 : (0#32 : BitVec 32).toInt = 0 := by decide
    rw [e0]; omega
  simp only [this]; rfl

/-- The reference's wrap of a negative row index leaves a word below 4096 alone. -/
theorem wrapRow (w : BitVec 32) (h : w.toNat < 4096) :
    Scalar.select (IntOp.cmpi .slt w 0#32) (IntOp.addi w 4096#32) w = w := by
  rw [not_slt_zero w (by omega), select_zero]

/-- `64 * p < 2^16` for `p < 1024`: the column word is that number. -/
private theorem toNat_col (p : Fin 1024) : (BitVec.ofNat 32 (64 * p.val)).toNat = 64 * p.val := by
  have := p.isLt
  rw [BitVec.toNat_ofNat]
  omega

/-- The column word of page `p`: `p * 64` does not wrap. -/
theorem colWord (p : Fin 1024) : IntOp.muli (BitVec.ofNat 32 p.val) 64#32 = BitVec.ofNat 32 (64 * p.val) := by
  unfold IntOp.muli
  apply BitVec.eq_of_toNat_eq
  have := p.isLt
  simp only [BitVec.toNat_mul, BitVec.toNat_ofNat]
  omega

/-- The reference's wrap of a negative column index leaves the column word alone. -/
theorem wrapCol (p : Fin 1024) :
    Scalar.select (IntOp.cmpi .slt (BitVec.ofNat 32 (64 * p.val)) 0#32) (IntOp.addi (BitVec.ofNat 32 (64 * p.val)) 65536#32)
        (BitVec.ofNat 32 (64 * p.val)) = BitVec.ofNat 32 (64 * p.val) := by
  have := p.isLt
  rw [not_slt_zero _ (by rw [toNat_col]; omega), select_zero]

/-- The gather's clamp into the table's rows leaves a word below 4096 alone. -/
theorem clampRow (w : BitVec 32) (h : w.toNat < 4096) : min w.toInt.toNat 4095 = w.toNat := by
  rw [toInt_of_lt w (by omega), Int.toNat_natCast]
  omega

/-- The gather's clamp into a row's columns leaves the column word alone. -/
theorem clampCol (p : Fin 1024) : min (BitVec.ofNat 32 (64 * p.val)).toInt.toNat 65535 = 64 * p.val := by
  have := p.isLt
  rw [toInt_of_lt _ (by rw [toNat_col]; omega), Int.toNat_natCast, toNat_col]
  omega

end Cert.Words

end
-- ==== Proof.PreRange.lean ====
/-
  The range the certificate's precondition states, read at one request.

  The precondition holds when, at every request `k` of the 1024, the pool index `idx[k]` is at least 0 and below 4096
  as a signed 32-bit number (the conjunction of the two comparisons, element by element). A word that is not negative as
  a signed number is below 2^31, where the signed and the unsigned readings agree; so the signed bound `idx[k] < 4096`
  is the unsigned bound `(idx[k]).toNat < 4096`: every request names a row of the 4096-row pool.
-/
import proofs.«412879_j28681791602762_2_alg».proof.Pre_any_inputs
import proofs.«412879_j28681791602762_2_alg».proof.Proof.Gen.Pre_any_inputs
import proofs.«412879_j28681791602762_2_alg».proof.Proof.Words
import Idealize.ShloMosaic.Lib.ValueIdx

noncomputable section

namespace Cert.PreRange

open Idealize.ShloMosaic Idealize.ShloMosaic.ValueIdx

/-- Under the precondition every request's pool index is below 4096 as an unsigned number. -/
theorem idx_lt {F : FTy → Type} [FloatOps F] [Cert.Pre_any_inputs.Facts] (tok : IVec Cert.Pre_any_inputs.S4096x65536 32)
    (idx len : IVec Cert.Pre_any_inputs.S1024 32)
    (h : Cert.Pre_any_inputs.fn (F := F) tok idx len = fun _ => 1#1) (k : Fin 1024) : (idx (ix1 k)).toNat < 4096 := by
  -- the precondition's element at request k: the conjunction of `idx[k] ≥ 0` and `idx[k] < 4096`, both signed
  have e := congrFun h (ix1 k)
  unfold Cert.Pre_any_inputs.fn at e
  simp only [andi, cmpi, broadcastInDim, constantI] at e
  obtain ⟨e0, e1⟩ := IntOp.andi_eq_one.1 e
  exact Cert.Words.toNat_lt_of_range _ e0 e1

end Cert.PreRange

end
-- ==== Proof.K.Hok.lean ====
/-
  The side condition the body assumes of each table word it reads, from the certificate's precondition.

  The precondition says every word of the pool-index table, as launched, is at least 0 and below 4096 as a signed
  number, hence below 4096 as an unsigned one. Trip `k` of the body's first loop at grid point `t` loads one word
  through the whole table; the table at the region's entry is the table as launched (no reshape writes it); so the word
  is below 4096 and names a row of the 4096-row token table, which is the check the body assumes before it slices that
  row. Stated for any float instance under the precondition's equation at that instance: the equation compares integer
  words only.
-/
import proofs.«412879_j28681791602762_2_alg».proof.Proof.K.Launch
import proofs.«412879_j28681791602762_2_alg».proof.Proof.PreRange

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The words the body reads name rows of the table -/

open Idealize.ShloMosaic.ValueIdx in
/-- Under the precondition, every word of the pool-index table at launch is below 4096. -/
theorem tbl_lt (hpre : ∀ c : Dev nD, Cert.Pre_any_inputs.fn (F := F) (m ((c : Thread nD τ).loc main_arg0)) (m ((c : Thread nD τ).loc main_arg1)) (m ((c : Thread nD τ).loc main_arg2)) = fun _ => 1#1)
    (c : Dev nD) (j : S1024.Idx) : ((m ((c : Thread nD τ).loc main_arg1) : IVec S1024 32) j).toNat < 4096 := by
  rw [eq_ix1 j]; exact Cert.PreRange.idx_lt (F := F) _ _ _ (hpre c) (j 0)

/-- The check the body assumes of the word trip `k` reads at point `t`: the word is a word of the table as launched
    (the load goes through the whole table, and no reshape writes it), so it is below 4096 and names a row. -/
theorem hok_of_pre (hpre : ∀ c : Dev nD, Cert.Pre_any_inputs.fn (F := F) (m ((c : Thread nD τ).loc main_arg0)) (m ((c : Thread nD τ).loc main_arg1)) (m ((c : Thread nD τ).loc main_arg2)) = fun _ => 1#1)
    (c : Dev nD) (t : Fin (cfgM m).N) (k : Fin k0_t1_loop.trips) : k0_chk1 (wd (V m c main_arg1) (grid0.coords t) k) := by
  apply chk_of_lt
  have e : wd (V m c main_arg1) (grid0.coords t) k
      = (V m c main_arg1 : IVec S1024 32) ((Rect.unit (s := S1024) (k0_off1 (grid0.coords t) k) S1.size (k0_off1_inb (grid0.coords t) k)).toLoadRect.idx i0) := rfl
  rw [e, V_main_arg1]
  exact tbl_lt m hpre c _

end Cert.Kernel.Hand

end
-- ==== Proof.K.Slots.lean ====
/-
  The copies of one grid point: 64 slots — a scratch row, a semaphore, a read share of the token table each — and the
  two loops' trips over them.
-/
import proofs.«412879_j28681791602762_2_alg».proof.Proof.Gen.Kernel.Skeleton
import proofs.«412879_j28681791602762_2_alg».proof.Proof.Gen.Kernel.Loops
import proofs.«412879_j28681791602762_2_alg».proof.Proof.Gen.Kernel.Launch
import Idealize.ShloMosaic.Lib.Pipeline.Frame
import Idealize.ShloMosaic.Lib.Ring
import Idealize.ShloMosaic.Lib.Tactic
import proofs.«412879_j28681791602762_2_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One slot per trip: a scratch row, its semaphore, and a read share of the token table

The 64 copies of a point are all in flight at once and may read the same table row, so the token table is held as 64
READ SHARES of the whole array, one per semaphore, beside a remainder; a copy lends the elements of its source
slice out of its semaphore's share. Slot `k` is in one of three states:
  FREE — its semaphore at zero, row `k` of the scratch at the scratch's entry contents, its share of the table whole;
  FLYING — the copy started: the transfer's invariant on the semaphore, which delivers row `k` WRITTEN with the source
    slice's words and the lent elements of the share, beside the share's other elements;
  LANDED — the copy waited for: the semaphore at zero again, row `k` at the written contents, the share whole again. -/

inductive St where
  | free | flying | landed
  deriving DecidableEq

section Slots

variable (c : Dev nD) (i : grid0.Coords) (ft : Bf (F := F) c tbM) (fs : Bf (F := F) c scM) (fh : Bf (F := F) c hbM)
  (hok : ∀ k, k0_chk1 (wd ft i k))

/-- Semaphore `k`'s read share of the token table, on the elements `S`. -/
abbrev tok (k : Fin k0_t1_loop.trips) (S : Finset (Idx (hbM.view.loc (c : Thread nD τ)))) : sProp 𝕄 :=
  hbM.view.loc (c : Thread nD τ) ↦[S]{Transfers.shareTok fullShare 64 (k.cast trips1)} fh

/-- Row `k` of the scratch, held by its own elements at contents `f`. -/
abbrev rowPt (k : Fin k0_t1_loop.trips) (f : Buf (Elt F) ((rowM k).view.loc (c : Thread nD τ))) : sProp 𝕄 :=
  (rowM k).view.loc (c : Thread nD τ) ↦[(rowM k).view.set]{fullShare} f

/-- The scratch with row `k` written: the page-first words of the pool row that the point's `k`-th table word names. -/
abbrev landedRow (k : Fin k0_t1_loop.trips) : Buf (Elt F) ((rowM k).view.loc (c : Thread nD τ)) :=
  (rowM k).view.writes (Elt F) fs [⟨Rect.whole S1024, ReadAs.same.apply ((srcM (wd ft i k) (hok k)).view.read (Elt F) fh)⟩]

/-- Slot `k` in state `s`. -/
def slot (k : Fin k0_t1_loop.trips) : St → sProp 𝕄
  | .free => iprop(semVal ((c : Thread nD τ), cellM k) 0 ∗ rowPt c k fs ∗ tok c fh k Finset.univ)
  | .flying => iprop(Transfers.Flight countersEmb (c : Thread nD τ) (cellM k) default 1024
        iprop(rowPt c k (landedRow c i ft fs fh hok k) ∗ tok c fh k (srcM (wd ft i k) (hok k)).view.set)
      ∗ tok c fh k (Finset.univ \ (srcM (wd ft i k) (hok k)).view.set))
  | .landed => iprop(semVal ((c : Thread nD τ), cellM k) 0 ∗ rowPt c k (landedRow c i ft fs fh hok k) ∗ tok c fh k Finset.univ)

/-- Before trip `k` of the first loop: the slots below `k` flying, the others free. -/
def stIssue (k : ℕ) : Fin k0_t1_loop.trips → St := fun t => if t.val < k then .flying else .free
/-- Before trip `k` of the second loop: the slots below `k` landed, the others flying. -/
def stDrain (k : ℕ) : Fin k0_t1_loop.trips → St := fun t => if t.val < k then .landed else .flying

omit [FloatOps F] in
theorem stIssue_succ (k : Fin k0_t1_loop.trips) : Function.update (stIssue k.val) k St.flying = stIssue (k.val + 1) := by
  funext t
  by_cases h : t = k
  · subst h; simp [stIssue]
  · have : t.val ≠ k.val := fun e => h (Fin.ext e)
    rw [Function.update_of_ne h]; unfold stIssue
    by_cases h1 : t.val < k.val
    · rw [if_pos h1, if_pos (by omega)]
    · rw [if_neg h1, if_neg (by omega)]
omit [FloatOps F] in
theorem stDrain_succ (k : Fin k0_t1_loop.trips) : Function.update (stDrain k.val) k St.landed = stDrain (k.val + 1) := by
  funext t
  by_cases h : t = k
  · subst h; simp [stDrain]
  · have : t.val ≠ k.val := fun e => h (Fin.ext e)
    rw [Function.update_of_ne h]; unfold stDrain
    by_cases h1 : t.val < k.val
    · rw [if_pos h1, if_pos (by omega)]
    · rw [if_neg h1, if_neg (by omega)]

/-- The pool-index table as the region hands it to the body: at half the full share. -/
abbrev tbPt : sProp 𝕄 := tbM.view.loc (c : Thread nD τ) ↦{fullShare.right} ft

/-- The first loop's invariant. -/
def issueAt (k : ℕ) (_ : Unit) : sProp 𝕄 :=
  iprop(Ring.AtW (slot c i ft fs fh hok) (stIssue k) ∗ tbPt c ft)

/-- ONE TRIP of the first loop at a symbolic `k`: slot `k` is free; the trip reads its table word, which names a row
    of the table (`hok`), and starts the copy, which takes the semaphore, the row and the share's source elements;
    slot `k` is flying after it. -/
theorem issue_step [∀ e, Nonempty (Elt F e)]
    (arg2 : Memref sig .tc .vmem S64x1 .i32) (harg2 : arg2.IsWhole) (arg4 : Memref sig .tc .vmem S64x1024 .i32) (harg4 : arg4.IsWhole)
    (k : Fin k0_t1_loop.trips) (acc : Unit) :
    issueAt c i ft fs fh hok k acc
      ⊢ wp frame (wpE (defs₀ (F := F)) Variants.none c none) Set.univ
          (k0_t1_body i tbM (Memref.isWhole_whole _) arg2 harg2 hbM (Memref.isWhole_whole _) arg4 harg4 scM (Memref.isWhole_whole _) cc0_scratch1 k acc)
          (issueAt c i ft fs fh hok (k.val + 1)) := by
  unfold issueAt
  rw [Ring.AtW_focus (slot c i ft fs fh hok) (stIssue k.val) k]
  have hst : stIssue k.val k = St.free := by unfold stIssue; rw [if_neg (Nat.lt_irrefl _)]
  rw [hst]
  iintro ⟨⟨Hk, Hrest⟩, Htb⟩
  unfold slot
  icases Hk with ⟨Hc, Hrow, Htok⟩
  unfold k0_t1_body
  sl_exec (disch := exact hok k)
  sl_step
  isplitr [Htb]
  · rw [← stIssue_succ]
    iapply (Ring.AtW_update (slot c i ft fs fh hok) (stIssue k.val) k St.flying)
    isplitr [Hrest]
    · unfold slot
      isplitl [Hc]
      · iexact Hc
      · iexact Htok
    · iexact Hrest
  · iexact Htb

end Slots

section Drain

variable (c : Dev nD) (i : grid0.Coords) (ft : Bf (F := F) c tbM) (fs : Bf (F := F) c scM) (fh : Bf (F := F) c hbM)
  (hok : ∀ k, k0_chk1 (wd ft i k))

/-- The second loop's trips are the first's. -/
abbrev tripOf (k : Fin k0_t2_loop.trips) : Fin k0_t1_loop.trips := k.cast (trips2.trans trips1.symm)

/-- The second loop's invariant: the slots, and the core's record of its waits. -/
def drainAt (k : ℕ) (_ : Unit) : sProp 𝕄 :=
  iprop(Ring.AtW (slot c i ft fs fh hok) (stDrain k) ∗ ∃ W : Waits sig Unit, owes (c : Thread nD τ) 0 W)

/-- ONE TRIP of the second loop at a symbolic `k`: slot `k` is flying; the wait on its semaphore closes the transfer,
    which hands back the row written, the share's lent elements and the semaphore at zero; slot `k` is landed after it. -/
theorem drain_step [∀ e, Nonempty (Elt F e)]
    (arg2 : Memref sig .tc .vmem S64x1 .i32) (harg2 : arg2.IsWhole) (arg4 : Memref sig .tc .vmem S64x1024 .i32) (harg4 : arg4.IsWhole)
    (k : Fin k0_t2_loop.trips) (acc : Unit) :
    drainAt c i ft fs fh hok k acc
      ⊢ wp frame (wpE (defs₀ (F := F)) Variants.none c none) Set.univ
          (k0_t2_body i tbM (Memref.isWhole_whole _) arg2 harg2 hbM (Memref.isWhole_whole _) arg4 harg4 scM (Memref.isWhole_whole _) cc0_scratch1 k acc)
          (drainAt c i ft fs fh hok (k.val + 1)) := by
  unfold drainAt
  rw [Ring.AtW_focus (slot c i ft fs fh hok) (stDrain k.val) (tripOf k)]
  have hst : stDrain k.val (tripOf k) = St.flying := by unfold stDrain; rw [if_neg (by simp)]
  rw [hst]
  iintro ⟨⟨Hk, Hrest⟩, ⟨%W, HO⟩⟩
  unfold slot
  icases Hk with ⟨Hfl, Htok⟩
  unfold k0_t2_body
  sl_exec
  sl_step
  isplitr [HO]
  · rw [show stDrain (k.val + 1) = Function.update (stDrain k.val) (tripOf k) St.landed from (stDrain_succ (tripOf k)).symm]
    iapply (Ring.AtW_update (slot c i ft fs fh hok) (stDrain k.val) (tripOf k) St.landed)
    isplitr [Hrest]
    · unfold slot
      isplitl [Hfl]
      · iexact Hfl
      isplitl [Hfl_dst]
      · iexact Hfl_dst
      · iexact Htok
    · iexact Hrest
  · iexists _; iexact HO

end Drain

end Cert.Kernel.Hand

end
-- ==== Proof.K.Rows.lean ====
/-
  The scratch held row by row, and what a written row reads.
-/
import proofs.«412879_j28681791602762_2_alg».proof.Proof.Gen.Kernel.Skeleton
import proofs.«412879_j28681791602762_2_alg».proof.Proof.Gen.Kernel.Loops
import proofs.«412879_j28681791602762_2_alg».proof.Proof.Gen.Kernel.Launch
import Idealize.ShloMosaic.Lib.Pipeline.Frame
import Idealize.ShloMosaic.Lib.Ring
import Idealize.ShloMosaic.Lib.Tactic
import proofs.«412879_j28681791602762_2_alg».proof.Proof.K.Slots

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch by rows

Row `k` of the [64, 1024] scratch is the elements whose first coordinate is `k`: the 64 rows are pairwise disjoint and
cover the scratch, so the scratch held whole is its rows held one by one, and back. A row written by its copy reads,
at column `p`, word `p` of the copy's source: position 0 of page `p` of the pool row its table word names. -/

section Rows

variable (c : Dev nD) (i : grid0.Coords) (ft : Bf (F := F) c tbM) (fs : Bf (F := F) c scM) (fh : Bf (F := F) c hbM)
  (hok : ∀ k, k0_chk1 (wd ft i k))

open Idealize.ShloMosaic.ValueIdx (ix1 ix2 ix3 eq_ix2)

/-- The elements of scratch row `k`, as elements of the scratch's buffer. -/
abbrev rowSet (k : Fin k0_t1_loop.trips) : Finset (Idx (scM.view.loc (c : Thread nD τ))) := (rowM k).view.set

/-- The first offset of row `k`'s rectangle is `k`: the 32-bit chain over the trip is the trip itself, on each of
    the 64 trips. -/
theorem off3_zero : ∀ t : Fin k0_t1_loop.trips, k0_off3 t 0 = t.val := by decide +kernel

omit [FloatOps F] in
/-- Row `k`'s elements are those of its unit rectangle: the squeeze keeps the element set, and a slice of the whole
    scratch has the rectangle's. -/
theorem rowM_set (k : Fin k0_t1_loop.trips) :
    (rowM k).view.set = (Rect.unit (s := S64x1024) (k0_off3 k) S1x1024.size (k0_off3_inb k)).set := by
  unfold rowM; rw [Memref.set_view_squeeze]; exact View.set_slice_whole _ _

omit [FloatOps F] in
/-- An element is in row `k` exactly when its first coordinate is `k`. -/
theorem mem_rowSet (k : Fin k0_t1_loop.trips) (y : S64x1024.Idx) : y ∈ rowSet c k ↔ (y 0).val = k.val := by
  unfold rowSet; rw [rowM_set, Rect.mem_set_unit]
  have h1 : (y 1).val < 1024 := (y 1).isLt
  have e0 : k0_off3 k 0 = k.val := off3_zero k
  constructor
  · intro H; have a0 : k0_off3 k 0 ≤ (y 0).val ∧ (y 0).val < k0_off3 k 0 + 1 := H 0; omega
  · intro H a; fin_cases a
    · show k0_off3 k 0 ≤ (y 0).val ∧ (y 0).val < k0_off3 k 0 + 1; omega
    · show 0 ≤ (y 1).val ∧ (y 1).val < 0 + 1024; omega

omit [FloatOps F] in
/-- Two rows share no element. -/
theorem rowSet_disjoint (k k' : Fin k0_t1_loop.trips) (h : k ≠ k') : Disjoint (rowSet c k) (rowSet c k') := by
  rw [Finset.disjoint_left]; intro y hy hy'
  rw [mem_rowSet] at hy hy'
  exact h (Fin.ext (hy.symm.trans hy'))

omit [FloatOps F] in
/-- Every element is in some row. -/
theorem rowSet_cover : Finset.univ.biUnion (rowSet c) = Finset.univ := by
  rw [Finset.eq_univ_iff_forall]; intro y
  rw [Finset.mem_biUnion]
  exact ⟨⟨(y 0).val, trips1 ▸ (y 0).isLt⟩, Finset.mem_univ _, (mem_rowSet c _ y).mpr rfl⟩

omit [FloatOps F] in
/-- Column `p` of a `[1024]` row, matched with the shape `[1, 1024]` by row-major position, is `(0, p)`. -/
theorem reshape_row (h : S1024.numel = S1x1024.numel) (p : Fin 1024) :
    Shape.reshapeEquiv h (ix1 p) = ix2 (⟨0, Nat.one_pos⟩ : Fin 1) p :=
  Shape.reshapeEquiv_eq_of_rowMajor h (by
    rw [Shape.rowMajor_val_two, Shape.rowMajor_val_one]
    show 0 * 1024 + p.val = p.val
    omega)

omit [FloatOps F] in
/-- Column `p` of a `[1024]` row, matched with the shape `[1, 1024, 1]`, is `(0, p, 0)`. -/
theorem reshape_src (h : S1024.numel = S1x1024x1.numel) (p : Fin 1024) :
    Shape.reshapeEquiv h (ix1 p) = ix3 (⟨0, Nat.one_pos⟩ : Fin 1) p (⟨0, Nat.one_pos⟩ : Fin 1) :=
  Shape.reshapeEquiv_eq_of_rowMajor h (by
    rw [Shape.rowMajor_val_three, Shape.rowMajor_val_one]
    show (0 * 1024 + p.val) * 1 + 0 = p.val
    omega)

omit [FloatOps F] in
/-- Column `p` of row `k` is the scratch's element `(k, p)`. -/
theorem rowM_emb (k : Fin k0_t1_loop.trips) (p : Fin 1024) :
    (rowM k).view.emb (ix1 p) = (ix2 (⟨k.val, trips1 ▸ k.isLt⟩ : Fin 64) p : S64x1024.Idx) := by
  show (Rect.unit (s := S64x1024) (k0_off3 k) S1x1024.size (k0_off3_inb k)).emb (Shape.reshapeEquiv _ (ix1 p)) = _
  rw [reshape_row]
  have e0 : k0_off3 k 0 = k.val := off3_zero k
  funext a; apply Fin.ext; rw [Rect.emb_apply]
  match a with
  | ⟨0, _⟩ => show k0_off3 k 0 + 1 * 0 = k.val; omega
  | ⟨1, _⟩ => show 0 + 1 * p.val = p.val; omega

omit [FloatOps F] in
/-- Column `p` of the source slice of the row a word `w` names is the table's element `(w, p, 0)`. -/
theorem srcM_emb (w : BitVec 32) (h : k0_chk1 w) (p : Fin 1024) :
    (srcM w h).view.emb (ix1 p) = (ix3 (Cert.Spec.rowOf w) p (0 : Fin 64) : S4096x1024x64.Idx) := by
  show (Rect.unit (s := S4096x1024x64) (k0_off4 w) S1x1024x1.size (k0_off4_inb w h)).emb (Shape.reshapeEquiv _ (ix1 p)) = _
  rw [reshape_src]
  have h0 : w.toNat + 1 ≤ 4096 := h 0
  have er : (Cert.Spec.rowOf w).val = w.toNat := Cert.Spec.rowOf_val w (by omega)
  funext a; apply Fin.ext; rw [Rect.emb_apply]
  match a with
  | ⟨0, _⟩ => show w.toNat + 1 * 0 = (Cert.Spec.rowOf w).val; omega
  | ⟨1, _⟩ => show 0 + 1 * p.val = p.val; omega
  | ⟨2, _⟩ => show 0 + 1 * 0 = 0; omega

/-- The source slice read at column `p`: the table at `(w, p, 0)`. -/
theorem srcM_read (w : BitVec 32) (h : k0_chk1 w) (p : Fin 1024) :
    (srcM w h).view.read (Elt F) fh (ix1 p) = hbM.view.read (Elt F) fh (ix3 (Cert.Spec.rowOf w) p (0 : Fin 64)) :=
  (View.read_apply (v := (srcM w h).view) (Val := Elt F) fh (ix1 p)).trans
    (congrArg (fun X : S4096x1024x64.Idx => (fh X : Elt F .i32)) (srcM_emb w h p))

omit [FloatOps F] in
/-- A view's buffer after ONE write through the whole of the view's shape, read back at the element under an index:
    the payload there (carried along the view's element-type equation). -/
theorem writes_whole_emb {sig : RefSig} {κ : Kind} {sp : Space} {s : Shape} {e : EltTy} {Val : EltTy → Type}
    (v : View sig κ sp s e) (f : v.ty.Contents Val) (w : (Rect.whole s).shape.Idx → Val e) (x : (Rect.whole s).shape.Idx) :
    _root_.cast (congrArg Val v.elt_eq) (v.writes Val f [⟨Rect.whole s, w⟩] (v.emb x)) = w x := by
  have h := View.read_writes_cons_emb v f (Rect.whole s) w [] x
  rw [Rect.emb_whole_apply] at h
  exact h

/-- The written row at column `p` of row `k`: the table at the row its word names, page `p`, position 0. -/
theorem landedRow_ix2 (k : Fin k0_t1_loop.trips) (p : Fin 1024) :
    landedRow c i ft fs fh hok k (ix2 (⟨k.val, trips1 ▸ k.isLt⟩ : Fin 64) p)
      = hbM.view.read (Elt F) fh (ix3 (Cert.Spec.rowOf (wd ft i k)) p (0 : Fin 64)) := by
  -- the element is the one under column `p` of the row's view
  have e1 : landedRow c i ft fs fh hok k (ix2 (⟨k.val, trips1 ▸ k.isLt⟩ : Fin 64) p)
      = landedRow c i ft fs fh hok k ((rowM k).view.emb (ix1 p)) :=
    congrArg (landedRow c i ft fs fh hok k) (rowM_emb k p).symm
  -- the row's elements are 32-bit words, as the payload's are
  have strip : ∀ A : Elt F (rowM k).view.ty.elt, _root_.cast (congrArg (Elt F) (rowM k).view.elt_eq) A = A := fun A => rfl
  -- so the written row reads its payload there: the source slice at column `p`
  have e2 : landedRow c i ft fs fh hok k ((rowM k).view.emb (ix1 p))
      = (srcM (wd ft i k) (hok k)).view.read (Elt F) fh (ix1 p) :=
    (strip _).symm.trans (writes_whole_emb (rowM k).view fs
      (ReadAs.same.apply ((srcM (wd ft i k) (hok k)).view.read (Elt F) fh)) (ix1 p))
  exact e1.trans (e2.trans (srcM_read c fh (wd ft i k) (hok k) p))

/-- A landed row read at one of its elements: the gathered word. -/
theorem landedRow_apply (k : Fin k0_t1_loop.trips) (y : S64x1024.Idx) (hy : (y 0).val = k.val) :
    landedRow c i ft fs fh hok k y = gathered i ft fh y := by
  obtain ⟨a, p, rfl⟩ : ∃ (a : Fin 64) (p : Fin 1024), y = ix2 a p := ⟨y 0, y 1, eq_ix2 y⟩
  have ha : a = ⟨k.val, trips1 ▸ k.isLt⟩ := Fin.ext hy
  subst ha
  exact landedRow_ix2 c i ft fs fh hok k p

end Rows

end Cert.Kernel.Hand

end
-- ==== Proof.K.Body.lean ====
/-
  The kernel's body at one grid point, on whole staging memrefs: from the point's 64 lengths in its input block, the
  pool-index table, the token table, the scratch and the 64 semaphores at zero, it ends with the output block at the
  body's arithmetic of the GATHERED scratch (row j the page-first words of the pool row the point's j-th table word
  names) and the lengths, everything else as it was.
-/
import proofs.«412879_j28681791602762_2_alg».proof.Proof.Gen.Kernel.Skeleton
import proofs.«412879_j28681791602762_2_alg».proof.Proof.Gen.Kernel.Loops
import proofs.«412879_j28681791602762_2_alg».proof.Proof.Gen.Kernel.Launch
import Idealize.ShloMosaic.Lib.Pipeline.Frame
import Idealize.ShloMosaic.Lib.Ring
import Idealize.ShloMosaic.Lib.Tactic
import proofs.«412879_j28681791602762_2_alg».proof.Proof.K.Rows
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

omit [FloatOps F] in
theorem stIssue_zero : stIssue 0 = fun _ => St.free := by
  funext t; unfold stIssue; rw [if_neg (Nat.not_lt_zero _)]
omit [FloatOps F] in
theorem stIssue_last : stIssue k0_t1_loop.trips = stDrain 0 := by
  funext t; unfold stIssue stDrain; rw [if_pos t.isLt, if_neg (Nat.not_lt_zero _)]
omit [FloatOps F] in
theorem stDrain_last : stDrain k0_t2_loop.trips = fun _ => St.landed := by
  funext t; unfold stDrain; rw [if_pos (by have := t.isLt; have h1 := trips1; have h2 := trips2; omega)]

section Split

variable (c : Dev nD) (i : grid0.Coords) (ft : Bf (F := F) c tbM) (fs : Bf (F := F) c scM) (fh : Bf (F := F) c hbM)
  (hok : ∀ k, k0_chk1 (wd ft i k))

/-- What is left of the token table's full share beside the 64 read shares. -/
abbrev dropPt : sProp 𝕄 := hbM.view.loc (c : Thread nD τ) ↦{Transfers.shareDrop fullShare k0_t1_loop.trips} fh

omit [FloatOps F] in
/-- The whole scratch's elements are all of its buffer's. -/
theorem scM_set : (scM.view.set : Finset _) = Finset.univ := by
  rw [Memref.view_whole]; exact View.set_whole _

/-- Every slot free: the semaphores at zero, the rows at the scratch's entry contents, the shares whole. -/
theorem AtW_free_eq : Ring.AtW (slot c i ft fs fh hok) (fun _ => St.free)
    = iprop(bigSep Finset.univ (fun k => semVal ((c : Thread nD τ), cellM k) 0)
        ∗ bigSep Finset.univ (fun k => rowPt c k fs) ∗ bigSep Finset.univ (fun k => tok c fh k Finset.univ)) := by
  unfold Ring.AtW
  simp only [slot]
  exact (BI.bigSep_sep Finset.univ (fun k => semVal ((c : Thread nD τ), cellM k) 0) (fun k => iprop(rowPt c k fs ∗ tok c fh k Finset.univ))).trans
    (congrArg (fun X => BI.sep (bigSep Finset.univ (fun k => semVal ((c : Thread nD τ), cellM k) 0)) X)
      (BI.bigSep_sep Finset.univ (fun k => rowPt c k fs) (fun k => tok c fh k Finset.univ)))

/-- Every slot landed: the semaphores at zero, the rows written, the shares whole. -/
theorem AtW_landed_eq : Ring.AtW (slot c i ft fs fh hok) (fun _ => St.landed)
    = iprop(bigSep Finset.univ (fun k => semVal ((c : Thread nD τ), cellM k) 0)
        ∗ bigSep Finset.univ (fun k => rowPt c k (landedRow c i ft fs fh hok k)) ∗ bigSep Finset.univ (fun k => tok c fh k Finset.univ)) := by
  unfold Ring.AtW
  simp only [slot]
  exact (BI.bigSep_sep Finset.univ (fun k => semVal ((c : Thread nD τ), cellM k) 0) (fun k => iprop(rowPt c k (landedRow c i ft fs fh hok k) ∗ tok c fh k Finset.univ))).trans
    (congrArg (fun X => BI.sep (bigSep Finset.univ (fun k => semVal ((c : Thread nD τ), cellM k) 0)) X)
      (BI.bigSep_sep Finset.univ (fun k => rowPt c k (landedRow c i ft fs fh hok k)) (fun k => tok c fh k Finset.univ)))

/-- The written rows join to the scratch held whole, at contents that agree with each written row on that row. -/
theorem rows_join :
    bigSep Finset.univ (fun k => rowPt c k (landedRow c i ft fs fh hok k))
      ⊢ (iprop(∃ g : Bf (F := F) c scM, ⌜∀ k : Fin k0_t1_loop.trips, ∀ y ∈ rowSet c k, g y = landedRow c i ft fs fh hok k y⌝
              ∗ (scM.view.loc (c : Thread nD τ) ↦{fullShare} g)) : sProp 𝕄) := by
  refine (pointsTo_biUnion_join (q := fullShare) Finset.univ (rowSet c) (fun k => (landedRow c i ft fs fh hok k : Bf (F := F) c scM)) fs
    (fun k _ k' _ h => rowSet_disjoint c k k' h)).trans ?_
  rw [rowSet_cover]
  iintro ⟨%g, %hg, H⟩
  iexists g
  isplitr
  · ipureintro; exact fun k y hy => hg k (Finset.mem_univ k) y hy
  · iexact H

theorem slots_split :
    iprop((scM.view.loc (c : Thread nD τ) ↦[scM.view.set]{fullShare} fs) ∗ (hbM.view.loc (c : Thread nD τ) ↦{fullShare} fh)
        ∗ Pipeline.ownSems0 (Ix := Unit) (Name := ℕ) (U := Pipeline.UD sig nD τ) (Lvl := ℕ) (Val := Elt F) (τ := τ) osem0 c)
      ⊢ iprop(Ring.AtW (slot c i ft fs fh hok) (fun _ => St.free) ∗ dropPt c fh) := by
  unfold Pipeline.ownSems0 osem0
  rw [scM_set, AtW_free_eq, Ring.pointsTo_blocks (rowSet c) (rowSet_disjoint c) (rowSet_cover c) fs]
  iintro ⟨Hrows, Hh, Hcells⟩
  ihave Ht := (Transfers.pointsTo_toks_split (Ix := Unit) (Name := ℕ) (U := Pipeline.UD sig nD τ) (Lvl := ℕ) fullShare k0_t1_loop.trips) $$ Hh
  icases Ht with ⟨Hdrop, Htoks⟩
  isplitr [Hdrop]
  · isplitl [Hcells]; · iexact Hcells
    isplitl [Hrows]; · iexact Hrows
    iexact Htoks
  · iexact Hdrop

theorem slots_join :
    iprop(Ring.AtW (slot c i ft fs fh hok) (fun _ => St.landed) ∗ dropPt c fh)
      ⊢ iprop((∃ g : Bf (F := F) c scM, ⌜∀ k : Fin k0_t1_loop.trips, ∀ y ∈ rowSet c k, g y = landedRow c i ft fs fh hok k y⌝
              ∗ (scM.view.loc (c : Thread nD τ) ↦[scM.view.set]{fullShare} g))
          ∗ (hbM.view.loc (c : Thread nD τ) ↦{fullShare} fh)
          ∗ Pipeline.ownSems0 (Ix := Unit) (Name := ℕ) (U := Pipeline.UD sig nD τ) (Lvl := ℕ) (Val := Elt F) (τ := τ) osem0 c) := by
  unfold Pipeline.ownSems0 osem0
  rw [scM_set, AtW_landed_eq]
  iintro ⟨⟨Hcells, Hrows, Htoks⟩, Hdrop⟩
  isplitl [Hrows]
  · iapply (rows_join c i ft fs fh hok); iexact Hrows
  isplitl [Hdrop Htoks]
  · iapply (Transfers.pointsTo_toks_join (Ix := Unit) (Name := ℕ) (U := Pipeline.UD sig nD τ) (Lvl := ℕ) fullShare k0_t1_loop.trips)
    isplitl [Hdrop]; · iexact Hdrop
    iexact Htoks
  · iexact Hcells

end Split
set_option maxHeartbeats 4000000 in
/-- The body's run. `hok`: every table word the point reads names a row of the table. -/
theorem kernelRun [∀ e, Nonempty (Elt F e)] (c : Dev nD) (i : grid0.Coords)
    (arg2 : Memref sig .tc .vmem S64x1 .i32) (harg2 : arg2.IsWhole) (arg4 : Memref sig .tc .vmem S64x1024 .i32) (harg4 : arg4.IsWhole)
    (x0 : Vec F S64x1 .i32) (ft : Bf (F := F) c tbM) (fh : Bf (F := F) c hbM) (hok : ∀ k, k0_chk1 (wd ft i k))
    (W : Waits sig Unit) (K : PUnit → sProp 𝕄) :
    iprop(owns (c : Thread nD τ) arg2 fullShare x0 ∗ (∃ d, owns (c : Thread nD τ) arg4 fullShare d) ∗ (∃ d, owns (c : Thread nD τ) scM fullShare d)
        ∗ Pipeline.ownSems0 (Ix := Unit) (Name := ℕ) (U := Pipeline.UD sig nD τ) (Lvl := ℕ) (Val := Elt F) (τ := τ) osem0 c
        ∗ (hbM.view.loc (c : Thread nD τ) ↦{fullShare} fh) ∗ (tbM.view.loc (c : Thread nD τ) ↦{fullShare.right} ft) ∗ owes (c : Thread nD τ) 0 W
        ∗ (iprop(owns (c : Thread nD τ) arg2 fullShare x0 ∗ owns (c : Thread nD τ) arg4 fullShare (k0_pay1 (gathered i ft fh) x0)
              ∗ (∃ d, owns (c : Thread nD τ) scM fullShare d)
              ∗ Pipeline.ownSems0 (Ix := Unit) (Name := ℕ) (U := Pipeline.UD sig nD τ) (Lvl := ℕ) (Val := Elt F) (τ := τ) osem0 c
              ∗ (hbM.view.loc (c : Thread nD τ) ↦{fullShare} fh) ∗ (tbM.view.loc (c : Thread nD τ) ↦{fullShare.right} ft)
              ∗ (∃ W', owes (c : Thread nD τ) 0 W')) -∗ K ⟨⟩))
      ⊢ wp frame (wpE (defs₀ (F := F)) Variants.none c none) Set.univ
          (cc0__kernel i tbM (Memref.isWhole_whole _) arg2 harg2 hbM (Memref.isWhole_whole _) arg4 harg4 scM (Memref.isWhole_whole _) cc0_scratch1) K := by
  unfold owns
  iintro ⟨⟨%f2, %hf2, H2⟩, ⟨%d4, %f4, -, H4⟩, ⟨%ds, %fs, -, HS⟩, Hcells, Hh, Htb, HW, Hk⟩
  obtain rfl := harg2.eq_unread hf2
  ihave Hsl := (slots_split c i ft fs fh hok) $$ [HS Hh Hcells]
  · isplitl [HS]; · iexact HS
    isplitl [Hh]; · iexact Hh
    iexact Hcells
  icases Hsl with ⟨Hslots, Hdrop⟩
  simp only [cc0__kernel_eq_skeleton]; unfold cc0__kernel_skel
  sl_for (issueAt c i ft fs fh hok) $$ [Hslots Htb]
  · intro k acc; exact issue_step c i ft fs fh hok arg2 harg2 arg4 harg4 k acc
  · unfold issueAt; rw [stIssue_zero]
    isplitl [Hslots]; · iexact Hslots
    iexact Htb
  iintro %acc HL
  unfold issueAt
  rw [stIssue_last]
  icases HL with ⟨Hslots, Htb⟩
  sl_for (drainAt c i ft fs fh hok) $$ [Hslots HW]
  · intro k acc; exact drain_step c i ft fs fh hok arg2 harg2 arg4 harg4 k acc
  · unfold drainAt
    isplitl [Hslots]; · iexact Hslots
    iexists _; iexact HW
  iintro %acc2 HL2
  unfold drainAt
  rw [stDrain_last]
  icases HL2 with ⟨Hslots, ⟨%W', HW⟩⟩
  ihave Hj := (slots_join c i ft fs fh hok) $$ [Hslots Hdrop]
  · isplitl [Hslots]; · iexact Hslots
    iexact Hdrop
  icases Hj with ⟨⟨%g, %hg, HS⟩, Hh, Hcells⟩
  sl_exec
  sl_step
  iapply Hk
  isplitl [H2]
  · iexists _; isplitr
    · ipureintro; exact hf2
    · iexact H2
  isplitl [H4]
  · iexists _; isplitr; swap
    · iexact H4
    ipureintro
    have hz : (![0, 0] : Fin S64x1024.rank → Nat) = fun _ => 0 := by funext a; fin_cases a <;> rfl
    have hz1 : (![0, 0] : Fin S64x1.rank → Nat) = fun _ => 0 := by funext a; fin_cases a <;> rfl
    rw [View.read_writes_eq_canon _ _ _ (View.cover_of_tiledL _ S64x1024.size (by sl_kernel_rfl)), View.canon_unit_zero hz]
    rw [View.readAt_eq_ld, View.readAt_eq_ld, View.ld_unit_zero (S := S64x1024) hz, View.ld_unit_zero (S := S64x1) hz1, hf2]
    congr 1
    funext y
    show g y = gathered i ft fh y
    have hy : (y 0).val < k0_t1_loop.trips := by have := (y 0).isLt; rw [trips1]; exact this
    rw [hg ⟨(y 0).val, hy⟩ y ((mem_rowSet c ⟨(y 0).val, hy⟩ y).2 rfl)]
    exact landedRow_apply c i ft fs fh hok ⟨(y 0).val, hy⟩ y rfl
  isplitl [HS]
  · iexists _, g; isplitr
    · ipureintro; rfl
    · iexact HS
  isplitl [Hcells]; · iexact Hcells
  isplitl [Hh]; · iexact Hh
  isplitl [Htb]; · iexact Htb
  iexists _; iexact HW

end Cert.Kernel.Hand

end
-- ==== Proof.K.Frame.lean ====
/-
  The launch of the kernel's one region over the body's run, and the frame.

  At each grid point the pipeline calls the body with the windows' current staging buffers. The invariant between
  points (the scratch at some contents, the generator register at some state, the body's 64 semaphores at zero, the
  token table whole at its entry contents, the pool-index table at half share at its entry contents) is opened into
  exactly what the body's run takes; the input buffer holds the point's 64 lengths; and under the precondition every
  table word the point reads names a row of the token table, the one hypothesis the run asks. The run gives all of it
  back unchanged, with the output buffer at the body's arithmetic of the gathered rows and the lengths: the proof
  data's statement. The library's launch for a pipeline with a prefetched table and a body that copies from an
  unscoped array by its own transfers then runs @main to the end; its post leaves every unscoped buffer that is no
  window's array — the three arguments among them — as the region found it, and the region found the arguments as
  launched.
-/
import proofs.«412879_j28681791602762_2_alg».proof.Proof.K.Hok
import proofs.«412879_j28681791602762_2_alg».proof.Proof.K.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant, conjunct by conjunct -/

/-- The body's 64 semaphores at zero, the scratch at some contents, the generator register at some state and the
    token table whole at its entry contents: the invariant's first part as the body's run takes it. -/
theorem PhiD0_eq (c : Dev nD) :
    (Pipeline.ΦD osem0 spec0 H0 (V m) c : sProp 𝕄)
      = iprop((∃ d, owns (c : Thread nD τ) scM fullShare d) ∗ (∃ r, prngReg c r)
          ∗ Pipeline.ownSems0 (Ix := Unit) (Name := ℕ) (U := Pipeline.UD sig nD τ) (Lvl := ℕ) (Val := Elt F) (τ := τ) osem0 c
          ∗ (hbM.view.loc (c : Thread nD τ) ↦{fullShare} V m c main_v1)) := by
  rw [Pipeline.ΦD_eq, scopedRest0_eq, show H0 = {main_v1} from rfl, BI.bigSep_singleton]
  simp only [scM, owns_whole]; try rfl

/-- The pool-index table at half share at its entry contents: the invariant's second part. -/
theorem PhiT0_eq (c : Dev nD) :
    (Pipeline.ΦT pre0 (adm m 0).1 c : sProp 𝕄) = iprop(tbM.view.loc (c : Thread nD τ) ↦{fullShare.right} V m c main_arg1) := by
  obtain rfl : c = 0 := Subsingleton.elim _ _
  unfold Pipeline.ΦT Pipeline.prefHeld
  rw [show (Finset.univ : Finset (Fin pre0.K)) = {0} from by decide, BI.bigSep_singleton]
  rfl

/-! ## The body obligation, at a generic point -/

/-- The kernel body at point `t`, on what the pipeline calls it with: the point's coordinates, the pool-index table
    whole, the windows' current staging memrefs, the token table whole, the scratch and the 64 semaphores. -/
abbrev bodyAt0 (t : Fin (cfgM m).N) : Prog (TpuEff nD τ sig (Elt F) Λ₀ .tc) PUnit :=
  cc0__kernel (grid0.coords t) tbM (Memref.isWhole_whole _) (ms0_0 m t) (hs0_0 m t) hbM (Memref.isWhole_whole _)
    (ms0_1 m t) (hs0_1 m t) scM (Memref.isWhole_whole _) cc0_scratch1

/-- What the body is called with at point `t`: the invariant, what the core owes, and the two windows' current staging
    buffers at what they then hold; -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

/-- and what it returns: the invariant again, what the core then owes, and the two buffers at what the proof data say
    the body leaves. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

/-- The body at any point. The input's staging buffer holds the point's 64 lengths; the invariant hands the body its
    scratch, its 64 semaphores at zero, the token table whole and the pool-index table at half share, both at their
    entry contents; under the precondition every table word the point reads names a row, which is what the body's
    run asks. The run gives everything back as it was, the output's buffer at the body's arithmetic of the gathered
    rows and the lengths — what the proof data state —, and the core owing nothing, its recorded waits within the
    next point's bound (everything). The generator register passes by untouched. -/
theorem sound_body (hpre : ∀ c : Dev nD, Cert.Pre_any_inputs.fn (F := F) (m ((c : Thread nD τ).loc main_arg0)) (m ((c : Thread nD τ).loc main_arg1)) (m ((c : Thread nD τ).loc main_arg2)) = fun _ => 1#1) (c : Dev nD) (t : Fin (cfgM m).N) :
    bodyPre m c t ⊢ wp frame (wpE (defs₀ (F := F)) Variants.none c none) Set.univ (bodyAt0 m t) (fun _ => bodyPost m c t) := by
  unfold bodyPre bodyPost
  simp only [before0_0]
  rw [show (dats m 0 c).Φ t.succ = (dats m 0 c).Φ t.castSucc from rfl, after0_0, after0_1]
  rw [show (dats m 0 c).Φ t.castSucc = iprop(Pipeline.ΦD osem0 spec0 H0 (V m) c ∗ Pipeline.ΦT pre0 (adm m 0).1 c) from rfl,
    PhiD0_eq, PhiT0_eq]
  unfold Dat.owesAt Pipeline.owesWithin
  rw [show (dats m 0 c).owed t.castSucc = 0 from rfl, show (dats m 0 c).owed t.succ = 0 from rfl]
  iintro ⟨⟨⟨HS, Hg, Hq, Hh⟩, Ht⟩, ⟨%W, -, HW⟩, ⟨%d0, H0⟩, ⟨%d1, H1⟩⟩
  iapply (kernelRun c (grid0.coords t) (ms0_0 m t) (hs0_0 m t) (ms0_1 m t) (hs0_1 m t) (iblk m c 0 t)
    (V m c main_arg1) (V m c main_v1) (fun k => hok_of_pre m hpre c t k) W _)
  isplitl [H0]; · iexact H0
  isplitl [H1]; · iexists _; iexact H1
  isplitl [HS]; · iexact HS
  isplitl [Hq]; · iexact Hq
  isplitl [Hh]; · iexact Hh
  isplitl [Ht]; · iexact Ht
  isplitl [HW]; · iexact HW
  iintro ⟨H0, H1, HS, Hq, Hh, Ht, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation (hpre : ∀ c : Dev nD, Cert.Pre_any_inputs.fn (F := F) (m ((c : Thread nD τ).loc main_arg0)) (m ((c : Thread nD τ).loc main_arg1)) (m ((c : Thread nD τ).loc main_arg2)) = fun _ => 1#1) (c : Dev nD) :
    BodyObligation (dats (F := F) m 0 c) (defs₀ (F := F)) Variants.none () Set.univ := fun t => by
  rw [bigSep_W0, bigSep_W0]
  exact sound_body m hpre c t

/-! ## The run and the frame -/

set_option backward.isDefEq.respectTransparency.types false in
/-- At the compiled mesh, from any memory with zero counters of which the precondition holds: every weakly fair
    execution of @main on the TensorCores terminates, and every final state has the pipeline's two arrays at what the
    library computes from the proof data and every other unscoped buffer — the prefetched table among them — as the
    region found it. -/
theorem run_main (hpre : ∀ c : Dev nD, Cert.Pre_any_inputs.fn (F := F) (m ((c : Thread nD τ).loc main_arg0)) (m ((c : Thread nD τ).loc main_arg1)) (m ((c : Thread nD τ).loc main_arg2)) = fun _ => 1#1) :
    θ_run defs (onTc (τ := τ) (main (F := F))) (s₀ m ρ) (Pipeline.FramePost (Pipeline.pin (pcfgs (F := F)) (adm m)) (dats m) 0 (V m)) :=
  Pipeline.θ_run_frameP_dma pcfgs (adm m) (dats m) (0 : Fin 1) launch0 osem0 defs₀ Variants.none ownSemFacts0 H0 H0_sub m ρ main
    (hbody := fun c => (body_obligation m hpre c).loose) (hshare := fun c => (dats m 0 c).share_full fun _ => rfl)
    (howed := fun _ _ => rfl) (V := V m) (hmain := hmain m Variants.none) (hA := A_eq m) (hpf := hpf m)
    (hin := fun _ => .rfl) (hout := fun c => by
      rw [show (dats m 0 c).Φ (Fin.last (Pipeline.pin (pcfgs (F := F)) (adm m) 0).N)
        = iprop(Pipeline.ΦD osem0 spec0 H0 (V m) c ∗ Pipeline.ΦT pre0 (adm m 0).1 c) from rfl]
      iintro ⟨H, -⟩; iexact H)

/-- THE FRAME: under the precondition @main runs to the end and the three argument arrays end as launched. None is an
    array of the pipeline's windows (those are the reshaped lengths and the result), so each is among the buffers
    the run leaves as the region found them — the pool-index table too, which the region holds and hands back
    unchanged —, and the region found each as launched: no reshape writes an argument. -/
theorem frame (hpre : ∀ c : Dev nD, Cert.Pre_any_inputs.fn (F := F) (m ((c : Thread nD τ).loc main_arg0)) (m ((c : Thread nD τ).loc main_arg1)) (m ((c : Thread nD τ).loc main_arg2)) = fun _ => 1#1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩)
    (run_main m ρ hpre)

end Cert.Kernel.Hand

end
-- ==== Proof.KI.Base.lean ====
/-
  The kernel's operands, loops and words, named once for the modules that run its body and launch it.
-/
import proofs.«412879_j28681791602762_2_alg».proof.Proof.Gen.KernelIdeal.Skeleton
import proofs.«412879_j28681791602762_2_alg».proof.Proof.Gen.KernelIdeal.Loops
import proofs.«412879_j28681791602762_2_alg».proof.Proof.Gen.KernelIdeal.Launch
import Idealize.ShloMosaic.Lib.Pipeline.Frame
import Idealize.ShloMosaic.Lib.Ring
import Idealize.ShloMosaic.Lib.Tactic
import Idealize.ShloMosaic.Lib.ValueIdx
import proofs.«412879_j28681791602762_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The operands the body is called with, the loops' trip counts, and the words it reads

The kernel is called at a grid point `i` with the pool-index table whole in scalar memory, its input block (the 64
lengths of the point's requests), the token table left in HBM as a [4096, 1024, 64] array (row, page, position in the
page), its output block, a [64, 1024] scratch and 64 DMA semaphores. Trip `k` of its first loop reads word `64 i + k`
of the table and starts a copy of that row's page-first words (position 0 of every page: a strided [1024] slice) into
row `k` of the scratch, on semaphore `k`; trip `k` of the second loop waits on semaphore `k`. -/

theorem trips1 : k0_t1_loop.trips = 64 := by decide
theorem trips2 : k0_t2_loop.trips = 64 := by decide

/-- The scratch, the token table as the kernel sees it, and the pool-index table, whole. -/
abbrev scM : Memref sig .tc .vmem S64x1024 .i32 := Memref.whole cc0_scratch0
abbrev hbM : Memref sig .tc .hbm S4096x1024x64 .i32 := Memref.whole main_v1
abbrev tbM : Memref sig .tc .smem S1024 .i32 := Memref.whole main_arg1

/-- The contents type of a memref's buffer on core `c`. -/
abbrev Bf (c : Dev nD) {sp : Space} {S : Shape} {e : EltTy} (M : Memref sig .tc sp S e) : Type := Buf (Elt F) (M.view.loc (c : Thread nD τ))

abbrev i0 : S1.Idx := Shape.Idx.first (s := S1) (numel1_S1.symm ▸ Nat.one_pos)

/-- The pool-row word that trip `k` of the first loop reads at grid point `i`, off contents `ft` of the table. -/
abbrev wd {c : Dev nD} (ft : Bf (F := F) c tbM) (i : grid0.Coords) (k : Fin k0_t1_loop.trips) : BitVec 32 :=
  tbM.view.readAt (Elt F) (Rect.unit (s := S1024) (k0_off1 i k) S1.size (k0_off1_inb i k)).toLoadRect ft i0

/-- Row `k` of the scratch, as trip `k` of the first loop names a copy's destination. -/
def rowM (k : Fin k0_t1_loop.trips) : Memref sig .tc .vmem S1024 .i32 :=
  (scM.slice (Rect.unit (s := S64x1024) (k0_off3 k) S1x1024.size (k0_off3_inb k)) (fun _ => rfl)).squeeze S1024 squeezes_S1x1024_S1024

/-- The page-first words of the pool row a word `w` names, as a trip names a copy's source; `h`: the row is in the table. -/
def srcM (w : BitVec 32) (h : k0_chk1 w) : Memref sig .tc .hbm S1024 .i32 :=
  (hbM.slice (Rect.unit (s := S4096x1024x64) (k0_off4 w) S1x1024x1.size (k0_off4_inb w h)) (fun _ => rfl)).squeeze S1024 squeezes_S1x1024x1_S1024

/-- The semaphore of trip `k`. -/
abbrev cellM (k : Fin k0_t1_loop.trips) : SemLoc sig :=
  .dma ((cc0_scratch1.slice (Rect.unit (s := S64) (k0_off2 k) S1.size (k0_off2_inb k))).squeeze S_ squeezes_S1_S_).sem

/-- The kernel's own semaphores, one per trip. -/
def osem0 : Fin k0_t1_loop.trips → SemLoc sig := fun k => cellM k

/-- The one array the body copies from by itself: the token table in its [4096, 1024, 64] layout. -/
def H0 : Finset (Ref sig .tc) := {main_v1}

/-- A word below 4096 names a row of the table: the condition the body assumes of each word it reads. -/
theorem chk_of_lt (w : BitVec 32) (h : w.toNat < 4096) : k0_chk1 w := by
  intro a
  fin_cases a
  · show w.toNat + 1 ≤ 4096; omega
  · show 0 + 1024 ≤ 1024; omega
  · show 0 + 1 ≤ 64; omega

/-- What the scratch holds once every copy of a point has landed, as a [64, 1024] array: row `j` is the page-first
    words of the pool row that the point's `j`-th table word names (the word reduced modulo 4096, so that the
    function is total; under the certificate's precondition every word is below 4096). -/
def gathered {c : Dev nD} (i : grid0.Coords) (ft : Bf (F := F) c tbM) (fh : Bf (F := F) c hbM) : Vec F S64x1024 .i32 :=
  fun y => hbM.view.read (Elt F) fh
    (Idealize.ShloMosaic.ValueIdx.ix3 (Cert.Spec.rowOf (wd ft i ⟨(y 0).val, trips1 ▸ (y 0).isLt⟩)) (⟨(y 1).val, (y 1).isLt⟩ : Fin 1024) (0 : Fin 64))

end Cert.KernelIdeal.Hand

end
-- ==== Proof.KI.Launch.lean ====
/-
  The launch side of the kernel's one pipeline region, up to the proof data.

  @main reshapes the lengths to a [1024, 1] column and the token table to its [4096, 1024, 64] layout (row, page,
  position in the page), then runs one region over 16 grid points. The region's entry contents `V` are the launch
  memory after those two reshapes. The pool-index table (1024 words in scalar memory) is a prefetched table: its
  contents are read off `V`, and since the region's side condition on them is `True`, every contents is admissible.
  Window 0 stages the point's 64 lengths (a [64, 1] block of the column), window 1 the point's [64, 1024] block of the
  result. The token table bypasses the pipeline: the body copies from it by its own transfers, on 64 semaphores of its
  own.

  The proof data say what each staging buffer holds after the body at point `t`: the input block unchanged, and the
  output block at the body's arithmetic of the GATHERED rows (row j: the page-first words of the pool row that word
  `64 t + j` of the table names) and the point's lengths. The invariant between points is the scratch at some contents,
  the generator register at some state, the body's 64 semaphores at zero, the token table whole at its entry
  contents, and the pool-index table at half share at its entry contents.
-/
import proofs.«412879_j28681791602762_2_alg».proof.Proof.KI.Base
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region -/

/-- Core `c`'s TensorCore buffers when the region is entered: the launch contents after the two host reshapes. -/
abbrev V (c : Dev nD) (b : Ref sig .tc) : Buf (Elt F) ((c : Thread nD τ).loc b) :=
  StableHlo.after hostOps0 (fun b => m (c, b)) b

/-- Neither reshape leaves a buffer at unnamed contents. -/
theorem hostOps0_fresh : (hostOps0 : List (HloOp τ sig (Elt F))).Forall fun op => op.fresh = ∅ := by
  simp only [List.Forall]; repeat' constructor

/-- @main up to the region: holding the unscoped buffers at the launch contents, the two reshapes run and the region
    is reached holding them at `V`. -/
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No reshape writes an argument array: the region finds the three as launched. -/
theorem V_main_arg0 (c : Dev nD) : V m c main_arg0 = m ((c : Thread nD τ).loc main_arg0) := by
  dsimp only [V, Gen.hostOps0]; after_results
theorem V_main_arg1 (c : Dev nD) : V m c main_arg1 = m ((c : Thread nD τ).loc main_arg1) := by
  dsimp only [V, Gen.hostOps0]; after_results
theorem V_main_arg2 (c : Dev nD) : V m c main_arg2 = m ((c : Thread nD τ).loc main_arg2) := by
  dsimp only [V, Gen.hostOps0]; after_results
/-- The lengths as a [1024, 1] column: the same words in row-major order. -/
theorem V_main_v0 (c : Dev nD) :
    V m c main_v0 = (shapeCast S1024x1 (m ((c : Thread nD τ).loc main_arg2) : Vec F S1024 .i32) shapeCasts_S1024_S1024x1 : Vec F S1024x1 .i32) := by
  dsimp only [V, Gen.hostOps0]; after_results; rfl
/-- The token table as [4096, 1024, 64] (row, page, position in the page): the same words in row-major order. -/
theorem V_main_v1 (c : Dev nD) :
    V m c main_v1 = (shapeCast S4096x1024x64 (m ((c : Thread nD τ).loc main_arg0) : Vec F S4096x65536 .i32) shapeCasts_S4096x65536_S4096x1024x64 : Vec F S4096x1024x64 .i32) := by
  dsimp only [V, Gen.hostOps0]; after_results; rfl

/-! ## The prefetched table, read off the region's entry contents -/

/-- The pool-index table's contents when the region is entered (the program runs on one device: device 0's). -/
def tbl : pre0.Contents (Elt F) := fun j => V m (0 : Dev nD) (pre0.ref j)

/-- Those contents as admissible contents of the one pipeline: its side condition on them is `True`. -/
abbrev adm : (p : Fin 1) → (pcfgs (F := F) p).Adm := fun _ => ⟨tbl m, trivial⟩

/-- On every device the table holds those contents at the region's entry (there is one device). -/
theorem hpf (c : Dev nD) (k : Fin pre0.K) : V m c (pre0.ref k) = (adm m 0).1 k := by
  obtain rfl : c = 0 := Subsingleton.elim _ _; rfl

/-- The pipeline at the table's contents. -/
abbrev cfgM : Pipeline.Cfg sig Λ₀ := Pipeline.pin (pcfgs (F := F)) (adm m) 0

/-! ## The windows' blocks and staging memrefs -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- Each window's current staging memref at point `t`, as the pipeline passes it to the body, and its wholeness. -/
abbrev ms0_0 (t : Fin (cfgM m).N) : Memref sig .tc .vmem S64x1 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S64x1024 .i32 := spec0_1.stage ((cfgM m).slots t 1)
abbrev hs0_1 (t : Fin (cfgM m).N) : (ms0_1 m t).IsWhole := hstage0_1 (((cfgM m).slots t 1).cast nbuf0_1)

/-! ## The proof data -/

/-- The proof data of the one pipeline on core `c`: the arrays as the region finds them; after the body at point `t`
    the input's buffer still at the point's 64 lengths, the output's at the body's arithmetic of the gathered rows
    and those lengths; the invariant — the scratch at some contents, the generator register at some state, the body's
    64 semaphores at zero, the token table whole at its entry contents, and the pool-index table at half share at
    its entry contents — the same at every point; nothing owed; full shares. -/
def dats (p : Fin 1) (c : Dev nD) :
    Dat τ (Elt F) Unit ℕ (Pipeline.UD sig nD τ) ℕ (Pipeline.pin (pcfgs (F := F)) (adm m) p) c where
  A w := V m c (Pipeline.arrRef spec0 w)
  after w t := match w with
    | ⟨0, _⟩ => iblk m c 0 t
    | ⟨1, _⟩ => k0_pay1 (gathered (grid0.coords t) (V m c main_arg1) (V m c main_v1)) (iblk m c 0 t)
  Φ _ := iprop(Pipeline.ΦD osem0 spec0 H0 (V m) c ∗ Pipeline.ΦT pre0 (adm m 0).1 c)
  q _ := fullShare
  owed _ := 0

/-- The proof data's arrays are the region's entry contents. -/
theorem A_eq (c : Dev nD) (w : Fin (cfgM m).W) : (dats m 0 c).A w = V m c (Pipeline.arrRef spec0 w) := by
  dsimp only [dats]

/-- What the body leaves, window by window. -/
theorem after0_0 (c : Dev nD) (t : Fin (cfgM m).N) : (dats m 0 c).after 0 t = iblk m c 0 t := by
  dsimp only [dats]; rfl
theorem after0_1 (c : Dev nD) (t : Fin (cfgM m).N) :
    (dats m 0 c).after 1 t = k0_pay1 (gathered (grid0.coords t) (V m c main_arg1) (V m c main_v1)) (iblk m c 0 t) := by
  dsimp only [dats]; rfl

/-- Input window 0's current staging buffer holds the point's block whenever the body runs, fetched at that point or
    not: the body only reads the block, so where no fetch happened the block index has not moved and the buffer
    still holds it. -/
theorem before0_0 (c : Dev nD) (t : Fin (cfgM m).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)

/-! ## The body's own semaphores and the array it copies from -/

/-- The body's 64 semaphores are scoped, pairwise distinct (trip `k`'s is cell `4 + k` of the pool), and none is a
    staging semaphore of the two windows (those are cells 0 to 3). -/
theorem ownSemFacts0 : Pipeline.OwnSemFacts spec0 osem0 := by decide

/-- The token table in its [4096, 1024, 64] layout is unscoped, no window's array and not the prefetched table: it
    bypasses the pipeline. -/
theorem H0_sub : H0 ⊆ Pipeline.restRefsP sig pre0 spec0 := by decide

end Cert.KernelIdeal.Hand

end
-- ==== Proof.KI.Hok.lean ====
/-
  The side condition the body assumes of each table word it reads, from the certificate's precondition.

  The precondition says every word of the pool-index table, as launched, is at least 0 and below 4096 as a signed
  number, hence below 4096 as an unsigned one. Trip `k` of the body's first loop at grid point `t` loads one word
  through the whole table; the table at the region's entry is the table as launched (no reshape writes it); so the word
  is below 4096 and names a row of the 4096-row token table, which is the check the body assumes before it slices that
  row. Stated for any float instance under the precondition's equation at that instance: the equation compares integer
  words only.
-/
import proofs.«412879_j28681791602762_2_alg».proof.Proof.KI.Launch
import proofs.«412879_j28681791602762_2_alg».proof.Proof.PreRange

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The words the body reads name rows of the table -/

open Idealize.ShloMosaic.ValueIdx in
/-- Under the precondition, every word of the pool-index table at launch is below 4096. -/
theorem tbl_lt (hpre : ∀ c : Dev nD, Cert.Pre_any_inputs.fn (F := F) (m ((c : Thread nD τ).loc main_arg0)) (m ((c : Thread nD τ).loc main_arg1)) (m ((c : Thread nD τ).loc main_arg2)) = fun _ => 1#1)
    (c : Dev nD) (j : S1024.Idx) : ((m ((c : Thread nD τ).loc main_arg1) : IVec S1024 32) j).toNat < 4096 := by
  rw [eq_ix1 j]; exact Cert.PreRange.idx_lt (F := F) _ _ _ (hpre c) (j 0)

/-- The check the body assumes of the word trip `k` reads at point `t`: the word is a word of the table as launched
    (the load goes through the whole table, and no reshape writes it), so it is below 4096 and names a row. -/
theorem hok_of_pre (hpre : ∀ c : Dev nD, Cert.Pre_any_inputs.fn (F := F) (m ((c : Thread nD τ).loc main_arg0)) (m ((c : Thread nD τ).loc main_arg1)) (m ((c : Thread nD τ).loc main_arg2)) = fun _ => 1#1)
    (c : Dev nD) (t : Fin (cfgM m).N) (k : Fin k0_t1_loop.trips) : k0_chk1 (wd (V m c main_arg1) (grid0.coords t) k) := by
  apply chk_of_lt
  have e : wd (V m c main_arg1) (grid0.coords t) k
      = (V m c main_arg1 : IVec S1024 32) ((Rect.unit (s := S1024) (k0_off1 (grid0.coords t) k) S1.size (k0_off1_inb (grid0.coords t) k)).toLoadRect.idx i0) := rfl
  rw [e, V_main_arg1]
  exact tbl_lt m hpre c _

end Cert.KernelIdeal.Hand

end
-- ==== Proof.KI.Slots.lean ====
/-
  The copies of one grid point: 64 slots — a scratch row, a semaphore, a read share of the token table each — and the
  two loops' trips over them.
-/
import proofs.«412879_j28681791602762_2_alg».proof.Proof.Gen.KernelIdeal.Skeleton
import proofs.«412879_j28681791602762_2_alg».proof.Proof.Gen.KernelIdeal.Loops
import proofs.«412879_j28681791602762_2_alg».proof.Proof.Gen.KernelIdeal.Launch
import Idealize.ShloMosaic.Lib.Pipeline.Frame
import Idealize.ShloMosaic.Lib.Ring
import Idealize.ShloMosaic.Lib.Tactic
import proofs.«412879_j28681791602762_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## One slot per trip: a scratch row, its semaphore, and a read share of the token table

The 64 copies of a point are all in flight at once and may read the same table row, so the token table is held as 64
READ SHARES of the whole array, one per semaphore, beside a remainder; a copy lends the elements of its source
slice out of its semaphore's share. Slot `k` is in one of three states:
  FREE — its semaphore at zero, row `k` of the scratch at the scratch's entry contents, its share of the table whole;
  FLYING — the copy started: the transfer's invariant on the semaphore, which delivers row `k` WRITTEN with the source
    slice's words and the lent elements of the share, beside the share's other elements;
  LANDED — the copy waited for: the semaphore at zero again, row `k` at the written contents, the share whole again. -/

inductive St where
  | free | flying | landed
  deriving DecidableEq

section Slots

variable (c : Dev nD) (i : grid0.Coords) (ft : Bf (F := F) c tbM) (fs : Bf (F := F) c scM) (fh : Bf (F := F) c hbM)
  (hok : ∀ k, k0_chk1 (wd ft i k))

/-- Semaphore `k`'s read share of the token table, on the elements `S`. -/
abbrev tok (k : Fin k0_t1_loop.trips) (S : Finset (Idx (hbM.view.loc (c : Thread nD τ)))) : sProp 𝕄 :=
  hbM.view.loc (c : Thread nD τ) ↦[S]{Transfers.shareTok fullShare 64 (k.cast trips1)} fh

/-- Row `k` of the scratch, held by its own elements at contents `f`. -/
abbrev rowPt (k : Fin k0_t1_loop.trips) (f : Buf (Elt F) ((rowM k).view.loc (c : Thread nD τ))) : sProp 𝕄 :=
  (rowM k).view.loc (c : Thread nD τ) ↦[(rowM k).view.set]{fullShare} f

/-- The scratch with row `k` written: the page-first words of the pool row that the point's `k`-th table word names. -/
abbrev landedRow (k : Fin k0_t1_loop.trips) : Buf (Elt F) ((rowM k).view.loc (c : Thread nD τ)) :=
  (rowM k).view.writes (Elt F) fs [⟨Rect.whole S1024, ReadAs.same.apply ((srcM (wd ft i k) (hok k)).view.read (Elt F) fh)⟩]

/-- Slot `k` in state `s`. -/
def slot (k : Fin k0_t1_loop.trips) : St → sProp 𝕄
  | .free => iprop(semVal ((c : Thread nD τ), cellM k) 0 ∗ rowPt c k fs ∗ tok c fh k Finset.univ)
  | .flying => iprop(Transfers.Flight countersEmb (c : Thread nD τ) (cellM k) default 1024
        iprop(rowPt c k (landedRow c i ft fs fh hok k) ∗ tok c fh k (srcM (wd ft i k) (hok k)).view.set)
      ∗ tok c fh k (Finset.univ \ (srcM (wd ft i k) (hok k)).view.set))
  | .landed => iprop(semVal ((c : Thread nD τ), cellM k) 0 ∗ rowPt c k (landedRow c i ft fs fh hok k) ∗ tok c fh k Finset.univ)

/-- Before trip `k` of the first loop: the slots below `k` flying, the others free. -/
def stIssue (k : ℕ) : Fin k0_t1_loop.trips → St := fun t => if t.val < k then .flying else .free
/-- Before trip `k` of the second loop: the slots below `k` landed, the others flying. -/
def stDrain (k : ℕ) : Fin k0_t1_loop.trips → St := fun t => if t.val < k then .landed else .flying

omit [FloatOps F] in
theorem stIssue_succ (k : Fin k0_t1_loop.trips) : Function.update (stIssue k.val) k St.flying = stIssue (k.val + 1) := by
  funext t
  by_cases h : t = k
  · subst h; simp [stIssue]
  · have : t.val ≠ k.val := fun e => h (Fin.ext e)
    rw [Function.update_of_ne h]; unfold stIssue
    by_cases h1 : t.val < k.val
    · rw [if_pos h1, if_pos (by omega)]
    · rw [if_neg h1, if_neg (by omega)]
omit [FloatOps F] in
theorem stDrain_succ (k : Fin k0_t1_loop.trips) : Function.update (stDrain k.val) k St.landed = stDrain (k.val + 1) := by
  funext t
  by_cases h : t = k
  · subst h; simp [stDrain]
  · have : t.val ≠ k.val := fun e => h (Fin.ext e)
    rw [Function.update_of_ne h]; unfold stDrain
    by_cases h1 : t.val < k.val
    · rw [if_pos h1, if_pos (by omega)]
    · rw [if_neg h1, if_neg (by omega)]

/-- The pool-index table as the region hands it to the body: at half the full share. -/
abbrev tbPt : sProp 𝕄 := tbM.view.loc (c : Thread nD τ) ↦{fullShare.right} ft

/-- The first loop's invariant. -/
def issueAt (k : ℕ) (_ : Unit) : sProp 𝕄 :=
  iprop(Ring.AtW (slot c i ft fs fh hok) (stIssue k) ∗ tbPt c ft)

/-- ONE TRIP of the first loop at a symbolic `k`: slot `k` is free; the trip reads its table word, which names a row
    of the table (`hok`), and starts the copy, which takes the semaphore, the row and the share's source elements;
    slot `k` is flying after it. -/
theorem issue_step [∀ e, Nonempty (Elt F e)]
    (arg2 : Memref sig .tc .vmem S64x1 .i32) (harg2 : arg2.IsWhole) (arg4 : Memref sig .tc .vmem S64x1024 .i32) (harg4 : arg4.IsWhole)
    (k : Fin k0_t1_loop.trips) (acc : Unit) :
    issueAt c i ft fs fh hok k acc
      ⊢ wp frame (wpE (defs₀ (F := F)) Variants.none c none) Set.univ
          (k0_t1_body i tbM (Memref.isWhole_whole _) arg2 harg2 hbM (Memref.isWhole_whole _) arg4 harg4 scM (Memref.isWhole_whole _) cc0_scratch1 k acc)
          (issueAt c i ft fs fh hok (k.val + 1)) := by
  unfold issueAt
  rw [Ring.AtW_focus (slot c i ft fs fh hok) (stIssue k.val) k]
  have hst : stIssue k.val k = St.free := by unfold stIssue; rw [if_neg (Nat.lt_irrefl _)]
  rw [hst]
  iintro ⟨⟨Hk, Hrest⟩, Htb⟩
  unfold slot
  icases Hk with ⟨Hc, Hrow, Htok⟩
  unfold k0_t1_body
  sl_exec (disch := exact hok k)
  sl_step
  isplitr [Htb]
  · rw [← stIssue_succ]
    iapply (Ring.AtW_update (slot c i ft fs fh hok) (stIssue k.val) k St.flying)
    isplitr [Hrest]
    · unfold slot
      isplitl [Hc]
      · iexact Hc
      · iexact Htok
    · iexact Hrest
  · iexact Htb

end Slots

section Drain

variable (c : Dev nD) (i : grid0.Coords) (ft : Bf (F := F) c tbM) (fs : Bf (F := F) c scM) (fh : Bf (F := F) c hbM)
  (hok : ∀ k, k0_chk1 (wd ft i k))

/-- The second loop's trips are the first's. -/
abbrev tripOf (k : Fin k0_t2_loop.trips) : Fin k0_t1_loop.trips := k.cast (trips2.trans trips1.symm)

/-- The second loop's invariant: the slots, and the core's record of its waits. -/
def drainAt (k : ℕ) (_ : Unit) : sProp 𝕄 :=
  iprop(Ring.AtW (slot c i ft fs fh hok) (stDrain k) ∗ ∃ W : Waits sig Unit, owes (c : Thread nD τ) 0 W)

/-- ONE TRIP of the second loop at a symbolic `k`: slot `k` is flying; the wait on its semaphore closes the transfer,
    which hands back the row written, the share's lent elements and the semaphore at zero; slot `k` is landed after it. -/
theorem drain_step [∀ e, Nonempty (Elt F e)]
    (arg2 : Memref sig .tc .vmem S64x1 .i32) (harg2 : arg2.IsWhole) (arg4 : Memref sig .tc .vmem S64x1024 .i32) (harg4 : arg4.IsWhole)
    (k : Fin k0_t2_loop.trips) (acc : Unit) :
    drainAt c i ft fs fh hok k acc
      ⊢ wp frame (wpE (defs₀ (F := F)) Variants.none c none) Set.univ
          (k0_t2_body i tbM (Memref.isWhole_whole _) arg2 harg2 hbM (Memref.isWhole_whole _) arg4 harg4 scM (Memref.isWhole_whole _) cc0_scratch1 k acc)
          (drainAt c i ft fs fh hok (k.val + 1)) := by
  unfold drainAt
  rw [Ring.AtW_focus (slot c i ft fs fh hok) (stDrain k.val) (tripOf k)]
  have hst : stDrain k.val (tripOf k) = St.flying := by unfold stDrain; rw [if_neg (by simp)]
  rw [hst]
  iintro ⟨⟨Hk, Hrest⟩, ⟨%W, HO⟩⟩
  unfold slot
  icases Hk with ⟨Hfl, Htok⟩
  unfold k0_t2_body
  sl_exec
  sl_step
  isplitr [HO]
  · rw [show stDrain (k.val + 1) = Function.update (stDrain k.val) (tripOf k) St.landed from (stDrain_succ (tripOf k)).symm]
    iapply (Ring.AtW_update (slot c i ft fs fh hok) (stDrain k.val) (tripOf k) St.landed)
    isplitr [Hrest]
    · unfold slot
      isplitl [Hfl]
      · iexact Hfl
      isplitl [Hfl_dst]
      · iexact Hfl_dst
      · iexact Htok
    · iexact Hrest
  · iexists _; iexact HO

end Drain

end Cert.KernelIdeal.Hand

end
-- ==== Proof.KI.Rows.lean ====
/-
  The scratch held row by row, and what a written row reads.
-/
import proofs.«412879_j28681791602762_2_alg».proof.Proof.Gen.KernelIdeal.Skeleton
import proofs.«412879_j28681791602762_2_alg».proof.Proof.Gen.KernelIdeal.Loops
import proofs.«412879_j28681791602762_2_alg».proof.Proof.Gen.KernelIdeal.Launch
import Idealize.ShloMosaic.Lib.Pipeline.Frame
import Idealize.ShloMosaic.Lib.Ring
import Idealize.ShloMosaic.Lib.Tactic
import proofs.«412879_j28681791602762_2_alg».proof.Proof.KI.Slots

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The scratch by rows

Row `k` of the [64, 1024] scratch is the elements whose first coordinate is `k`: the 64 rows are pairwise disjoint and
cover the scratch, so the scratch held whole is its rows held one by one, and back. A row written by its copy reads,
at column `p`, word `p` of the copy's source: position 0 of page `p` of the pool row its table word names. -/

section Rows

variable (c : Dev nD) (i : grid0.Coords) (ft : Bf (F := F) c tbM) (fs : Bf (F := F) c scM) (fh : Bf (F := F) c hbM)
  (hok : ∀ k, k0_chk1 (wd ft i k))

open Idealize.ShloMosaic.ValueIdx (ix1 ix2 ix3 eq_ix2)

/-- The elements of scratch row `k`, as elements of the scratch's buffer. -/
abbrev rowSet (k : Fin k0_t1_loop.trips) : Finset (Idx (scM.view.loc (c : Thread nD τ))) := (rowM k).view.set

/-- The first offset of row `k`'s rectangle is `k`: the 32-bit chain over the trip is the trip itself, on each of
    the 64 trips. -/
theorem off3_zero : ∀ t : Fin k0_t1_loop.trips, k0_off3 t 0 = t.val := by decide +kernel

omit [FloatOps F] in
/-- Row `k`'s elements are those of its unit rectangle: the squeeze keeps the element set, and a slice of the whole
    scratch has the rectangle's. -/
theorem rowM_set (k : Fin k0_t1_loop.trips) :
    (rowM k).view.set = (Rect.unit (s := S64x1024) (k0_off3 k) S1x1024.size (k0_off3_inb k)).set := by
  unfold rowM; rw [Memref.set_view_squeeze]; exact View.set_slice_whole _ _

omit [FloatOps F] in
/-- An element is in row `k` exactly when its first coordinate is `k`. -/
theorem mem_rowSet (k : Fin k0_t1_loop.trips) (y : S64x1024.Idx) : y ∈ rowSet c k ↔ (y 0).val = k.val := by
  unfold rowSet; rw [rowM_set, Rect.mem_set_unit]
  have h1 : (y 1).val < 1024 := (y 1).isLt
  have e0 : k0_off3 k 0 = k.val := off3_zero k
  constructor
  · intro H; have a0 : k0_off3 k 0 ≤ (y 0).val ∧ (y 0).val < k0_off3 k 0 + 1 := H 0; omega
  · intro H a; fin_cases a
    · show k0_off3 k 0 ≤ (y 0).val ∧ (y 0).val < k0_off3 k 0 + 1; omega
    · show 0 ≤ (y 1).val ∧ (y 1).val < 0 + 1024; omega

omit [FloatOps F] in
/-- Two rows share no element. -/
theorem rowSet_disjoint (k k' : Fin k0_t1_loop.trips) (h : k ≠ k') : Disjoint (rowSet c k) (rowSet c k') := by
  rw [Finset.disjoint_left]; intro y hy hy'
  rw [mem_rowSet] at hy hy'
  exact h (Fin.ext (hy.symm.trans hy'))

omit [FloatOps F] in
/-- Every element is in some row. -/
theorem rowSet_cover : Finset.univ.biUnion (rowSet c) = Finset.univ := by
  rw [Finset.eq_univ_iff_forall]; intro y
  rw [Finset.mem_biUnion]
  exact ⟨⟨(y 0).val, trips1 ▸ (y 0).isLt⟩, Finset.mem_univ _, (mem_rowSet c _ y).mpr rfl⟩

omit [FloatOps F] in
/-- Column `p` of a `[1024]` row, matched with the shape `[1, 1024]` by row-major position, is `(0, p)`. -/
theorem reshape_row (h : S1024.numel = S1x1024.numel) (p : Fin 1024) :
    Shape.reshapeEquiv h (ix1 p) = ix2 (⟨0, Nat.one_pos⟩ : Fin 1) p :=
  Shape.reshapeEquiv_eq_of_rowMajor h (by
    rw [Shape.rowMajor_val_two, Shape.rowMajor_val_one]
    show 0 * 1024 + p.val = p.val
    omega)

omit [FloatOps F] in
/-- Column `p` of a `[1024]` row, matched with the shape `[1, 1024, 1]`, is `(0, p, 0)`. -/
theorem reshape_src (h : S1024.numel = S1x1024x1.numel) (p : Fin 1024) :
    Shape.reshapeEquiv h (ix1 p) = ix3 (⟨0, Nat.one_pos⟩ : Fin 1) p (⟨0, Nat.one_pos⟩ : Fin 1) :=
  Shape.reshapeEquiv_eq_of_rowMajor h (by
    rw [Shape.rowMajor_val_three, Shape.rowMajor_val_one]
    show (0 * 1024 + p.val) * 1 + 0 = p.val
    omega)

omit [FloatOps F] in
/-- Column `p` of row `k` is the scratch's element `(k, p)`. -/
theorem rowM_emb (k : Fin k0_t1_loop.trips) (p : Fin 1024) :
    (rowM k).view.emb (ix1 p) = (ix2 (⟨k.val, trips1 ▸ k.isLt⟩ : Fin 64) p : S64x1024.Idx) := by
  show (Rect.unit (s := S64x1024) (k0_off3 k) S1x1024.size (k0_off3_inb k)).emb (Shape.reshapeEquiv _ (ix1 p)) = _
  rw [reshape_row]
  have e0 : k0_off3 k 0 = k.val := off3_zero k
  funext a; apply Fin.ext; rw [Rect.emb_apply]
  match a with
  | ⟨0, _⟩ => show k0_off3 k 0 + 1 * 0 = k.val; omega
  | ⟨1, _⟩ => show 0 + 1 * p.val = p.val; omega

omit [FloatOps F] in
/-- Column `p` of the source slice of the row a word `w` names is the table's element `(w, p, 0)`. -/
theorem srcM_emb (w : BitVec 32) (h : k0_chk1 w) (p : Fin 1024) :
    (srcM w h).view.emb (ix1 p) = (ix3 (Cert.Spec.rowOf w) p (0 : Fin 64) : S4096x1024x64.Idx) := by
  show (Rect.unit (s := S4096x1024x64) (k0_off4 w) S1x1024x1.size (k0_off4_inb w h)).emb (Shape.reshapeEquiv _ (ix1 p)) = _
  rw [reshape_src]
  have h0 : w.toNat + 1 ≤ 4096 := h 0
  have er : (Cert.Spec.rowOf w).val = w.toNat := Cert.Spec.rowOf_val w (by omega)
  funext a; apply Fin.ext; rw [Rect.emb_apply]
  match a with
  | ⟨0, _⟩ => show w.toNat + 1 * 0 = (Cert.Spec.rowOf w).val; omega
  | ⟨1, _⟩ => show 0 + 1 * p.val = p.val; omega
  | ⟨2, _⟩ => show 0 + 1 * 0 = 0; omega

/-- The source slice read at column `p`: the table at `(w, p, 0)`. -/
theorem srcM_read (w : BitVec 32) (h : k0_chk1 w) (p : Fin 1024) :
    (srcM w h).view.read (Elt F) fh (ix1 p) = hbM.view.read (Elt F) fh (ix3 (Cert.Spec.rowOf w) p (0 : Fin 64)) :=
  (View.read_apply (v := (srcM w h).view) (Val := Elt F) fh (ix1 p)).trans
    (congrArg (fun X : S4096x1024x64.Idx => (fh X : Elt F .i32)) (srcM_emb w h p))

omit [FloatOps F] in
/-- A view's buffer after ONE write through the whole of the view's shape, read back at the element under an index:
    the payload there (carried along the view's element-type equation). -/
theorem writes_whole_emb {sig : RefSig} {κ : Kind} {sp : Space} {s : Shape} {e : EltTy} {Val : EltTy → Type}
    (v : View sig κ sp s e) (f : v.ty.Contents Val) (w : (Rect.whole s).shape.Idx → Val e) (x : (Rect.whole s).shape.Idx) :
    _root_.cast (congrArg Val v.elt_eq) (v.writes Val f [⟨Rect.whole s, w⟩] (v.emb x)) = w x := by
  have h := View.read_writes_cons_emb v f (Rect.whole s) w [] x
  rw [Rect.emb_whole_apply] at h
  exact h

/-- The written row at column `p` of row `k`: the table at the row its word names, page `p`, position 0. -/
theorem landedRow_ix2 (k : Fin k0_t1_loop.trips) (p : Fin 1024) :
    landedRow c i ft fs fh hok k (ix2 (⟨k.val, trips1 ▸ k.isLt⟩ : Fin 64) p)
      = hbM.view.read (Elt F) fh (ix3 (Cert.Spec.rowOf (wd ft i k)) p (0 : Fin 64)) := by
  -- the element is the one under column `p` of the row's view
  have e1 : landedRow c i ft fs fh hok k (ix2 (⟨k.val, trips1 ▸ k.isLt⟩ : Fin 64) p)
      = landedRow c i ft fs fh hok k ((rowM k).view.emb (ix1 p)) :=
    congrArg (landedRow c i ft fs fh hok k) (rowM_emb k p).symm
  -- the row's elements are 32-bit words, as the payload's are
  have strip : ∀ A : Elt F (rowM k).view.ty.elt, _root_.cast (congrArg (Elt F) (rowM k).view.elt_eq) A = A := fun A => rfl
  -- so the written row reads its payload there: the source slice at column `p`
  have e2 : landedRow c i ft fs fh hok k ((rowM k).view.emb (ix1 p))
      = (srcM (wd ft i k) (hok k)).view.read (Elt F) fh (ix1 p) :=
    (strip _).symm.trans (writes_whole_emb (rowM k).view fs
      (ReadAs.same.apply ((srcM (wd ft i k) (hok k)).view.read (Elt F) fh)) (ix1 p))
  exact e1.trans (e2.trans (srcM_read c fh (wd ft i k) (hok k) p))

/-- A landed row read at one of its elements: the gathered word. -/
theorem landedRow_apply (k : Fin k0_t1_loop.trips) (y : S64x1024.Idx) (hy : (y 0).val = k.val) :
    landedRow c i ft fs fh hok k y = gathered i ft fh y := by
  obtain ⟨a, p, rfl⟩ : ∃ (a : Fin 64) (p : Fin 1024), y = ix2 a p := ⟨y 0, y 1, eq_ix2 y⟩
  have ha : a = ⟨k.val, trips1 ▸ k.isLt⟩ := Fin.ext hy
  subst ha
  exact landedRow_ix2 c i ft fs fh hok k p

end Rows

end Cert.KernelIdeal.Hand

end
-- ==== Proof.KI.Body.lean ====
/-
  The kernel's body at one grid point, on whole staging memrefs: from the point's 64 lengths in its input block, the
  pool-index table, the token table, the scratch and the 64 semaphores at zero, it ends with the output block at the
  body's arithmetic of the GATHERED scratch (row j the page-first words of the pool row the point's j-th table word
  names) and the lengths, everything else as it was.
-/
import proofs.«412879_j28681791602762_2_alg».proof.Proof.Gen.KernelIdeal.Skeleton
import proofs.«412879_j28681791602762_2_alg».proof.Proof.Gen.KernelIdeal.Loops
import proofs.«412879_j28681791602762_2_alg».proof.Proof.Gen.KernelIdeal.Launch
import Idealize.ShloMosaic.Lib.Pipeline.Frame
import Idealize.ShloMosaic.Lib.Ring
import Idealize.ShloMosaic.Lib.Tactic
import proofs.«412879_j28681791602762_2_alg».proof.Proof.KI.Rows
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

omit [FloatOps F] in
theorem stIssue_zero : stIssue 0 = fun _ => St.free := by
  funext t; unfold stIssue; rw [if_neg (Nat.not_lt_zero _)]
omit [FloatOps F] in
theorem stIssue_last : stIssue k0_t1_loop.trips = stDrain 0 := by
  funext t; unfold stIssue stDrain; rw [if_pos t.isLt, if_neg (Nat.not_lt_zero _)]
omit [FloatOps F] in
theorem stDrain_last : stDrain k0_t2_loop.trips = fun _ => St.landed := by
  funext t; unfold stDrain; rw [if_pos (by have := t.isLt; have h1 := trips1; have h2 := trips2; omega)]

section Split

variable (c : Dev nD) (i : grid0.Coords) (ft : Bf (F := F) c tbM) (fs : Bf (F := F) c scM) (fh : Bf (F := F) c hbM)
  (hok : ∀ k, k0_chk1 (wd ft i k))

/-- What is left of the token table's full share beside the 64 read shares. -/
abbrev dropPt : sProp 𝕄 := hbM.view.loc (c : Thread nD τ) ↦{Transfers.shareDrop fullShare k0_t1_loop.trips} fh

omit [FloatOps F] in
/-- The whole scratch's elements are all of its buffer's. -/
theorem scM_set : (scM.view.set : Finset _) = Finset.univ := by
  rw [Memref.view_whole]; exact View.set_whole _

/-- Every slot free: the semaphores at zero, the rows at the scratch's entry contents, the shares whole. -/
theorem AtW_free_eq : Ring.AtW (slot c i ft fs fh hok) (fun _ => St.free)
    = iprop(bigSep Finset.univ (fun k => semVal ((c : Thread nD τ), cellM k) 0)
        ∗ bigSep Finset.univ (fun k => rowPt c k fs) ∗ bigSep Finset.univ (fun k => tok c fh k Finset.univ)) := by
  unfold Ring.AtW
  simp only [slot]
  exact (BI.bigSep_sep Finset.univ (fun k => semVal ((c : Thread nD τ), cellM k) 0) (fun k => iprop(rowPt c k fs ∗ tok c fh k Finset.univ))).trans
    (congrArg (fun X => BI.sep (bigSep Finset.univ (fun k => semVal ((c : Thread nD τ), cellM k) 0)) X)
      (BI.bigSep_sep Finset.univ (fun k => rowPt c k fs) (fun k => tok c fh k Finset.univ)))

/-- Every slot landed: the semaphores at zero, the rows written, the shares whole. -/
theorem AtW_landed_eq : Ring.AtW (slot c i ft fs fh hok) (fun _ => St.landed)
    = iprop(bigSep Finset.univ (fun k => semVal ((c : Thread nD τ), cellM k) 0)
        ∗ bigSep Finset.univ (fun k => rowPt c k (landedRow c i ft fs fh hok k)) ∗ bigSep Finset.univ (fun k => tok c fh k Finset.univ)) := by
  unfold Ring.AtW
  simp only [slot]
  exact (BI.bigSep_sep Finset.univ (fun k => semVal ((c : Thread nD τ), cellM k) 0) (fun k => iprop(rowPt c k (landedRow c i ft fs fh hok k) ∗ tok c fh k Finset.univ))).trans
    (congrArg (fun X => BI.sep (bigSep Finset.univ (fun k => semVal ((c : Thread nD τ), cellM k) 0)) X)
      (BI.bigSep_sep Finset.univ (fun k => rowPt c k (landedRow c i ft fs fh hok k)) (fun k => tok c fh k Finset.univ)))

/-- The written rows join to the scratch held whole, at contents that agree with each written row on that row. -/
theorem rows_join :
    bigSep Finset.univ (fun k => rowPt c k (landedRow c i ft fs fh hok k))
      ⊢ (iprop(∃ g : Bf (F := F) c scM, ⌜∀ k : Fin k0_t1_loop.trips, ∀ y ∈ rowSet c k, g y = landedRow c i ft fs fh hok k y⌝
              ∗ (scM.view.loc (c : Thread nD τ) ↦{fullShare} g)) : sProp 𝕄) := by
  refine (pointsTo_biUnion_join (q := fullShare) Finset.univ (rowSet c) (fun k => (landedRow c i ft fs fh hok k : Bf (F := F) c scM)) fs
    (fun k _ k' _ h => rowSet_disjoint c k k' h)).trans ?_
  rw [rowSet_cover]
  iintro ⟨%g, %hg, H⟩
  iexists g
  isplitr
  · ipureintro; exact fun k y hy => hg k (Finset.mem_univ k) y hy
  · iexact H

theorem slots_split :
    iprop((scM.view.loc (c : Thread nD τ) ↦[scM.view.set]{fullShare} fs) ∗ (hbM.view.loc (c : Thread nD τ) ↦{fullShare} fh)
        ∗ Pipeline.ownSems0 (Ix := Unit) (Name := ℕ) (U := Pipeline.UD sig nD τ) (Lvl := ℕ) (Val := Elt F) (τ := τ) osem0 c)
      ⊢ iprop(Ring.AtW (slot c i ft fs fh hok) (fun _ => St.free) ∗ dropPt c fh) := by
  unfold Pipeline.ownSems0 osem0
  rw [scM_set, AtW_free_eq, Ring.pointsTo_blocks (rowSet c) (rowSet_disjoint c) (rowSet_cover c) fs]
  iintro ⟨Hrows, Hh, Hcells⟩
  ihave Ht := (Transfers.pointsTo_toks_split (Ix := Unit) (Name := ℕ) (U := Pipeline.UD sig nD τ) (Lvl := ℕ) fullShare k0_t1_loop.trips) $$ Hh
  icases Ht with ⟨Hdrop, Htoks⟩
  isplitr [Hdrop]
  · isplitl [Hcells]; · iexact Hcells
    isplitl [Hrows]; · iexact Hrows
    iexact Htoks
  · iexact Hdrop

theorem slots_join :
    iprop(Ring.AtW (slot c i ft fs fh hok) (fun _ => St.landed) ∗ dropPt c fh)
      ⊢ iprop((∃ g : Bf (F := F) c scM, ⌜∀ k : Fin k0_t1_loop.trips, ∀ y ∈ rowSet c k, g y = landedRow c i ft fs fh hok k y⌝
              ∗ (scM.view.loc (c : Thread nD τ) ↦[scM.view.set]{fullShare} g))
          ∗ (hbM.view.loc (c : Thread nD τ) ↦{fullShare} fh)
          ∗ Pipeline.ownSems0 (Ix := Unit) (Name := ℕ) (U := Pipeline.UD sig nD τ) (Lvl := ℕ) (Val := Elt F) (τ := τ) osem0 c) := by
  unfold Pipeline.ownSems0 osem0
  rw [scM_set, AtW_landed_eq]
  iintro ⟨⟨Hcells, Hrows, Htoks⟩, Hdrop⟩
  isplitl [Hrows]
  · iapply (rows_join c i ft fs fh hok); iexact Hrows
  isplitl [Hdrop Htoks]
  · iapply (Transfers.pointsTo_toks_join (Ix := Unit) (Name := ℕ) (U := Pipeline.UD sig nD τ) (Lvl := ℕ) fullShare k0_t1_loop.trips)
    isplitl [Hdrop]; · iexact Hdrop
    iexact Htoks
  · iexact Hcells

end Split
set_option maxHeartbeats 4000000 in
/-- The body's run. `hok`: every table word the point reads names a row of the table. -/
theorem kernelRun [∀ e, Nonempty (Elt F e)] (c : Dev nD) (i : grid0.Coords)
    (arg2 : Memref sig .tc .vmem S64x1 .i32) (harg2 : arg2.IsWhole) (arg4 : Memref sig .tc .vmem S64x1024 .i32) (harg4 : arg4.IsWhole)
    (x0 : Vec F S64x1 .i32) (ft : Bf (F := F) c tbM) (fh : Bf (F := F) c hbM) (hok : ∀ k, k0_chk1 (wd ft i k))
    (W : Waits sig Unit) (K : PUnit → sProp 𝕄) :
    iprop(owns (c : Thread nD τ) arg2 fullShare x0 ∗ (∃ d, owns (c : Thread nD τ) arg4 fullShare d) ∗ (∃ d, owns (c : Thread nD τ) scM fullShare d)
        ∗ Pipeline.ownSems0 (Ix := Unit) (Name := ℕ) (U := Pipeline.UD sig nD τ) (Lvl := ℕ) (Val := Elt F) (τ := τ) osem0 c
        ∗ (hbM.view.loc (c : Thread nD τ) ↦{fullShare} fh) ∗ (tbM.view.loc (c : Thread nD τ) ↦{fullShare.right} ft) ∗ owes (c : Thread nD τ) 0 W
        ∗ (iprop(owns (c : Thread nD τ) arg2 fullShare x0 ∗ owns (c : Thread nD τ) arg4 fullShare (k0_pay1 (gathered i ft fh) x0)
              ∗ (∃ d, owns (c : Thread nD τ) scM fullShare d)
              ∗ Pipeline.ownSems0 (Ix := Unit) (Name := ℕ) (U := Pipeline.UD sig nD τ) (Lvl := ℕ) (Val := Elt F) (τ := τ) osem0 c
              ∗ (hbM.view.loc (c : Thread nD τ) ↦{fullShare} fh) ∗ (tbM.view.loc (c : Thread nD τ) ↦{fullShare.right} ft)
              ∗ (∃ W', owes (c : Thread nD τ) 0 W')) -∗ K ⟨⟩))
      ⊢ wp frame (wpE (defs₀ (F := F)) Variants.none c none) Set.univ
          (cc0__kernel i tbM (Memref.isWhole_whole _) arg2 harg2 hbM (Memref.isWhole_whole _) arg4 harg4 scM (Memref.isWhole_whole _) cc0_scratch1) K := by
  unfold owns
  iintro ⟨⟨%f2, %hf2, H2⟩, ⟨%d4, %f4, -, H4⟩, ⟨%ds, %fs, -, HS⟩, Hcells, Hh, Htb, HW, Hk⟩
  obtain rfl := harg2.eq_unread hf2
  ihave Hsl := (slots_split c i ft fs fh hok) $$ [HS Hh Hcells]
  · isplitl [HS]; · iexact HS
    isplitl [Hh]; · iexact Hh
    iexact Hcells
  icases Hsl with ⟨Hslots, Hdrop⟩
  simp only [cc0__kernel_eq_skeleton]; unfold cc0__kernel_skel
  sl_for (issueAt c i ft fs fh hok) $$ [Hslots Htb]
  · intro k acc; exact issue_step c i ft fs fh hok arg2 harg2 arg4 harg4 k acc
  · unfold issueAt; rw [stIssue_zero]
    isplitl [Hslots]; · iexact Hslots
    iexact Htb
  iintro %acc HL
  unfold issueAt
  rw [stIssue_last]
  icases HL with ⟨Hslots, Htb⟩
  sl_for (drainAt c i ft fs fh hok) $$ [Hslots HW]
  · intro k acc; exact drain_step c i ft fs fh hok arg2 harg2 arg4 harg4 k acc
  · unfold drainAt
    isplitl [Hslots]; · iexact Hslots
    iexists _; iexact HW
  iintro %acc2 HL2
  unfold drainAt
  rw [stDrain_last]
  icases HL2 with ⟨Hslots, ⟨%W', HW⟩⟩
  ihave Hj := (slots_join c i ft fs fh hok) $$ [Hslots Hdrop]
  · isplitl [Hslots]; · iexact Hslots
    iexact Hdrop
  icases Hj with ⟨⟨%g, %hg, HS⟩, Hh, Hcells⟩
  sl_exec
  sl_step
  iapply Hk
  isplitl [H2]
  · iexists _; isplitr
    · ipureintro; exact hf2
    · iexact H2
  isplitl [H4]
  · iexists _; isplitr; swap
    · iexact H4
    ipureintro
    have hz : (![0, 0] : Fin S64x1024.rank → Nat) = fun _ => 0 := by funext a; fin_cases a <;> rfl
    have hz1 : (![0, 0] : Fin S64x1.rank → Nat) = fun _ => 0 := by funext a; fin_cases a <;> rfl
    rw [View.read_writes_eq_canon _ _ _ (View.cover_of_tiledL _ S64x1024.size (by sl_kernel_rfl)), View.canon_unit_zero hz]
    rw [View.readAt_eq_ld, View.readAt_eq_ld, View.ld_unit_zero (S := S64x1024) hz, View.ld_unit_zero (S := S64x1) hz1, hf2]
    congr 1
    funext y
    show g y = gathered i ft fh y
    have hy : (y 0).val < k0_t1_loop.trips := by have := (y 0).isLt; rw [trips1]; exact this
    rw [hg ⟨(y 0).val, hy⟩ y ((mem_rowSet c ⟨(y 0).val, hy⟩ y).2 rfl)]
    exact landedRow_apply c i ft fs fh hok ⟨(y 0).val, hy⟩ y rfl
  isplitl [HS]
  · iexists _, g; isplitr
    · ipureintro; rfl
    · iexact HS
  isplitl [Hcells]; · iexact Hcells
  isplitl [Hh]; · iexact Hh
  isplitl [Htb]; · iexact Htb
  iexists _; iexact HW

end Cert.KernelIdeal.Hand

end
-- ==== Proof.KI.Frame.lean ====
/-
  The launch of the kernel's one region over the body's run, and the frame.

  At each grid point the pipeline calls the body with the windows' current staging buffers. The invariant between
  points (the scratch at some contents, the generator register at some state, the body's 64 semaphores at zero, the
  token table whole at its entry contents, the pool-index table at half share at its entry contents) is opened into
  exactly what the body's run takes; the input buffer holds the point's 64 lengths; and under the precondition every
  table word the point reads names a row of the token table, the one hypothesis the run asks. The run gives all of it
  back unchanged, with the output buffer at the body's arithmetic of the gathered rows and the lengths: the proof
  data's statement. The library's launch for a pipeline with a prefetched table and a body that copies from an
  unscoped array by its own transfers then runs @main to the end; its post leaves every unscoped buffer that is no
  window's array — the three arguments among them — as the region found it, and the region found the arguments as
  launched.
-/
import proofs.«412879_j28681791602762_2_alg».proof.Proof.KI.Hok
import proofs.«412879_j28681791602762_2_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The invariant, conjunct by conjunct -/

/-- The body's 64 semaphores at zero, the scratch at some contents, the generator register at some state and the
    token table whole at its entry contents: the invariant's first part as the body's run takes it. -/
theorem PhiD0_eq (c : Dev nD) :
    (Pipeline.ΦD osem0 spec0 H0 (V m) c : sProp 𝕄)
      = iprop((∃ d, owns (c : Thread nD τ) scM fullShare d) ∗ (∃ r, prngReg c r)
          ∗ Pipeline.ownSems0 (Ix := Unit) (Name := ℕ) (U := Pipeline.UD sig nD τ) (Lvl := ℕ) (Val := Elt F) (τ := τ) osem0 c
          ∗ (hbM.view.loc (c : Thread nD τ) ↦{fullShare} V m c main_v1)) := by
  rw [Pipeline.ΦD_eq, scopedRest0_eq, show H0 = {main_v1} from rfl, BI.bigSep_singleton]
  simp only [scM, owns_whole]; try rfl

/-- The pool-index table at half share at its entry contents: the invariant's second part. -/
theorem PhiT0_eq (c : Dev nD) :
    (Pipeline.ΦT pre0 (adm m 0).1 c : sProp 𝕄) = iprop(tbM.view.loc (c : Thread nD τ) ↦{fullShare.right} V m c main_arg1) := by
  obtain rfl : c = 0 := Subsingleton.elim _ _
  unfold Pipeline.ΦT Pipeline.prefHeld
  rw [show (Finset.univ : Finset (Fin pre0.K)) = {0} from by decide, BI.bigSep_singleton]
  rfl

/-! ## The body obligation, at a generic point -/

/-- The kernel body at point `t`, on what the pipeline calls it with: the point's coordinates, the pool-index table
    whole, the windows' current staging memrefs, the token table whole, the scratch and the 64 semaphores. -/
abbrev bodyAt0 (t : Fin (cfgM m).N) : Prog (TpuEff nD τ sig (Elt F) Λ₀ .tc) PUnit :=
  cc0__kernel (grid0.coords t) tbM (Memref.isWhole_whole _) (ms0_0 m t) (hs0_0 m t) hbM (Memref.isWhole_whole _)
    (ms0_1 m t) (hs0_1 m t) scM (Memref.isWhole_whole _) cc0_scratch1

/-- What the body is called with at point `t`: the invariant, what the core owes, and the two windows' current staging
    buffers at what they then hold; -/
def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d)))

/-- and what it returns: the invariant again, what the core then owes, and the two buffers at what the proof data say
    the body leaves. -/
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t))

/-- The body at any point. The input's staging buffer holds the point's 64 lengths; the invariant hands the body its
    scratch, its 64 semaphores at zero, the token table whole and the pool-index table at half share, both at their
    entry contents; under the precondition every table word the point reads names a row, which is what the body's
    run asks. The run gives everything back as it was, the output's buffer at the body's arithmetic of the gathered
    rows and the lengths — what the proof data state —, and the core owing nothing, its recorded waits within the
    next point's bound (everything). The generator register passes by untouched. -/
theorem sound_body (hpre : ∀ c : Dev nD, Cert.Pre_any_inputs.fn (F := F) (m ((c : Thread nD τ).loc main_arg0)) (m ((c : Thread nD τ).loc main_arg1)) (m ((c : Thread nD τ).loc main_arg2)) = fun _ => 1#1) (c : Dev nD) (t : Fin (cfgM m).N) :
    bodyPre m c t ⊢ wp frame (wpE (defs₀ (F := F)) Variants.none c none) Set.univ (bodyAt0 m t) (fun _ => bodyPost m c t) := by
  unfold bodyPre bodyPost
  simp only [before0_0]
  rw [show (dats m 0 c).Φ t.succ = (dats m 0 c).Φ t.castSucc from rfl, after0_0, after0_1]
  rw [show (dats m 0 c).Φ t.castSucc = iprop(Pipeline.ΦD osem0 spec0 H0 (V m) c ∗ Pipeline.ΦT pre0 (adm m 0).1 c) from rfl,
    PhiD0_eq, PhiT0_eq]
  unfold Dat.owesAt Pipeline.owesWithin
  rw [show (dats m 0 c).owed t.castSucc = 0 from rfl, show (dats m 0 c).owed t.succ = 0 from rfl]
  iintro ⟨⟨⟨HS, Hg, Hq, Hh⟩, Ht⟩, ⟨%W, -, HW⟩, ⟨%d0, H0⟩, ⟨%d1, H1⟩⟩
  iapply (kernelRun c (grid0.coords t) (ms0_0 m t) (hs0_0 m t) (ms0_1 m t) (hs0_1 m t) (iblk m c 0 t)
    (V m c main_arg1) (V m c main_v1) (fun k => hok_of_pre m hpre c t k) W _)
  isplitl [H0]; · iexact H0
  isplitl [H1]; · iexists _; iexact H1
  isplitl [HS]; · iexact HS
  isplitl [Hq]; · iexact Hq
  isplitl [Hh]; · iexact Hh
  isplitl [Ht]; · iexact Ht
  isplitl [HW]; · iexact HW
  iintro ⟨H0, H1, HS, Hq, Hh, Ht, ⟨%W', HW'⟩⟩
  isplitl [HS Hg Hq Hh Ht]
  · isplitr [Ht]
    · isplitl [HS]; · iexact HS
      isplitl [Hg]; · iexact Hg
      isplitl [Hq]; · iexact Hq
      iexact Hh
    · iexact Ht
  isplitl [HW']
  · iexists W'; isplitr; · ipureintro; exact fun _ _ => Or.inl trivial
    iexact HW'
  isplitl [H0]; · iexact H0
  iexact H1

/-- The library's body obligation, at every point. -/
theorem body_obligation (hpre : ∀ c : Dev nD, Cert.Pre_any_inputs.fn (F := F) (m ((c : Thread nD τ).loc main_arg0)) (m ((c : Thread nD τ).loc main_arg1)) (m ((c : Thread nD τ).loc main_arg2)) = fun _ => 1#1) (c : Dev nD) :
    BodyObligation (dats (F := F) m 0 c) (defs₀ (F := F)) Variants.none () Set.univ := fun t => by
  rw [bigSep_W0, bigSep_W0]
  exact sound_body m hpre c t

/-! ## The run and the frame -/

set_option backward.isDefEq.respectTransparency.types false in
/-- At the compiled mesh, from any memory with zero counters of which the precondition holds: every weakly fair
    execution of @main on the TensorCores terminates, and every final state has the pipeline's two arrays at what the
    library computes from the proof data and every other unscoped buffer — the prefetched table among them — as the
    region found it. -/
theorem run_main (hpre : ∀ c : Dev nD, Cert.Pre_any_inputs.fn (F := F) (m ((c : Thread nD τ).loc main_arg0)) (m ((c : Thread nD τ).loc main_arg1)) (m ((c : Thread nD τ).loc main_arg2)) = fun _ => 1#1) :
    θ_run defs (onTc (τ := τ) (main (F := F))) (s₀ m ρ) (Pipeline.FramePost (Pipeline.pin (pcfgs (F := F)) (adm m)) (dats m) 0 (V m)) :=
  Pipeline.θ_run_frameP_dma pcfgs (adm m) (dats m) (0 : Fin 1) launch0 osem0 defs₀ Variants.none ownSemFacts0 H0 H0_sub m ρ main
    (hbody := fun c => (body_obligation m hpre c).loose) (hshare := fun c => (dats m 0 c).share_full fun _ => rfl)
    (howed := fun _ _ => rfl) (V := V m) (hmain := hmain m Variants.none) (hA := A_eq m) (hpf := hpf m)
    (hin := fun _ => .rfl) (hout := fun c => by
      rw [show (dats m 0 c).Φ (Fin.last (Pipeline.pin (pcfgs (F := F)) (adm m) 0).N)
        = iprop(Pipeline.ΦD osem0 spec0 H0 (V m) c ∗ Pipeline.ΦT pre0 (adm m 0).1 c) from rfl]
      iintro ⟨H, -⟩; iexact H)

/-- THE FRAME: under the precondition @main runs to the end and the three argument arrays end as launched. None is an
    array of the pipeline's windows (those are the reshaped lengths and the result), so each is among the buffers
    the run leaves as the region found them — the pool-index table too, which the region holds and hands back
    unchanged —, and the region found each as launched: no reshape writes an argument. -/
theorem frame (hpre : ∀ c : Dev nD, Cert.Pre_any_inputs.fn (F := F) (m ((c : Thread nD τ).loc main_arg0)) (m ((c : Thread nD τ).loc main_arg1)) (m ((c : Thread nD τ).loc main_arg2)) = fun _ => 1#1) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩)
    (run_main m ρ hpre)

end Cert.KernelIdeal.Hand

end
-- ==== Proof.KI.Value.lean ====
/-
  The value of the kernel's run: the result array is the specification's function of the three arguments.

  The run leaves the output window's array at the entry contents overwritten, point by point, by what the body left in
  the output block. At point `t` the body leaves its arithmetic of the gathered scratch and the point's 64 lengths. Read
  at row `j`, column `p` of the block: the scratch holds the token table, in its [4096, 1024, 64] layout, at (the row
  that word `64 t + j` of the pool-index table names, page `p`, position 0), which is the launched [4096, 65536] table
  at that row and column `64 p`; the lengths block at row `j` holds the launched length of request `64 t + j`; and the
  arithmetic — the word shifted right by 6 where `p` is below the request's page count, zero elsewhere — is the
  specification's at request `64 t + j`, page `p`. The output's block at point `t` is rows [64 t, 64 t + 64) of the
  result, all 1024 columns, so what point `t` writes back is block `t` of the specification's result, and the 16
  blocks cover the array. The index facts over the 16 points are decided once.
-/
import proofs.«412879_j28681791602762_2_alg».proof.Proof.KI.Frame
import proofs.«412879_j28681791602762_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

open Idealize.ShloMosaic.ValueIdx

/-! ## The body's arithmetic and its reads, at an index -/

/-- The body's arithmetic at row `j`, column `p` of the block. -/
theorem pay_apply (v3 : Vec F S64x1024 .i32) (v7 : Vec F S64x1 .i32) (j : Fin 64) (p : Fin 1024) :
    k0_pay1 v3 v7 (ix2 j p)
      = Scalar.select (IntOp.cmpi .slt (BitVec.ofNat 32 p.val) (Cert.Spec.pages (v7 (ix2 j (0 : Fin 1)))))
          (IntOp.shrsi .vector (v3 (ix2 j p)) 6#32) 0#32 := by
  unfold k0_pay1
  show Scalar.select (IntOp.cmpi .slt (iota .tc S64x1024 32 [1] iota_S64x1024_d1_w32 (ix2 j p))
      (broadcastTo S64x1024 (shrsi (addi (shapeCast S64x1 v7 shapeCasts_S64x1_S64x1) (broadcast S64x1 63#32)) (broadcast S64x1 6#32))
        broadcasts_S64x1_S64x1024 (ix2 j p)))
      (IntOp.shrsi .vector (v3 (ix2 j p)) 6#32) 0#32 = _
  rw [iota_single_apply, broadcastTo_apply _ _ (ix2 j p) (ix2 j (0 : Fin 1)) (fun a => by match a with | ⟨0, _⟩ => rfl | ⟨1, _⟩ => rfl),
    shapeCast_self]
  rfl

/-- The gathered scratch at row `j`, column `p`. -/
theorem gathered_apply {c : Dev nD} (i : grid0.Coords) (ft : Bf (F := F) c tbM) (fh : Bf (F := F) c hbM) (j : Fin 64) (p : Fin 1024) :
    gathered i ft fh (ix2 j p)
      = (fh : IVec S4096x1024x64 32) (ix3 (Cert.Spec.rowOf (wd ft i ⟨j.val, by rw [trips1]; exact j.isLt⟩)) p (0 : Fin 64)) := rfl

/-- The token table in its [4096, 1024, 64] layout at (row, page, 0) is the launched table at (row, 64 · page). -/
theorem tok_apply (c : Dev nD) (r : Fin 4096) (p : Fin 1024) :
    (V m c main_v1 : IVec S4096x1024x64 32) (ix3 r p (0 : Fin 64))
      = (m ((c : Thread nD τ).loc main_arg0) : IVec S4096x65536 32) (ix2 r (Cert.Spec.colOf p)) := by
  rw [V_main_v1]
  refine shapeCast_apply _ _ _ _ ?_
  show (S4096x65536.rowMajor (ix2 r (Cert.Spec.colOf p))).val = (S4096x1024x64.rowMajor (ix3 r p (0 : Fin 64))).val
  rw [Shape.rowMajor_val_two (d := ![4096, 65536]), Shape.rowMajor_val_three (d := ![4096, 1024, 64])]
  show (r.val * 65536 + 64 * p.val) = (r.val * 1024 + p.val) * 64 + 0
  omega

/-- The table word trip `k` reads at grid point `i` is word `64 · i + k` of the table. -/
theorem wd_apply {c : Dev nD} (ft : Bf (F := F) c tbM) (i : grid0.Coords) (k : Fin k0_t1_loop.trips) (b : Fin 1024)
    (hb : b.val = 64 * (i 0).val + k.val) : wd ft i k = (ft : IVec S1024 32) (ix1 b) := by
  show (ft : IVec S1024 32) ((Rect.unit (s := S1024) (k0_off1 i k) S1.size (k0_off1_inb i k)).toLoadRect.idx i0) = _
  congr 1
  funext a
  apply Fin.ext
  match a with
  | ⟨0, _⟩ =>
    show k0_off1 i k 0 + 1 * (i0 (0 : Fin 1)).val = b.val
    have h0 : (i0 (0 : Fin 1)).val < 1 := (i0 (0 : Fin 1)).isLt
    rw [k0_off1_eq, hb]
    show 64 * (i 0).val + k.val + 1 * (i0 (0 : Fin 1)).val = _
    omega

/-- Over the 16 grid points: the point's one coordinate is its number, and both windows' block indices at point `t` are
    (`t`, 0): the input's block is rows [64 t, 64 t + 64) of the [1024, 1] column, the output's rows [64 t, 64 t + 64) of
    the [1024, 1024] result, all columns. -/
theorem grid_facts : ∀ t : Fin grid0.N, (grid0.coords t 0).val = t.val
    ∧ cc0_transform_0 (grid0.coords t) 0 = t.val ∧ cc0_transform_0 (grid0.coords t) 1 = 0
    ∧ cc0_transform_2 (grid0.coords t) 0 = t.val ∧ cc0_transform_2 (grid0.coords t) 1 = 0 := by decide +kernel

/-- The input block at point `t`, row `y 0`: the length of request `64 t + y 0`. -/
theorem len_apply (c : Dev nD) (t : Fin (cfgM m).N) (y : (((cfgM m).win 0).xblock ((cfgM m).grid.coords t)).Idx) (b : Fin 1024)
    (hb : b.val = 64 * t.val + (y (0 : Fin 2)).val) :
    iblk m c 0 t y = (m ((c : Thread nD τ).loc main_arg2) : IVec S1024 32) (ix1 b) := by
  obtain ⟨-, e0, e1, -, -⟩ := grid_facts t
  have h1 : (y (1 : Fin 2)).val < 1 := (y (1 : Fin 2)).isLt
  have ez : ((((cfgM m).win 0).blk t).view.emb y : S1024x1.Idx) = ix2 b (0 : Fin 1) := by
    funext a; apply Fin.ext
    match a with
    | ⟨0, _⟩ => show cc0_transform_0 (grid0.coords t) 0 * 64 + 1 * (y (0 : Fin 2)).val = b.val; rw [e0, hb]; omega
    | ⟨1, _⟩ => show cc0_transform_0 (grid0.coords t) 1 * 1 + 1 * (y (1 : Fin 2)).val = 0; rw [e1]; omega
  unfold iblk
  show (V m c main_v0 : IVec S1024x1 32) ((((cfgM m).win 0).blk t).view.emb y) = _
  rw [ez, V_main_v0]
  refine shapeCast_apply _ _ _ _ ?_
  show (S1024.rowMajor (ix1 b)).val = (S1024x1.rowMajor (ix2 b (0 : Fin 1))).val
  rw [Shape.rowMajor_val_one (d := ![1024]), Shape.rowMajor_val_two (d := ![1024, 1])]
  show b.val = b.val * 1 + 0
  omega

/-! ## What each point writes back -/

/-- The specification's result of the three arguments as launched. -/
abbrev Gm (c : Dev nD) : IVec S1024x1024 32 :=
  Cert.Spec.G (m ((c : Thread nD τ).loc main_arg0)) (m ((c : Thread nD τ).loc main_arg1)) (m ((c : Thread nD τ).loc main_arg2))

/-- The body's arithmetic of a scratch block and a lengths block is the specification's result at request `b`, page
    `p`, once the scratch at (j, p) is the token table at the row request `b` names and column `64 p`, and the lengths
    block at row `j` is request `b`'s length. -/
theorem block_of (tok : IVec S4096x65536 32) (idx len : IVec S1024 32) (v3 : Vec F S64x1024 .i32) (v7 : Vec F S64x1 .i32)
    (j : Fin 64) (p b : Fin 1024)
    (h3 : v3 (ix2 j p) = tok (ix2 (Cert.Spec.rowOf (idx (ix1 b))) (Cert.Spec.colOf p)))
    (h7 : v7 (ix2 j (0 : Fin 1)) = len (ix1 b)) :
    k0_pay1 v3 v7 (ix2 j p) = Cert.Spec.G tok idx len (ix2 b p) := by
  rw [pay_apply, h3, h7]; rfl

/-- What the body leaves in the output block at point `t`, at row `j` and column `p`, is the specification's result at
    request `64 t + j`, page `p`: the gathered scratch at (j, p) is the launched token table at the row that word
    `64 t + j` of the pool-index table names and at column `64 p`, and the input block at row `j` is that request's
    length. -/
theorem block_apply (c : Dev nD) (t : Fin (cfgM m).N) (j : Fin 64) (p : Fin 1024) (b : Fin 1024) (hb : b.val = 64 * t.val + j.val) :
    k0_pay1 (gathered (grid0.coords t) (V m c main_arg1) (V m c main_v1)) (iblk m c 0 t) (ix2 j p) = Gm m c (ix2 b p) := by
  obtain ⟨eg, -⟩ := grid_facts t
  have h3 : gathered (grid0.coords t) (V m c main_arg1) (V m c main_v1) (ix2 j p)
      = (m ((c : Thread nD τ).loc main_arg0) : IVec S4096x65536 32)
          (ix2 (Cert.Spec.rowOf ((m ((c : Thread nD τ).loc main_arg1) : IVec S1024 32) (ix1 b))) (Cert.Spec.colOf p)) := by
    rw [gathered_apply, tok_apply, wd_apply (V m c main_arg1) (grid0.coords t) _ b (by rw [eg]; exact hb), V_main_arg1]
  exact block_of _ _ _ _ (iblk m c 0 t) j p b h3 (len_apply m c t (ix2 j (0 : Fin 1)) b hb)

/-- The output window is written back at every point: its block index moves with the point. -/
theorem flush1 : ∀ t : Fin (cfgM m).N, ((cfgM m).win 1).flush t = true :=
  (by decide +kernel : ∀ t : Fin grid0.N, Pipeline.Window.flushOf grid0 true cc0_transform_2 t = true)

/-- WHAT POINT `t` WRITES BACK is block `t` of the specification's result: rows [64 t, 64 t + 64), all columns. -/
theorem flushed_eq (c : Dev nD) (t : Fin (cfgM m).N) :
    (dats m 0 c).flushed 1 t = (((cfgM m).win 1).blk t).view.read (Elt F) (Gm m c) := by
  show ((cfgM m).win 1).cut (grid0.coords t) ((dats m 0 c).after 1 t) = _
  rw [after0_1]
  obtain ⟨-, -, -, e0, e1⟩ := grid_facts t
  have ht : t.val < 16 := lt_of_lt_of_eq t.isLt N_0
  funext y
  have hj : (y (0 : Fin 2)).val < 64 := (y (0 : Fin 2)).isLt
  have hp : (y (1 : Fin 2)).val < 1024 := (y (1 : Fin 2)).isLt
  have ey : (((cfgM m).win 1).xinj (grid0.coords t) y : S64x1024.Idx)
      = ix2 (⟨(y (0 : Fin 2)).val, hj⟩ : Fin 64) (⟨(y (1 : Fin 2)).val, hp⟩ : Fin 1024) := by
    funext a; match a with | ⟨0, _⟩ => rfl | ⟨1, _⟩ => rfl
  have ez : ((((cfgM m).win 1).blk t).view.emb y : S1024x1024.Idx)
      = ix2 (⟨64 * t.val + (y (0 : Fin 2)).val, by omega⟩ : Fin 1024) (⟨(y (1 : Fin 2)).val, hp⟩ : Fin 1024) := by
    funext a; apply Fin.ext
    match a with
    | ⟨0, _⟩ =>
      show cc0_transform_2 (grid0.coords t) 0 * 64 + 1 * (y (0 : Fin 2)).val = 64 * t.val + (y (0 : Fin 2)).val
      rw [e0]; omega
    | ⟨1, _⟩ =>
      show cc0_transform_2 (grid0.coords t) 1 * 1024 + 1 * (y (1 : Fin 2)).val = (y (1 : Fin 2)).val
      rw [e1]; omega
  exact (congrArg (k0_pay1 (gathered (grid0.coords t) (V m c main_arg1) (V m c main_v1)) (iblk m c 0 t)) ey).trans
    ((block_apply m c t _ _ _ rfl).trans (congrArg (Gm m c) ez.symm))

/-- Every index of the result is in some point's block: row `r` is in point `r / 64`'s. -/
theorem cover (i : S1024x1024.Idx) :
    ∃ t : Fin (cfgM m).N, ((cfgM m).win 1).flush t = true ∧ i ∈ (((cfgM m).win 1).blk t).view.set := by
  have hi0 : (i 0).val < 1024 := (i 0).isLt
  have hi1 : (i 1).val < 1024 := (i 1).isLt
  have ht : (i 0).val / 64 < (cfgM m).N := lt_of_lt_of_eq (by omega : (i 0).val / 64 < 16) (N_0).symm
  refine ⟨⟨(i 0).val / 64, ht⟩, flush1 m _, ?_⟩
  obtain ⟨-, -, -, e0, e1⟩ := grid_facts ⟨(i 0).val / 64, ht⟩
  have hset : (((cfgM m).win 1).blk ⟨(i 0).val / 64, ht⟩).view.set = (((cfgM m).win 1).rect ⟨(i 0).val / 64, ht⟩).set :=
    View.set_slice_whole main_v2 _
  rw [hset]
  refine Rect.mem_set_unit.mpr fun a => ?_
  match a with
  | ⟨0, _⟩ =>
    show cc0_transform_2 (grid0.coords ⟨(i 0).val / 64, ht⟩) 0 * 64 ≤ (i 0).val
      ∧ (i 0).val < cc0_transform_2 (grid0.coords ⟨(i 0).val / 64, ht⟩) 0 * 64 + 64
    rw [e0]; show (i 0).val / 64 * 64 ≤ (i 0).val ∧ (i 0).val < (i 0).val / 64 * 64 + 64; omega
  | ⟨1, _⟩ =>
    show cc0_transform_2 (grid0.coords ⟨(i 0).val / 64, ht⟩) 1 * 1024 ≤ (i 1).val
      ∧ (i 1).val < cc0_transform_2 (grid0.coords ⟨(i 0).val / 64, ht⟩) 1 * 1024 + 1024
    rw [e1]; omega

/-- THE RESULT ARRAY after the run is the specification's result of the three arguments as launched: every point
    writes its block of it, and the blocks cover the array. -/
theorem final (c : Dev nD) : (dats m 0 c).arrAt 1 (cfgM m).N = Gm m c :=
  (dats m 0 c).arrAt_eq_of_cover 1 (Gm m c) (fun t _ => flushed_eq m c t) (cover m)

/-! ## The run, read -/

/-- THE VALUE: under the precondition @main runs to the end, the result array ends at the specification's function of
    the three arguments as launched, and the arguments end as launched. -/
theorem value (hpre : ∀ c : Dev nD, Cert.Pre_any_inputs.fn (F := F) (m ((c : Thread nD τ).loc main_arg0)) (m ((c : Thread nD τ).loc main_arg1)) (m ((c : Thread nD τ).loc main_arg2)) = fun _ => 1#1) :
    θ_run (defs (F := F)) (onTc (τ := τ) (main (F := F))) ⟨m, fun _ => 0, ρ⟩ (fun r => ∀ c : Dev nD,
      r.2.mem ((c.tc : Thread nD τ).loc main_v2)
        = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 1).trans (final m c),
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c)⟩)
    (run_main m ρ hpre)

end Cert.KernelIdeal.Hand

end
-- ==== Proof.RefRun.lean ====
/-
  The reference program's run and value.

  The program is a straight line of 77 host operations once its three calls are unfolded. `refTerm` is its result as one
  term of the three argument arrays, built from named stages: the page count of every request, the row and column start
  indices, their concatenation into index pairs, the gathered table words, the mask of live pages, and the select of the
  floor-divided words against zero. `run`: every weakly fair execution of the program terminates with the result buffer at
  `refTerm` of the arguments and the arguments unchanged. `refTerm_apply`: when every pool index is below 4096 the term
  at request `b`, page `p` is the specification's value there — each stage read at the index, the 32-bit facts of
  Words.lean joining the reference's spelling to the specification's.
-/
import proofs.«412879_j28681791602762_2_alg».proof.Proof.Gen.ReferenceIdeal
import proofs.«412879_j28681791602762_2_alg».proof.Proof.Spec
import proofs.«412879_j28681791602762_2_alg».proof.Proof.Words
import Idealize.ShloMosaic.Lib.StableHlo.Run
import Idealize.ShloMosaic.Lib.ValueIdx
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem Idealize.ShloMosaic.ValueIdx
open Idealize.ShloMosaic.StableHlo

variable {F : FTy → Type} [FloatOps F]

/-! ## The result as one term of the arguments -/

/-- Floor division of every element of `x` by the scalar `d`, as the program spells it: the truncating quotient,
    lowered by one where the signs of dividend and divisor differ and the remainder is not zero. -/
def floorDivS {s : Shape} (hb : S_.BroadcastsInDim s ![]) (x : IVec s 32) (d : IVec S_ 32) : IVec s 32 :=
  let d' : IVec S_ 32 := id d
  let q : IVec s 32 := Host.divsi x (broadcastInDim s ![] hb d')
  let differ : IVec s 1 := cmpi .ne (signi x) (broadcastInDim s ![] hb (signi d'))
  let r : IVec s 32 := Host.remsi x (broadcastInDim s ![] hb d')
  let inexact : IVec s 1 := cmpi .ne r (broadcastInDim s ![] hb (constantI S_ 32 0#32))
  select (andi differ inexact) (subi q (broadcastInDim s ![] hb (constantI S_ 32 1#32))) q

/-- The page count of every request: `floor_divide ((len + 64) - 1) 64`. -/
def numPages (len : IVec S1024 32) : IVec S1024 32 :=
  floorDivS bcast_S_S1024
    (subi (addi len (broadcastInDim S1024 ![] bcast_S_S1024 (constantI S_ 32 64#32)))
      (broadcastInDim S1024 ![] bcast_S_S1024 (constantI S_ 32 1#32)))
    (constantI S_ 32 64#32)

/-- The row start index of every request, as a column: the pool index, 4096 added where it is negative. -/
def rowIdx (idx : IVec S1024 32) : IVec S1024x1 32 :=
  let r : IVec S1024x1 32 := broadcastInDim S1024x1 ![0] bcast_S1024_S1024x1_0 idx
  select (cmpi .slt r (broadcastInDim S1024x1 ![] bcast_S_S1024x1 (constantI S_ 32 0#32)))
    (addi r (broadcastInDim S1024x1 ![] bcast_S_S1024x1 (constantI S_ 32 4096#32))) r

/-- The column start index of every page, as a row: `64 * p`, 65536 added where it is negative. -/
def colIdx : IVec S1x1024 32 :=
  let c : IVec S1x1024 32 := broadcastInDim S1x1024 ![1] bcast_S1024_S1x1024_1
    (muli (iotaInDim S1024 32 0) (broadcastInDim S1024 ![] bcast_S_S1024 (constantI S_ 32 64#32)))
  select (cmpi .slt c (broadcastInDim S1x1024 ![] bcast_S_S1x1024 (constantI S_ 32 0#32)))
    (addi c (broadcastInDim S1x1024 ![] bcast_S_S1x1024 (constantI S_ 32 65536#32))) c

/-- The start indices of the gather: at `(b, p, ·)` the pair (row start of `b`, column start of `p`). -/
def startIdx (idx : IVec S1024 32) : IVec S1024x1024x2 32 :=
  concatenate S1024x1024x2 2
    [⟨S1024x1024x1, broadcastInDim S1024x1024x1 ![0, 1] bcast_S1024x1024_S1024x1024x1_0_1
        (broadcastInDim S1024x1024 ![0, 1] bcast_S1024x1_S1024x1024_0_1 (rowIdx idx))⟩,
     ⟨S1024x1024x1, broadcastInDim S1024x1024x1 ![0, 1] bcast_S1024x1024_S1024x1024x1_0_1
        (broadcastInDim S1024x1024 ![0, 1] bcast_S1x1024_S1024x1024_0_1 colIdx)⟩]
    concatenates_S1024x1024x1_S1024x1024x1_S1024x1024x2_d2

/-- The gathered table words: at `(b, p)` the table at the clamped start indices of `(b, p)`. -/
def gathered (tok : IVec S4096x65536 32) (idx : IVec S1024 32) : IVec S1024x1024 32 :=
  Host.gather gather_S4096x65536_S1024x1024x2_S1024x1024_n_01_n_n_01_2_11 tok (startIdx idx)

/-- Which pages are live: at `(b, p)`, whether `p` is below the page count of `b` as signed words. -/
def live (len : IVec S1024 32) : IVec S1024x1024 1 :=
  cmpi .slt
    (broadcastInDim S1024x1024 ![0, 1] bcast_S1x1024_S1024x1024_0_1
      (broadcastInDim S1x1024 ![1] bcast_S1024_S1x1024_1 (iotaInDim S1024 32 0)))
    (broadcastInDim S1024x1024 ![0, 1] bcast_S1024x1_S1024x1024_0_1
      (broadcastInDim S1024x1 ![0] bcast_S1024_S1024x1_0 (numPages len)))

/-- The program's result as one term of its three arguments: the gathered words floor-divided by 64 where the page is
    live, zero elsewhere. -/
def refTerm {F : FTy → Type} [FloatOps F] (tok : IVec S4096x65536 32) (idx len : IVec S1024 32) : IVec S1024x1024 32 :=
  select (live len) (floorDivS bcast_S_S1024x1024 (gathered tok idx) (constantI S_ 32 64#32))
    (broadcastInDim S1024x1024 ![] bcast_S_S1024x1024 (id (constantI S_ 32 0#32)))

/-! ## The program as a straight line of operations -/

/-- The program's 77 operations in order, the three calls unfolded over their buffer records. -/
abbrev ops : List (HloOp τ sig (Elt F)) :=
  [ nullary main_c (constantI S_ 32 64#32),
    unary main_c main_v0 (broadcastInDim S1024 ![] bcast_S_S1024 : (⟨S_, .i32⟩ : BufTy).Contents (Elt F) → (⟨S1024, .i32⟩ : BufTy).Contents (Elt F)),
    binary main_arg2 main_v0 main_v1 (addi : (⟨S1024, .i32⟩ : BufTy).Contents (Elt F) → (⟨S1024, .i32⟩ : BufTy).Contents (Elt F) → (⟨S1024, .i32⟩ : BufTy).Contents (Elt F)),
    nullary main_c_0 (constantI S_ 32 1#32),
    unary main_c_0 main_v2 (broadcastInDim S1024 ![] bcast_S_S1024 : (⟨S_, .i32⟩ : BufTy).Contents (Elt F) → (⟨S1024, .i32⟩ : BufTy).Contents (Elt F)),
    binary main_v1 main_v2 main_v3 (subi : (⟨S1024, .i32⟩ : BufTy).Contents (Elt F) → (⟨S1024, .i32⟩ : BufTy).Contents (Elt F) → (⟨S1024, .i32⟩ : BufTy).Contents (Elt F)),
    nullary main_c_1 (constantI S_ 32 64#32),
    TRef.unary (.of main_c_1) main_call0.v0 id,
    TRef.unary main_call0.v0 main_call0.v1 (broadcastInDim S1024 ![] bcast_S_S1024),
    TRef.binary (.of main_v3) main_call0.v1 main_call0.v2 Host.divsi,
    TRef.unary (.of main_v3) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_v3) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select,
    nullary main_v5 (iotaInDim S1024 32 0),
    nullary main_c_2 (constantI S_ 32 64#32),
    unary main_c_2 main_v6 (broadcastInDim S1024 ![] bcast_S_S1024 : (⟨S_, .i32⟩ : BufTy).Contents (Elt F) → (⟨S1024, .i32⟩ : BufTy).Contents (Elt F)),
    binary main_v5 main_v6 main_v7 (muli : (⟨S1024, .i32⟩ : BufTy).Contents (Elt F) → (⟨S1024, .i32⟩ : BufTy).Contents (Elt F) → (⟨S1024, .i32⟩ : BufTy).Contents (Elt F)),
    unary main_arg1 main_v8 (broadcastInDim S1024x1 ![0] bcast_S1024_S1024x1_0 : (⟨S1024, .i32⟩ : BufTy).Contents (Elt F) → (⟨S1024x1, .i32⟩ : BufTy).Contents (Elt F)),
    unary main_v7 main_v9 (broadcastInDim S1x1024 ![1] bcast_S1024_S1x1024_1 : (⟨S1024, .i32⟩ : BufTy).Contents (Elt F) → (⟨S1x1024, .i32⟩ : BufTy).Contents (Elt F)),
    nullary main_c_3 (constantI S_ 32 0#32),
    unary main_c_3 main_v10 (broadcastInDim S1024x1 ![] bcast_S_S1024x1 : (⟨S_, .i32⟩ : BufTy).Contents (Elt F) → (⟨S1024x1, .i32⟩ : BufTy).Contents (Elt F)),
    binary main_v8 main_v10 main_v11 (cmpi .slt : (⟨S1024x1, .i32⟩ : BufTy).Contents (Elt F) → (⟨S1024x1, .i32⟩ : BufTy).Contents (Elt F) → (⟨S1024x1, .i1⟩ : BufTy).Contents (Elt F)),
    nullary main_c_4 (constantI S_ 32 4096#32),
    unary main_c_4 main_v12 (broadcastInDim S1024x1 ![] bcast_S_S1024x1 : (⟨S_, .i32⟩ : BufTy).Contents (Elt F) → (⟨S1024x1, .i32⟩ : BufTy).Contents (Elt F)),
    binary main_v8 main_v12 main_v13 (addi : (⟨S1024x1, .i32⟩ : BufTy).Contents (Elt F) → (⟨S1024x1, .i32⟩ : BufTy).Contents (Elt F) → (⟨S1024x1, .i32⟩ : BufTy).Contents (Elt F)),
    ternary main_v11 main_v13 main_v8 main_v14 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    nullary main_c_5 (constantI S_ 32 0#32),
    unary main_c_5 main_v15 (broadcastInDim S1x1024 ![] bcast_S_S1x1024 : (⟨S_, .i32⟩ : BufTy).Contents (Elt F) → (⟨S1x1024, .i32⟩ : BufTy).Contents (Elt F)),
    binary main_v9 main_v15 main_v16 (cmpi .slt : (⟨S1x1024, .i32⟩ : BufTy).Contents (Elt F) → (⟨S1x1024, .i32⟩ : BufTy).Contents (Elt F) → (⟨S1x1024, .i1⟩ : BufTy).Contents (Elt F)),
    nullary main_c_6 (constantI S_ 32 65536#32),
    unary main_c_6 main_v17 (broadcastInDim S1x1024 ![] bcast_S_S1x1024 : (⟨S_, .i32⟩ : BufTy).Contents (Elt F) → (⟨S1x1024, .i32⟩ : BufTy).Contents (Elt F)),
    binary main_v9 main_v17 main_v18 (addi : (⟨S1x1024, .i32⟩ : BufTy).Contents (Elt F) → (⟨S1x1024, .i32⟩ : BufTy).Contents (Elt F) → (⟨S1x1024, .i32⟩ : BufTy).Contents (Elt F)),
    ternary main_v16 main_v18 main_v9 main_v19 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    unary main_v14 main_v20 (broadcastInDim S1024x1024 ![0, 1] bcast_S1024x1_S1024x1024_0_1 : (⟨S1024x1, .i32⟩ : BufTy).Contents (Elt F) → (⟨S1024x1024, .i32⟩ : BufTy).Contents (Elt F)),
    unary main_v19 main_v21 (broadcastInDim S1024x1024 ![0, 1] bcast_S1x1024_S1024x1024_0_1 : (⟨S1x1024, .i32⟩ : BufTy).Contents (Elt F) → (⟨S1024x1024, .i32⟩ : BufTy).Contents (Elt F)),
    unary main_v20 main_v22 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v21 main_v23 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_v22 main_v23 main_v24 ((fun a b => concatenate S1024x1024x2 2 [⟨S1024x1024x1, a⟩, ⟨S1024x1024x1, b⟩] concatenates_S1024x1024x1_S1024x1024x1_S1024x1024x2_d2) : (⟨S1024x1024x1, .i32⟩ : BufTy).Contents (Elt F) → (⟨S1024x1024x1, .i32⟩ : BufTy).Contents (Elt F) → (⟨S1024x1024x2, .i32⟩ : BufTy).Contents (Elt F)),
    binary main_arg0 main_v24 main_v25 ((fun x i => Host.gather gather_S4096x65536_S1024x1024x2_S1024x1024_n_01_n_n_01_2_11 x i) : (⟨S4096x65536, .i32⟩ : BufTy).Contents (Elt F) → (⟨S1024x1024x2, .i32⟩ : BufTy).Contents (Elt F) → (⟨S1024x1024, .i32⟩ : BufTy).Contents (Elt F)),
    nullary main_c_7 (constantI S_ 32 64#32),
    TRef.unary (.of main_c_7) main_call1.v0 id,
    TRef.unary main_call1.v0 main_call1.v1 (broadcastInDim S1024x1024 ![] bcast_S_S1024x1024),
    TRef.binary (.of main_v25) main_call1.v1 main_call1.v2 Host.divsi,
    TRef.unary (.of main_v25) main_call1.v3 signi,
    TRef.unary main_call1.v0 main_call1.v4 signi,
    TRef.unary main_call1.v4 main_call1.v5 (broadcastInDim S1024x1024 ![] bcast_S_S1024x1024),
    TRef.binary main_call1.v3 main_call1.v5 main_call1.v6 (cmpi .ne),
    TRef.unary main_call1.v0 main_call1.v7 (broadcastInDim S1024x1024 ![] bcast_S_S1024x1024),
    TRef.binary (.of main_v25) main_call1.v7 main_call1.v8 Host.remsi,
    TRef.nullary main_call1.c (constantI S_ 32 0#32),
    TRef.unary main_call1.c main_call1.v9 (broadcastInDim S1024x1024 ![] bcast_S_S1024x1024),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S1024x1024 ![] bcast_S_S1024x1024),
    TRef.binary main_call1.v2 main_call1.v12 main_call1.v13 subi,
    TRef.ternary main_call1.v11 main_call1.v13 main_call1.v2 main_call1.call0.v0 select,
    unary main_v5 main_v27 (broadcastInDim S1x1024 ![1] bcast_S1024_S1x1024_1 : (⟨S1024, .i32⟩ : BufTy).Contents (Elt F) → (⟨S1x1024, .i32⟩ : BufTy).Contents (Elt F)),
    unary main_v4 main_v28 (broadcastInDim S1024x1 ![0] bcast_S1024_S1024x1_0 : (⟨S1024, .i32⟩ : BufTy).Contents (Elt F) → (⟨S1024x1, .i32⟩ : BufTy).Contents (Elt F)),
    unary main_v27 main_v29 (broadcastInDim S1024x1024 ![0, 1] bcast_S1x1024_S1024x1024_0_1 : (⟨S1x1024, .i32⟩ : BufTy).Contents (Elt F) → (⟨S1024x1024, .i32⟩ : BufTy).Contents (Elt F)),
    unary main_v28 main_v30 (broadcastInDim S1024x1024 ![0, 1] bcast_S1024x1_S1024x1024_0_1 : (⟨S1024x1, .i32⟩ : BufTy).Contents (Elt F) → (⟨S1024x1024, .i32⟩ : BufTy).Contents (Elt F)),
    binary main_v29 main_v30 main_v31 (cmpi .slt : (⟨S1024x1024, .i32⟩ : BufTy).Contents (Elt F) → (⟨S1024x1024, .i32⟩ : BufTy).Contents (Elt F) → (⟨S1024x1024, .i1⟩ : BufTy).Contents (Elt F)),
    nullary main_c_8 (constantI S_ 32 0#32),
    TRef.unary (.of main_c_8) main_call2.v0 id,
    TRef.unary main_call2.v0 main_call2.v1 (broadcastInDim S1024x1024 ![] bcast_S_S1024x1024),
    TRef.ternary (.of main_v31) (.of main_v26) main_call2.v1 main_call2.v2 select ]

/-- The program is that straight line: the calls unfold to their operations in place. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., nullary_bufs_sub .., unary_bufs_sub .., unary_bufs_sub .., ternary_bufs_sub ..⟩

/-! ## The line in three stretches

The page counts (the first 24 operations), the gathered words (the next 27), and the division, mask and select (the
last 26). Each stretch is read back on its own: what it leaves at its results as a term of what it found at its
operands, and that it leaves the arguments alone. -/

/-- The first stretch: `(len + 64) - 1` floor-divided by 64. -/
abbrev opsA : List (HloOp τ sig (Elt F)) :=
  [ nullary main_c (constantI S_ 32 64#32),
    unary main_c main_v0 (broadcastInDim S1024 ![] bcast_S_S1024 : (⟨S_, .i32⟩ : BufTy).Contents (Elt F) → (⟨S1024, .i32⟩ : BufTy).Contents (Elt F)),
    binary main_arg2 main_v0 main_v1 (addi : (⟨S1024, .i32⟩ : BufTy).Contents (Elt F) → (⟨S1024, .i32⟩ : BufTy).Contents (Elt F) → (⟨S1024, .i32⟩ : BufTy).Contents (Elt F)),
    nullary main_c_0 (constantI S_ 32 1#32),
    unary main_c_0 main_v2 (broadcastInDim S1024 ![] bcast_S_S1024 : (⟨S_, .i32⟩ : BufTy).Contents (Elt F) → (⟨S1024, .i32⟩ : BufTy).Contents (Elt F)),
    binary main_v1 main_v2 main_v3 (subi : (⟨S1024, .i32⟩ : BufTy).Contents (Elt F) → (⟨S1024, .i32⟩ : BufTy).Contents (Elt F) → (⟨S1024, .i32⟩ : BufTy).Contents (Elt F)),
    nullary main_c_1 (constantI S_ 32 64#32),
    TRef.unary (.of main_c_1) main_call0.v0 id,
    TRef.unary main_call0.v0 main_call0.v1 (broadcastInDim S1024 ![] bcast_S_S1024),
    TRef.binary (.of main_v3) main_call0.v1 main_call0.v2 Host.divsi,
    TRef.unary (.of main_v3) main_call0.v3 signi,
    TRef.unary main_call0.v0 main_call0.v4 signi,
    TRef.unary main_call0.v4 main_call0.v5 (broadcastInDim S1024 ![] bcast_S_S1024),
    TRef.binary main_call0.v3 main_call0.v5 main_call0.v6 (cmpi .ne),
    TRef.unary main_call0.v0 main_call0.v7 (broadcastInDim S1024 ![] bcast_S_S1024),
    TRef.binary (.of main_v3) main_call0.v7 main_call0.v8 Host.remsi,
    TRef.nullary main_call0.c (constantI S_ 32 0#32),
    TRef.unary main_call0.c main_call0.v9 (broadcastInDim S1024 ![] bcast_S_S1024),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S1024 ![] bcast_S_S1024),
    TRef.binary main_call0.v2 main_call0.v12 main_call0.v13 subi,
    TRef.ternary main_call0.v11 main_call0.v13 main_call0.v2 main_call0.call0.v0 select ]

/-- The second stretch: the iota, the two start-index planes, their concatenation, the gather, the divisor. -/
abbrev opsB : List (HloOp τ sig (Elt F)) :=
  [ nullary main_v5 (iotaInDim S1024 32 0),
    nullary main_c_2 (constantI S_ 32 64#32),
    unary main_c_2 main_v6 (broadcastInDim S1024 ![] bcast_S_S1024 : (⟨S_, .i32⟩ : BufTy).Contents (Elt F) → (⟨S1024, .i32⟩ : BufTy).Contents (Elt F)),
    binary main_v5 main_v6 main_v7 (muli : (⟨S1024, .i32⟩ : BufTy).Contents (Elt F) → (⟨S1024, .i32⟩ : BufTy).Contents (Elt F) → (⟨S1024, .i32⟩ : BufTy).Contents (Elt F)),
    unary main_arg1 main_v8 (broadcastInDim S1024x1 ![0] bcast_S1024_S1024x1_0 : (⟨S1024, .i32⟩ : BufTy).Contents (Elt F) → (⟨S1024x1, .i32⟩ : BufTy).Contents (Elt F)),
    unary main_v7 main_v9 (broadcastInDim S1x1024 ![1] bcast_S1024_S1x1024_1 : (⟨S1024, .i32⟩ : BufTy).Contents (Elt F) → (⟨S1x1024, .i32⟩ : BufTy).Contents (Elt F)),
    nullary main_c_3 (constantI S_ 32 0#32),
    unary main_c_3 main_v10 (broadcastInDim S1024x1 ![] bcast_S_S1024x1 : (⟨S_, .i32⟩ : BufTy).Contents (Elt F) → (⟨S1024x1, .i32⟩ : BufTy).Contents (Elt F)),
    binary main_v8 main_v10 main_v11 (cmpi .slt : (⟨S1024x1, .i32⟩ : BufTy).Contents (Elt F) → (⟨S1024x1, .i32⟩ : BufTy).Contents (Elt F) → (⟨S1024x1, .i1⟩ : BufTy).Contents (Elt F)),
    nullary main_c_4 (constantI S_ 32 4096#32),
    unary main_c_4 main_v12 (broadcastInDim S1024x1 ![] bcast_S_S1024x1 : (⟨S_, .i32⟩ : BufTy).Contents (Elt F) → (⟨S1024x1, .i32⟩ : BufTy).Contents (Elt F)),
    binary main_v8 main_v12 main_v13 (addi : (⟨S1024x1, .i32⟩ : BufTy).Contents (Elt F) → (⟨S1024x1, .i32⟩ : BufTy).Contents (Elt F) → (⟨S1024x1, .i32⟩ : BufTy).Contents (Elt F)),
    ternary main_v11 main_v13 main_v8 main_v14 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    nullary main_c_5 (constantI S_ 32 0#32),
    unary main_c_5 main_v15 (broadcastInDim S1x1024 ![] bcast_S_S1x1024 : (⟨S_, .i32⟩ : BufTy).Contents (Elt F) → (⟨S1x1024, .i32⟩ : BufTy).Contents (Elt F)),
    binary main_v9 main_v15 main_v16 (cmpi .slt : (⟨S1x1024, .i32⟩ : BufTy).Contents (Elt F) → (⟨S1x1024, .i32⟩ : BufTy).Contents (Elt F) → (⟨S1x1024, .i1⟩ : BufTy).Contents (Elt F)),
    nullary main_c_6 (constantI S_ 32 65536#32),
    unary main_c_6 main_v17 (broadcastInDim S1x1024 ![] bcast_S_S1x1024 : (⟨S_, .i32⟩ : BufTy).Contents (Elt F) → (⟨S1x1024, .i32⟩ : BufTy).Contents (Elt F)),
    binary main_v9 main_v17 main_v18 (addi : (⟨S1x1024, .i32⟩ : BufTy).Contents (Elt F) → (⟨S1x1024, .i32⟩ : BufTy).Contents (Elt F) → (⟨S1x1024, .i32⟩ : BufTy).Contents (Elt F)),
    ternary main_v16 main_v18 main_v9 main_v19 (select : (⟨S1x1024, .i1⟩ : BufTy).Contents (Elt F) → (⟨S1x1024, .i32⟩ : BufTy).Contents (Elt F) → (⟨S1x1024, .i32⟩ : BufTy).Contents (Elt F) → (⟨S1x1024, .i32⟩ : BufTy).Contents (Elt F)),
    unary main_v14 main_v20 (broadcastInDim S1024x1024 ![0, 1] bcast_S1024x1_S1024x1024_0_1 : (⟨S1024x1, .i32⟩ : BufTy).Contents (Elt F) → (⟨S1024x1024, .i32⟩ : BufTy).Contents (Elt F)),
    unary main_v19 main_v21 (broadcastInDim S1024x1024 ![0, 1] bcast_S1x1024_S1024x1024_0_1 : (⟨S1x1024, .i32⟩ : BufTy).Contents (Elt F) → (⟨S1024x1024, .i32⟩ : BufTy).Contents (Elt F)),
    unary main_v20 main_v22 (broadcastInDim S1024x1024x1 ![0, 1] bcast_S1024x1024_S1024x1024x1_0_1 : (⟨S1024x1024, .i32⟩ : BufTy).Contents (Elt F) → (⟨S1024x1024x1, .i32⟩ : BufTy).Contents (Elt F)),
    unary main_v21 main_v23 (broadcastInDim S1024x1024x1 ![0, 1] bcast_S1024x1024_S1024x1024x1_0_1 : (⟨S1024x1024, .i32⟩ : BufTy).Contents (Elt F) → (⟨S1024x1024x1, .i32⟩ : BufTy).Contents (Elt F)),
    binary main_v22 main_v23 main_v24 ((fun a b => concatenate S1024x1024x2 2 [⟨S1024x1024x1, a⟩, ⟨S1024x1024x1, b⟩] concatenates_S1024x1024x1_S1024x1024x1_S1024x1024x2_d2) : (⟨S1024x1024x1, .i32⟩ : BufTy).Contents (Elt F) → (⟨S1024x1024x1, .i32⟩ : BufTy).Contents (Elt F) → (⟨S1024x1024x2, .i32⟩ : BufTy).Contents (Elt F)),
    binary main_arg0 main_v24 main_v25 ((fun x i => Host.gather gather_S4096x65536_S1024x1024x2_S1024x1024_n_01_n_n_01_2_11 x i) : (⟨S4096x65536, .i32⟩ : BufTy).Contents (Elt F) → (⟨S1024x1024x2, .i32⟩ : BufTy).Contents (Elt F) → (⟨S1024x1024, .i32⟩ : BufTy).Contents (Elt F)),
    nullary main_c_7 (constantI S_ 32 64#32) ]

/-- The third stretch: the gathered words floor-divided by 64, the mask of live pages, the select against zero. -/
abbrev opsC : List (HloOp τ sig (Elt F)) :=
  [ TRef.unary (.of main_c_7) main_call1.v0 id,
    TRef.unary main_call1.v0 main_call1.v1 (broadcastInDim S1024x1024 ![] bcast_S_S1024x1024),
    TRef.binary (.of main_v25) main_call1.v1 main_call1.v2 Host.divsi,
    TRef.unary (.of main_v25) main_call1.v3 signi,
    TRef.unary main_call1.v0 main_call1.v4 signi,
    TRef.unary main_call1.v4 main_call1.v5 (broadcastInDim S1024x1024 ![] bcast_S_S1024x1024),
    TRef.binary main_call1.v3 main_call1.v5 main_call1.v6 (cmpi .ne),
    TRef.unary main_call1.v0 main_call1.v7 (broadcastInDim S1024x1024 ![] bcast_S_S1024x1024),
    TRef.binary (.of main_v25) main_call1.v7 main_call1.v8 Host.remsi,
    TRef.nullary main_call1.c (constantI S_ 32 0#32),
    TRef.unary main_call1.c main_call1.v9 (broadcastInDim S1024x1024 ![] bcast_S_S1024x1024),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S1024x1024 ![] bcast_S_S1024x1024),
    TRef.binary main_call1.v2 main_call1.v12 main_call1.v13 subi,
    TRef.ternary main_call1.v11 main_call1.v13 main_call1.v2 main_call1.call0.v0 select,
    unary main_v5 main_v27 (broadcastInDim S1x1024 ![1] bcast_S1024_S1x1024_1 : (⟨S1024, .i32⟩ : BufTy).Contents (Elt F) → (⟨S1x1024, .i32⟩ : BufTy).Contents (Elt F)),
    unary main_v4 main_v28 (broadcastInDim S1024x1 ![0] bcast_S1024_S1024x1_0 : (⟨S1024, .i32⟩ : BufTy).Contents (Elt F) → (⟨S1024x1, .i32⟩ : BufTy).Contents (Elt F)),
    unary main_v27 main_v29 (broadcastInDim S1024x1024 ![0, 1] bcast_S1x1024_S1024x1024_0_1 : (⟨S1x1024, .i32⟩ : BufTy).Contents (Elt F) → (⟨S1024x1024, .i32⟩ : BufTy).Contents (Elt F)),
    unary main_v28 main_v30 (broadcastInDim S1024x1024 ![0, 1] bcast_S1024x1_S1024x1024_0_1 : (⟨S1024x1, .i32⟩ : BufTy).Contents (Elt F) → (⟨S1024x1024, .i32⟩ : BufTy).Contents (Elt F)),
    binary main_v29 main_v30 main_v31 (cmpi .slt : (⟨S1024x1024, .i32⟩ : BufTy).Contents (Elt F) → (⟨S1024x1024, .i32⟩ : BufTy).Contents (Elt F) → (⟨S1024x1024, .i1⟩ : BufTy).Contents (Elt F)),
    nullary main_c_8 (constantI S_ 32 0#32),
    TRef.unary (.of main_c_8) main_call2.v0 id,
    TRef.unary main_call2.v0 main_call2.v1 (broadcastInDim S1024x1024 ![] bcast_S_S1024x1024),
    TRef.ternary (.of main_v31) (.of main_v26) main_call2.v1 main_call2.v2 select ]

theorem ops_eq : (ops : List (HloOp τ sig (Elt F))) = opsA ++ (opsB ++ opsC) := rfl

/-- Two lines run one after the other leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

attribute [local irreducible] Host.gather concatenate broadcastInDim in
set_option maxRecDepth 16384 in
set_option maxHeartbeats 1000000 in
theorem afterA_v4 (V : Valuation τ sig (Elt F)) :
    after opsA V (main_v4 : DevRef τ sig) = numPages (V (main_arg2 : DevRef τ sig)) := by
  simp only [after_cons, after_nil]
  rfl
attribute [local irreducible] Host.gather concatenate broadcastInDim in
set_option maxRecDepth 16384 in
set_option maxHeartbeats 1000000 in
theorem afterA_arg0 (V : Valuation τ sig (Elt F)) : after opsA V (main_arg0 : DevRef τ sig) = V (main_arg0 : DevRef τ sig) := by
  simp only [after_cons, after_nil]
  rfl
attribute [local irreducible] Host.gather concatenate broadcastInDim in
set_option maxRecDepth 16384 in
set_option maxHeartbeats 1000000 in
theorem afterA_arg1 (V : Valuation τ sig (Elt F)) : after opsA V (main_arg1 : DevRef τ sig) = V (main_arg1 : DevRef τ sig) := by
  simp only [after_cons, after_nil]
  rfl
attribute [local irreducible] Host.gather concatenate broadcastInDim in
set_option maxRecDepth 16384 in
set_option maxHeartbeats 1000000 in
theorem afterA_arg2 (V : Valuation τ sig (Elt F)) : after opsA V (main_arg2 : DevRef τ sig) = V (main_arg2 : DevRef τ sig) := by
  simp only [after_cons, after_nil]
  rfl

attribute [local irreducible] Host.gather concatenate broadcastInDim in
set_option maxRecDepth 16384 in
set_option maxHeartbeats 1000000 in
theorem afterB_v25 (V : Valuation τ sig (Elt F)) :
    after opsB V (main_v25 : DevRef τ sig) = gathered (V (main_arg0 : DevRef τ sig)) (V (main_arg1 : DevRef τ sig)) := by
  simp only [after_cons, after_nil]
  rfl
attribute [local irreducible] Host.gather concatenate broadcastInDim in
set_option maxRecDepth 16384 in
set_option maxHeartbeats 1000000 in
theorem afterB_v5 (V : Valuation τ sig (Elt F)) :
    after opsB V (main_v5 : DevRef τ sig) = iotaInDim S1024 32 0 := by
  simp only [after_cons, after_nil]
  rfl
attribute [local irreducible] Host.gather concatenate broadcastInDim in
set_option maxRecDepth 16384 in
set_option maxHeartbeats 1000000 in
theorem afterB_c7 (V : Valuation τ sig (Elt F)) :
    after opsB V (main_c_7 : DevRef τ sig) = constantI S_ 32 64#32 := by
  simp only [after_cons, after_nil]
  rfl
attribute [local irreducible] Host.gather concatenate broadcastInDim in
set_option maxRecDepth 16384 in
set_option maxHeartbeats 1000000 in
theorem afterB_v4 (V : Valuation τ sig (Elt F)) : after opsB V (main_v4 : DevRef τ sig) = V (main_v4 : DevRef τ sig) := by
  simp only [after_cons, after_nil]
  rfl
attribute [local irreducible] Host.gather concatenate broadcastInDim in
set_option maxRecDepth 16384 in
set_option maxHeartbeats 1000000 in
theorem afterB_arg0 (V : Valuation τ sig (Elt F)) : after opsB V (main_arg0 : DevRef τ sig) = V (main_arg0 : DevRef τ sig) := by
  simp only [after_cons, after_nil]
  rfl
attribute [local irreducible] Host.gather concatenate broadcastInDim in
set_option maxRecDepth 16384 in
set_option maxHeartbeats 1000000 in
theorem afterB_arg1 (V : Valuation τ sig (Elt F)) : after opsB V (main_arg1 : DevRef τ sig) = V (main_arg1 : DevRef τ sig) := by
  simp only [after_cons, after_nil]
  rfl
attribute [local irreducible] Host.gather concatenate broadcastInDim in
set_option maxRecDepth 16384 in
set_option maxHeartbeats 1000000 in
theorem afterB_arg2 (V : Valuation τ sig (Elt F)) : after opsB V (main_arg2 : DevRef τ sig) = V (main_arg2 : DevRef τ sig) := by
  simp only [after_cons, after_nil]
  rfl

attribute [local irreducible] Host.gather concatenate broadcastInDim in
set_option maxRecDepth 16384 in
set_option maxHeartbeats 1000000 in
theorem afterC_v32 (V : Valuation τ sig (Elt F)) :
    after opsC V (main_v32 : DevRef τ sig)
      = select
          (cmpi .slt
            (broadcastInDim S1024x1024 ![0, 1] bcast_S1x1024_S1024x1024_0_1
              (broadcastInDim S1x1024 ![1] bcast_S1024_S1x1024_1 (V (main_v5 : DevRef τ sig))))
            (broadcastInDim S1024x1024 ![0, 1] bcast_S1024x1_S1024x1024_0_1
              (broadcastInDim S1024x1 ![0] bcast_S1024_S1024x1_0 (V (main_v4 : DevRef τ sig)))))
          (floorDivS bcast_S_S1024x1024 (V (main_v25 : DevRef τ sig)) (V (main_c_7 : DevRef τ sig)))
          (broadcastInDim S1024x1024 ![] bcast_S_S1024x1024 (id (constantI S_ 32 0#32))) := by
  simp only [after_cons, after_nil]
  rfl
attribute [local irreducible] Host.gather concatenate broadcastInDim in
set_option maxRecDepth 16384 in
set_option maxHeartbeats 1000000 in
theorem afterC_arg0 (V : Valuation τ sig (Elt F)) : after opsC V (main_arg0 : DevRef τ sig) = V (main_arg0 : DevRef τ sig) := by
  simp only [after_cons, after_nil]
  rfl
attribute [local irreducible] Host.gather concatenate broadcastInDim in
set_option maxRecDepth 16384 in
set_option maxHeartbeats 1000000 in
theorem afterC_arg1 (V : Valuation τ sig (Elt F)) : after opsC V (main_arg1 : DevRef τ sig) = V (main_arg1 : DevRef τ sig) := by
  simp only [after_cons, after_nil]
  rfl
attribute [local irreducible] Host.gather concatenate broadcastInDim in
set_option maxRecDepth 16384 in
set_option maxHeartbeats 1000000 in
theorem afterC_arg2 (V : Valuation τ sig (Elt F)) : after opsC V (main_arg2 : DevRef τ sig) = V (main_arg2 : DevRef τ sig) := by
  simp only [after_cons, after_nil]
  rfl

/-- The whole line leaves the result at `refTerm` of what it found at the arguments. -/
theorem out_eq (V : Valuation τ sig (Elt F)) :
    after ops V (main_v32 : DevRef τ sig)
      = refTerm (F := F) (V (main_arg0 : DevRef τ sig)) (V (main_arg1 : DevRef τ sig)) (V (main_arg2 : DevRef τ sig)) := by
  rw [ops_eq, after_append, after_append, afterC_v32, afterB_v25, afterB_v5, afterB_c7, afterB_v4, afterA_v4, afterA_arg0, afterA_arg1]
  rfl

theorem arg0_eq (V : Valuation τ sig (Elt F)) : after ops V (main_arg0 : DevRef τ sig) = V (main_arg0 : DevRef τ sig) := by
  rw [ops_eq, after_append, after_append, afterC_arg0, afterB_arg0, afterA_arg0]
theorem arg1_eq (V : Valuation τ sig (Elt F)) : after ops V (main_arg1 : DevRef τ sig) = V (main_arg1 : DevRef τ sig) := by
  rw [ops_eq, after_append, after_append, afterC_arg1, afterB_arg1, afterA_arg1]
theorem arg2_eq (V : Valuation τ sig (Elt F)) : after ops V (main_arg2 : DevRef τ sig) = V (main_arg2 : DevRef τ sig) := by
  rw [ops_eq, after_append, after_append, afterC_arg2, afterB_arg2, afterA_arg2]

/-! ## The run -/

/-- On every device, for any float values, from any memory with zero counters: every weakly fair execution of the
    program terminates with the result at `refTerm` of the arguments and the arguments unchanged. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v32) = refTerm (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v32).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m g)

/-! ## The term read at an index -/

/-- Floor division by 64 at an element is the arithmetic shift right by 6 of the element. -/
theorem floorDivS_apply {s : Shape} (hb : S_.BroadcastsInDim s ![]) (x : IVec s 32) (i : s.Idx) :
    floorDivS hb x (constantI S_ 32 64#32) i = IntOp.shrsi .vector (x i) 6#32 :=
  (show floorDivS hb x (constantI S_ 32 64#32) i
      = Scalar.select (IntOp.andi (IntOp.cmpi .ne (Cert.Words.sgn (x i)) (Cert.Words.sgn 64#32))
            (IntOp.cmpi .ne (IntOp.remsi .host (x i) 64#32) 0#32))
          (IntOp.subi (IntOp.divsi .host (x i) 64#32) 1#32) (IntOp.divsi .host (x i) 64#32) from rfl).trans
    (Cert.Words.floorDiv64 (x i))

/-- The page count of request `b` is the specification's. -/
theorem numPages_apply (len : IVec S1024 32) (b : Fin 1024) : numPages len (ix1 b) = Cert.Spec.pages (len (ix1 b)) := by
  unfold numPages
  rw [floorDivS_apply]
  show IntOp.shrsi .vector (IntOp.subi (IntOp.addi (len (ix1 b)) 64#32) 1#32) 6#32 = _
  rw [Cert.Words.add64sub1]
  rfl

/-- The row start index of request `b` is its pool index, when that is below 4096. -/
theorem rowIdx_apply (idx : IVec S1024 32) (b : Fin 1024) (h : (idx (ix1 b)).toNat < 4096) :
    rowIdx idx (ix2 b (0 : Fin 1)) = idx (ix1 b) := by
  have e : broadcastInDim S1024x1 ![0] bcast_S1024_S1024x1_0 idx (ix2 b (0 : Fin 1)) = idx (ix1 b) :=
    broadcastInDim_apply _ _ _ _ (ix1 b) (fun a => match a with | ⟨0, _⟩ => rfl)
  show Scalar.select (IntOp.cmpi .slt (broadcastInDim S1024x1 ![0] bcast_S1024_S1024x1_0 idx (ix2 b (0 : Fin 1))) 0#32)
      (IntOp.addi (broadcastInDim S1024x1 ![0] bcast_S1024_S1024x1_0 idx (ix2 b (0 : Fin 1))) 4096#32)
      (broadcastInDim S1024x1 ![0] bcast_S1024_S1024x1_0 idx (ix2 b (0 : Fin 1))) = _
  rw [e]
  exact Cert.Words.wrapRow _ h

/-- The column start index of page `p` is `64 * p`. -/
theorem colIdx_apply (p : Fin 1024) : colIdx (ix2 (0 : Fin 1) p) = BitVec.ofNat 32 (64 * p.val) := by
  have e : broadcastInDim S1x1024 ![1] bcast_S1024_S1x1024_1
      (muli (iotaInDim S1024 32 0) (broadcastInDim S1024 ![] bcast_S_S1024 (constantI S_ 32 64#32))) (ix2 (0 : Fin 1) p)
      = BitVec.ofNat 32 (64 * p.val) :=
    (broadcastInDim_apply _ _ _ _ (ix1 p) (fun a => match a with | ⟨0, _⟩ => rfl)).trans
      ((show muli (iotaInDim S1024 32 0) (broadcastInDim S1024 ![] bcast_S_S1024 (constantI S_ 32 64#32)) (ix1 p)
          = IntOp.muli (BitVec.ofNat 32 p.val) 64#32 from rfl).trans (Cert.Words.colWord p))
  show Scalar.select (IntOp.cmpi .slt (broadcastInDim S1x1024 ![1] bcast_S1024_S1x1024_1
        (muli (iotaInDim S1024 32 0) (broadcastInDim S1024 ![] bcast_S_S1024 (constantI S_ 32 64#32))) (ix2 (0 : Fin 1) p)) 0#32)
      (IntOp.addi (broadcastInDim S1x1024 ![1] bcast_S1024_S1x1024_1
        (muli (iotaInDim S1024 32 0) (broadcastInDim S1024 ![] bcast_S_S1024 (constantI S_ 32 64#32))) (ix2 (0 : Fin 1) p)) 65536#32)
      (broadcastInDim S1x1024 ![1] bcast_S1024_S1x1024_1
        (muli (iotaInDim S1024 32 0) (broadcastInDim S1024 ![] bcast_S_S1024 (constantI S_ 32 64#32))) (ix2 (0 : Fin 1) p)) = _
  rw [e]
  exact Cert.Words.wrapCol p

/-- The first plane of the start indices at `(b, p)` is the row start index of `b`. -/
theorem startIdx_apply_row (idx : IVec S1024 32) (b p : Fin 1024) :
    startIdx idx (ix3 b p (0 : Fin 2)) = rowIdx idx (ix2 b (0 : Fin 1)) := by
  unfold startIdx
  refine (concatenate_pair_apply_left (t := S1024x1024x2) (s₁ := S1024x1024x1) (s₂ := S1024x1024x1) (2 : Fin 3) _ _ _ (ix3 b p (0 : Fin 2)) rfl (ix3 b p (0 : Fin 1))
    (fun c => match c with | ⟨0, _⟩ => rfl | ⟨1, _⟩ => rfl | ⟨2, _⟩ => rfl)).trans ?_
  refine (broadcastInDim_apply _ _ _ _ (ix2 b p) (fun a => match a with | ⟨0, _⟩ => rfl | ⟨1, _⟩ => rfl)).trans ?_
  exact broadcastInDim_apply _ _ _ _ (ix2 b (0 : Fin 1)) (fun a => match a with | ⟨0, _⟩ => rfl | ⟨1, _⟩ => rfl)

/-- The second plane of the start indices at `(b, p)` is the column start index of `p`. -/
theorem startIdx_apply_col (idx : IVec S1024 32) (b p : Fin 1024) :
    startIdx idx (ix3 b p (1 : Fin 2)) = colIdx (ix2 (0 : Fin 1) p) := by
  unfold startIdx
  refine (concatenate_pair_apply_right (t := S1024x1024x2) (s₁ := S1024x1024x1) (s₂ := S1024x1024x1) (2 : Fin 3) _ _ _ (ix3 b p (1 : Fin 2)) rfl rfl (ix3 b p (0 : Fin 1))
    (fun c hc => match c, hc with | ⟨0, _⟩, _ => rfl | ⟨1, _⟩, _ => rfl | ⟨2, _⟩, hc => absurd rfl hc) rfl).trans ?_
  refine (broadcastInDim_apply _ _ _ _ (ix2 b p) (fun a => match a with | ⟨0, _⟩ => rfl | ⟨1, _⟩ => rfl)).trans ?_
  exact broadcastInDim_apply _ _ _ _ (ix2 (0 : Fin 1) p) (fun a => match a with | ⟨0, _⟩ => rfl | ⟨1, _⟩ => rfl)

/-- The gather at `(b, p)` reads the table at the two start indices of `(b, p)`, each read signed and clamped into its
    axis of the table. -/
theorem gathered_apply (tok : IVec S4096x65536 32) (idx : IVec S1024 32) (b p : Fin 1024) :
    gathered tok idx (ix2 b p)
      = tok (ix2 (⟨min (startIdx idx (ix3 b p (0 : Fin 2))).toInt.toNat 4095, by omega⟩ : Fin 4096)
          (⟨min (startIdx idx (ix3 b p (1 : Fin 2))).toInt.toNat 65535, by omega⟩ : Fin 65536)) := by
  unfold gathered Host.gather
  congr 1
  funext a
  refine Fin.ext ?_
  match a with
  | ⟨0, _⟩ =>
    show gather_S4096x65536_S1024x1024x2_S1024x1024_n_01_n_n_01_2_11.start (ix2 b p) (startIdx idx) 0
        + gather_S4096x65536_S1024x1024x2_S1024x1024_n_01_n_n_01_2_11.batchCoord (ix2 b p) 0
        + gather_S4096x65536_S1024x1024x2_S1024x1024_n_01_n_n_01_2_11.offCoord (ix2 b p) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S4096x65536_S1024x1024x2_S1024x1024_n_01_n_n_01_2_11.startIndexMap from by decide)]
    have hsi : gather_S4096x65536_S1024x1024x2_S1024x1024_n_01_n_n_01_2_11.siIdx (ix2 b p)
        ⟨List.idxOf (0 : Fin 2) gather_S4096x65536_S1024x1024x2_S1024x1024_n_01_n_n_01_2_11.startIndexMap,
          List.idxOf_lt_length_iff.2 (by decide)⟩ = ix3 b p (0 : Fin 2) := by
      funext c; refine Fin.ext ?_
      match c with
      | ⟨0, _⟩ => rfl
      | ⟨1, _⟩ => rfl
      | ⟨2, _⟩ => rfl
    rw [hsi]
    rfl
  | ⟨1, _⟩ =>
    show gather_S4096x65536_S1024x1024x2_S1024x1024_n_01_n_n_01_2_11.start (ix2 b p) (startIdx idx) 1
        + gather_S4096x65536_S1024x1024x2_S1024x1024_n_01_n_n_01_2_11.batchCoord (ix2 b p) 1
        + gather_S4096x65536_S1024x1024x2_S1024x1024_n_01_n_n_01_2_11.offCoord (ix2 b p) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S4096x65536_S1024x1024x2_S1024x1024_n_01_n_n_01_2_11.startIndexMap from by decide)]
    have hsi : gather_S4096x65536_S1024x1024x2_S1024x1024_n_01_n_n_01_2_11.siIdx (ix2 b p)
        ⟨List.idxOf (1 : Fin 2) gather_S4096x65536_S1024x1024x2_S1024x1024_n_01_n_n_01_2_11.startIndexMap,
          List.idxOf_lt_length_iff.2 (by decide)⟩ = ix3 b p (1 : Fin 2) := by
      funext c; refine Fin.ext ?_
      match c with
      | ⟨0, _⟩ => rfl
      | ⟨1, _⟩ => rfl
      | ⟨2, _⟩ => rfl
    rw [hsi]
    rfl

/-- Page `p` of request `b` is live when `p` is below the specification's page count of `b`, as signed words. -/
theorem live_apply (len : IVec S1024 32) (b p : Fin 1024) :
    live len (ix2 b p) = IntOp.cmpi .slt (BitVec.ofNat 32 p.val) (Cert.Spec.pages (len (ix1 b))) := by
  have e1 : broadcastInDim S1024x1024 ![0, 1] bcast_S1x1024_S1024x1024_0_1
      (broadcastInDim S1x1024 ![1] bcast_S1024_S1x1024_1 (iotaInDim S1024 32 0)) (ix2 b p) = BitVec.ofNat 32 p.val :=
    (broadcastInDim_apply _ _ _ _ (ix2 (0 : Fin 1) p) (fun a => match a with | ⟨0, _⟩ => rfl | ⟨1, _⟩ => rfl)).trans
      (broadcastInDim_apply _ _ _ _ (ix1 p) (fun a => match a with | ⟨0, _⟩ => rfl))
  have e2 : broadcastInDim S1024x1024 ![0, 1] bcast_S1024x1_S1024x1024_0_1
      (broadcastInDim S1024x1 ![0] bcast_S1024_S1024x1_0 (numPages len)) (ix2 b p) = Cert.Spec.pages (len (ix1 b)) :=
    ((broadcastInDim_apply _ _ _ _ (ix2 b (0 : Fin 1)) (fun a => match a with | ⟨0, _⟩ => rfl | ⟨1, _⟩ => rfl)).trans
      (broadcastInDim_apply _ _ _ _ (ix1 b) (fun a => match a with | ⟨0, _⟩ => rfl))).trans (numPages_apply len b)
  show IntOp.cmpi .slt (broadcastInDim S1024x1024 ![0, 1] bcast_S1x1024_S1024x1024_0_1
      (broadcastInDim S1x1024 ![1] bcast_S1024_S1x1024_1 (iotaInDim S1024 32 0)) (ix2 b p))
    (broadcastInDim S1024x1024 ![0, 1] bcast_S1024x1_S1024x1024_0_1
      (broadcastInDim S1024x1 ![0] bcast_S1024_S1024x1_0 (numPages len)) (ix2 b p)) = _
  rw [e1, e2]

/-- Under "every pool index is below 4096" the reference's value at `(b, p)` is the specification's. -/
theorem refTerm_apply (tok : IVec S4096x65536 32) (idx len : IVec S1024 32) (h : ∀ k : Fin 1024, (idx (ix1 k)).toNat < 4096)
    (b p : Fin 1024) : refTerm (F := F) tok idx len (ix2 b p) = Cert.Spec.Gat tok idx len b p := by
  show Scalar.select (live len (ix2 b p)) (floorDivS bcast_S_S1024x1024 (gathered tok idx) (constantI S_ 32 64#32) (ix2 b p)) 0#32 = _
  rw [live_apply, floorDivS_apply, gathered_apply]
  unfold Cert.Spec.Gat
  congr 3
  funext a
  refine Fin.ext ?_
  match a with
  | ⟨0, _⟩ =>
    show min (startIdx idx (ix3 b p (0 : Fin 2))).toInt.toNat 4095 = (Cert.Spec.rowOf (idx (ix1 b))).val
    rw [startIdx_apply_row, rowIdx_apply idx b (h b), Cert.Words.clampRow _ (h b), Cert.Spec.rowOf_val _ (h b)]
  | ⟨1, _⟩ =>
    show min (startIdx idx (ix3 b p (1 : Fin 2))).toInt.toNat 65535 = 64 * p.val
    rw [startIdx_apply_col, colIdx_apply, Cert.Words.clampCol]

end Cert.ReferenceIdeal.RefRun

end
-- ==== Proof.lean ====
/-
  The certificate: the kernel that gathers, for each of 1024 requests, the page-first tokens of the pool row its index
  names and turns them into page numbers — against the reference's strided two-index gather.

  Both programs compute, for request `b` and page `p`, the word `tok[idx[b], 64 p]` divided by the page size 64 when
  `p` is below the request's page count, and zero elsewhere (`Cert.Spec.G`). The kernel shifts right by 6 arithmetically
  where the reference floor-divides by 64, and forms `len + 63` where the reference forms `(len + 64) - 1`: the same
  32-bit words for every input. The kernel copies a whole strided row of the token table per request by its own
  transfers, so each pool index must name a row of the table: the precondition, under which the reference's wrap of
  negative indices and its clamp into the table are the identity too.

  The three frames: the kernel's at both instances is its launch — 16 grid points, at each 64 copies started on 64
  semaphores and then waited for, the token table lent to them by read shares —; the reference's is its run with the
  result dropped. The idealization rewrote nothing, so `preserves` is trivial. For the value, both runs end with the
  result at `Cert.Spec.G` of the arguments, which agree.
-/
import proofs.«412879_j28681791602762_2_alg».proof.Defs
import proofs.«412879_j28681791602762_2_alg».proof.Proof.Gen.Kernel
import proofs.«412879_j28681791602762_2_alg».proof.Proof.Gen.KernelIdeal
import proofs.«412879_j28681791602762_2_alg».proof.Proof.Gen.ReferenceIdeal
import proofs.«412879_j28681791602762_2_alg».proof.Proof.Gen.Pre_any_inputs
import proofs.«412879_j28681791602762_2_alg».proof.Proof.K.Frame
import proofs.«412879_j28681791602762_2_alg».proof.Proof.KI.Value
import proofs.«412879_j28681791602762_2_alg».proof.Proof.RefRun
import proofs.«412879_j28681791602762_2_alg».proof.Proof.PreRange

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m g hpre => Cert.Kernel.Hand.frame m g hpre

/-- So does the kernel read at the ideal instance. -/
theorem frame_ki : Cert.frame_KernelIdeal := fun m g hpre => Cert.KernelIdeal.Hand.frame m g hpre

/-- The reference's frame is its run with the result dropped. -/
theorem frame_ri : Cert.frame_ReferenceIdeal := fun m g _ =>
  (θ_run Cert.ReferenceIdeal.defs _ _).mono (fun _ h c => (h c).2) (Cert.ReferenceIdeal.RefRun.run (F := Ideal) m g)

/-- The idealization rewrote no operation. -/
theorem preserves : Cert.preserves_Kernel_KernelIdeal := trivial

/-- Both programs end with the result at the specification's function of the arguments: the kernel by its launch read
    block by block, the reference by its run read index by index under the precondition's range of the pool indices. -/
theorem algebraic : Cert.algebraic_KernelIdeal_ReferenceIdeal := by
  intro m g m' g' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.value m g hpre, ?_⟩
  refine (θ_run Cert.ReferenceIdeal.defs _ _).mono (fun _ h c => ⟨?_, (h c).2⟩) (Cert.ReferenceIdeal.RefRun.run (F := Ideal) m' g')
  rw [(h c).1, (hagree c).1, (hagree c).2.1, (hagree c).2.2]
  funext y
  obtain ⟨b, p, rfl⟩ : ∃ (b p : Fin 1024), y = ix2 b p := ⟨y 0, y 1, eq_ix2 y⟩
  rw [Cert.ReferenceIdeal.RefRun.refTerm_apply (F := Ideal) _ _ _ (fun k => Cert.PreRange.idx_lt (F := Ideal) _ _ _ (hpre c) k) b p]
  rfl

theorem claim : Cert.Claim :=
  ⟨Cert.Kernel.Gen.facts, Cert.KernelIdeal.Gen.facts, Cert.ReferenceIdeal.Gen.facts, Cert.Pre_any_inputs.Gen.facts,
    frame_k, frame_ki, frame_ri, preserves, algebraic⟩

end Cert.Proof

end
